-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32x4 : Shape := ⟨3, ![100000, 32, 4]⟩
abbrev S100000 : Shape := ⟨1, ![100000]⟩
abbrev S100000x2 : Shape := ⟨2, ![100000, 2]⟩
abbrev S64x9 : Shape := ⟨2, ![64, 9]⟩
abbrev S64 : Shape := ⟨1, ![64]⟩
abbrev S_ : Shape := ⟨0, ![]⟩

class Facts : Prop where
  bcast_S_S100000x32x4 : S_.BroadcastsInDim S100000x32x4 (![] : Fin 0 → Fin S100000x32x4.rank)
  reducesTo_S100000x32x4_S_d0_1_2 : S100000x32x4.ReducesTo [0, 1, 2] S_
  h_S_ : 0 < S_.numel
  bcast_S_S100000x2 : S_.BroadcastsInDim S100000x2 (![] : Fin 0 → Fin S100000x2.rank)
  reducesTo_S100000x2_S_d0_1 : S100000x2.ReducesTo [0, 1] S_
  bcast_S_S64x9 : S_.BroadcastsInDim S64x9 (![] : Fin 0 → Fin S64x9.rank)
  reducesTo_S64x9_S_d0_1 : S64x9.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x32x4 .f32) (main_arg1 : IVec S100000 32) (main_arg2 : FVec F S100000x2 .f32) (main_arg3 : FVec F S64x9 .f32) (main_arg4 : FVec F S64 .f32) (main_arg5 : FVec F S64 .f32) : IVec S_ 1 :=
  let main_v0 : FVec F S100000x32x4 .f32 := Host.absf main_arg0
  let main_cst : FVec F S_ .f32 := constant S_ .f32 0x7F800000#32
  let main_v1 : FVec F S100000x32x4 .f32 := broadcastInDim S100000x32x4 ![] bcast_S_S100000x32x4 main_cst
  let main_v2 : IVec S100000x32x4 1 := cmpf .olt main_v0 main_v1
  let main_c : IVec S_ 1 := constantI S_ 1 1#1
  let main_v3 : IVec S_ 1 := (fun x v => Host.reduce IntOp.andi x v reducesTo_S100000x32x4_S_d0_1_2 h_S_) main_v2 main_c
  let main_v4 : FVec F S100000x2 .f32 := Host.absf main_arg2
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S64x9 .f32 := Host.absf main_arg3
  let main_cst_2 : FVec F S_ .f32 := constant S_ .f32 0x7F800000#32
  let main_v10 : FVec F S64x9 .f32 := broadcastInDim S64x9 ![] bcast_S_S64x9 main_cst_2
  let main_v11 : IVec S64x9 1 := cmpf .olt main_v9 main_v10
  let main_c_3 : IVec S_ 1 := constantI S_ 1 1#1
  let main_v12 : IVec S_ 1 := (fun x v => Host.reduce IntOp.andi x v reducesTo_S64x9_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S100000x32x4 : Shape := ⟨3, ![100000, 32, 4]⟩
abbrev S100000 : Shape := ⟨1, ![100000]⟩
abbrev S100000x2 : Shape := ⟨2, ![100000, 2]⟩
abbrev S64x9 : Shape := ⟨2, ![64, 9]⟩
abbrev S64 : Shape := ⟨1, ![64]⟩
abbrev S100000x1 : Shape := ⟨2, ![100000, 1]⟩
abbrev S9x64 : Shape := ⟨2, ![9, 64]⟩
abbrev S4x64 : Shape := ⟨2, ![4, 64]⟩
abbrev S3x64 : Shape := ⟨2, ![3, 64]⟩
abbrev S2x64 : Shape := ⟨2, ![2, 64]⟩
abbrev S1x64 : Shape := ⟨2, ![1, 64]⟩
abbrev S200x32x4 : Shape := ⟨3, ![200, 32, 4]⟩
abbrev S200x1 : Shape := ⟨2, ![200, 1]⟩
abbrev S200x2 : Shape := ⟨2, ![200, 2]⟩
abbrev S200x32x3 : Shape := ⟨3, ![200, 32, 3]⟩
abbrev S200x32x2 : Shape := ⟨3, ![200, 32, 2]⟩
abbrev S200x3 : Shape := ⟨2, ![200, 3]⟩
abbrev S200x1x3 : Shape := ⟨3, ![200, 1, 3]⟩
abbrev S200x1x2 : Shape := ⟨3, ![200, 1, 2]⟩
abbrev S6400x4 : Shape := ⟨2, ![6400, 4]⟩
abbrev S6400x3 : Shape := ⟨2, ![6400, 3]⟩
abbrev S6400x2 : Shape := ⟨2, ![6400, 2]⟩
abbrev S6400x64 : Shape := ⟨2, ![6400, 64]⟩
abbrev S200x32x64 : Shape := ⟨3, ![200, 32, 64]⟩
abbrev S200x32 : Shape := ⟨2, ![200, 32]⟩
abbrev S200x32x1 : Shape := ⟨3, ![200, 32, 1]⟩
abbrev S200x64 : Shape := ⟨2, ![200, 64]⟩
abbrev S_ : Shape := ⟨0, ![]⟩
abbrev S100000x64 : Shape := ⟨2, ![100000, 64]⟩
abbrev S1x1x64 : Shape := ⟨3, ![1, 1, 64]⟩

abbrev nBuf : Space → Nat
  | .hbm => 28
  | .vmem => 26
  | .smem => 0
  | _ => 0

abbrev bufTy : (tb : Table) → Fin (tcTables nBuf tb) → BufTy
  | .hbm, ⟨0, _⟩ => ⟨S100000x32x4, .f32⟩
  | .hbm, ⟨1, _⟩ => ⟨S100000, .i32⟩
  | .hbm, ⟨2, _⟩ => ⟨S100000x2, .f32⟩
  | .hbm, ⟨3, _⟩ => ⟨S64x9, .f32⟩
  | .hbm, ⟨4, _⟩ => ⟨S64, .f32⟩
  | .hbm, ⟨5, _⟩ => ⟨S64, .f32⟩
  | .hbm, ⟨6, _⟩ => ⟨S100000x1, .i32⟩
  | .hbm, ⟨7, _⟩ => ⟨S9x64, .f32⟩
  | .hbm, ⟨8, _⟩ => ⟨S4x64, .f32⟩
  | .hbm, ⟨9, _⟩ => ⟨S3x64, .f32⟩
  | .hbm, ⟨10, _⟩ => ⟨S2x64, .f32⟩
  | .hbm, ⟨11, _⟩ => ⟨S1x64, .f32⟩
  | .hbm, ⟨12, _⟩ => ⟨S1x64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S100000x64, .f32⟩
  | .local _ .vmem, ⟨0, _⟩ => ⟨S200x32x4, .f32⟩
  | .local _ .vmem, ⟨1, _⟩ => ⟨S200x32x4, .f32⟩
  | .local _ .vmem, ⟨2, _⟩ => ⟨S200x1, .i32⟩
  | .local _ .vmem, ⟨3, _⟩ => ⟨S200x1, .i32⟩
  | .local _ .vmem, ⟨4, _⟩ => ⟨S200x2, .f32⟩
  | .local _ .vmem, ⟨5, _⟩ => ⟨S200x2, .f32⟩
  | .local _ .vmem, ⟨6, _⟩ => ⟨S4x64, .f32⟩
  | .local _ .vmem, ⟨7, _⟩ => ⟨S3x64, .f32⟩
  | .local _ .vmem, ⟨8, _⟩ => ⟨S2x64, .f32⟩
  | .local _ .vmem, ⟨9, _⟩ => ⟨S1x64, .f32⟩
  | .local _ .vmem, ⟨10, _⟩ => ⟨S1x64, .f32⟩
  | .local _ .vmem, ⟨11, _⟩ => ⟨S200x32x4, .f32⟩
  | .local _ .vmem, ⟨12, _⟩ => ⟨S200x32x4, .f32⟩
  | .local _ .vmem, ⟨13, _⟩ => ⟨S200x1, .i32⟩
  | .local _ .vmem, ⟨14, _⟩ => ⟨S200x1, .i32⟩
  | .local _ .vmem, ⟨15, _⟩ => ⟨S200x2, .f32⟩
  | .local _ .vmem, ⟨16, _⟩ => ⟨S200x2, .f32⟩
  | .local _ .vmem, ⟨17, _⟩ => ⟨S4x64, .f32⟩
  | .local _ .vmem, ⟨18, _⟩ => ⟨S3x64, .f32⟩
  | .local _ .vmem, ⟨19, _⟩ => ⟨S2x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S200x64, .f32⟩
  | .local _ .vmem, ⟨25, _⟩ => ⟨S200x64, .f32⟩
  | _, _ => ⟨S100000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![500], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x32x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![500], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x32x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S200x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  shapeCasts_S100000_S100000x1 : S100000.ShapeCasts S100000x1
  transposes_S64x9_S9x64_1_0 : S64x9.Transposes [1, 0] S9x64
  slices_S9x64_S4x64_0_0 : S9x64.Slices ![0, 0] S4x64
  slices_S9x64_S3x64_4_0 : S9x64.Slices ![4, 0] S3x64
  slices_S9x64_S2x64_7_0 : S9x64.Slices ![7, 0] S2x64
  inb_S1x64_S1x64_0_0 : ∀ a, (![0, 0] : Fin 2 → Nat) a + S1x64.size a ≤ S1x64.size a
  h_S1x64 : 0 < S1x64.numel
  inb_S200x32x4_S200x32x4_0_0_0 : ∀ a, (![0, 0, 0] : Fin 3 → Nat) a + S200x32x4.size a ≤ S200x32x4.size a
  h_S200x32x4 : 0 < S200x32x4.numel
  inb_S200x2_S200x2_0_0 : ∀ a, (![0, 0] : Fin 2 → Nat) a + S200x2.size a ≤ S200x2.size a
  h_S200x2 : 0 < S200x2.numel
  inb_S200x1_S200x1_0_0 : ∀ a, (![0, 0] : Fin 2 → Nat) a + S200x1.size a ≤ S200x1.size a
  h_S200x1 : 0 < S200x1.numel
  shapeCasts_S200x1_S200x1 : S200x1.ShapeCasts S200x1
  slices_S200x32x4_o0_0_0_S200x32x3 : S200x32x4.Slices ![0, 0, 0] S200x32x3
  slices_S200x32x4_o0_0_0_S200x32x2 : S200x32x4.Slices ![0, 0, 0] S200x32x2
  reduces_S200x32x3_S200x3 : S200x32x3.Reduces [1] S200x3
  broadcasts_S200x1_S200x3 : S200x1.Broadcasts S200x3
  shapeCasts_S200x3_S200x1x3 : S200x3.ShapeCasts S200x1x3
  broadcasts_S200x1x3_S200x32x3 : S200x1x3.Broadcasts S200x32x3
  shapeCasts_S200x2_S200x1x2 : S200x2.ShapeCasts S200x1x2
  broadcasts_S200x1x2_S200x32x2 : S200x1x2.Broadcasts S200x32x2
  shapeCasts_S200x32x4_S6400x4 : S200x32x4.ShapeCasts S6400x4
  shapeCasts_S200x32x3_S6400x3 : S200x32x3.ShapeCasts S6400x3
  shapeCasts_S200x32x2_S6400x2 : S200x32x2.ShapeCasts S6400x2
  inb_S4x64_S4x64_0_0 : ∀ a, (![0, 0] : Fin 2 → Nat) a + S4x64.size a ≤ S4x64.size a
  h_S4x64 : 0 < S4x64.numel
  shapeCasts_S4x64_S4x64 : S4x64.ShapeCasts S4x64
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S2x64_S2x64_0_0 : ∀ a, (![0, 0] : Fin 2 → Nat) a + S2x64.size a ≤ S2x64.size a
  h_S2x64 : 0 < S2x64.numel
  shapeCasts_S2x64_S2x64 : S2x64.ShapeCasts S2x64
  shapeCasts_S6400x64_S200x32x64 : S6400x64.ShapeCasts S200x32x64
  iota_S200x32_d1_w32 : S200x32.Iotas .tc 32 [1]
  broadcasts_S200x1_S200x32 : S200x1.Broadcasts S200x32
  natLt_1_32 : 1 < 32
  shapeCasts_S200x32_S200x32x1 : S200x32.ShapeCasts S200x32x1
  broadcasts_S200x32x1_S200x32x64 : S200x32x1.Broadcasts S200x32x64
  reduces_S200x32x64_S200x64 : S200x32x64.Reduces [1] S200x64
  reduces_S200x64_S64 : S200x64.Reduces [0] S64
  shapeCasts_S1x64_S1x64 : S1x64.ShapeCasts S1x64
  shapeCasts_S64_S1x64 : S64.ShapeCasts S1x64
  shapeCasts_S1x64_S64 : S1x64.ShapeCasts S64
  bcast_S_S64 : S_.BroadcastsInDim S64 (![] : Fin 0 → Fin S64.rank)
  shapeCasts_S1x64_S1x1x64 : S1x64.ShapeCasts S1x1x64
  broadcasts_S1x1x64_S200x32x64 : S1x1x64.Broadcasts S200x32x64
  inb_S200x64_S200x64_0_0 : ∀ a, (![0, 0] : Fin 2 → Nat) a + S200x64.size a ≤ S200x64.size a
  h_S200x64 : 0 < S200x64.numel
  dot_S6400x4_S4x64_S6400x64_1_0_0_1_n_n_wf : DotDims.WF S6400x4 S4x64 S6400x64 [1] [0] [0] [1] [] []
  dot_S6400x3_S3x64_S6400x64_1_0_0_1_n_n_wf : DotDims.WF S6400x3 S3x64 S6400x64 [1] [0] [0] [1] [] []
  dot_S6400x2_S2x64_S6400x64_1_0_0_1_n_n_wf : DotDims.WF S6400x2 S2x64 S6400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x32x4.size a ≤ S100000x32x4.size a
  hwx0_0 : ∀ i : grid0.Coords, EltTy.bits .f32 = 32 ∨ (Rect.block (s := S100000x32x4) S200x32x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x1.size a ≤ S100000x1.size a
  hwx0_1 : ∀ i : grid0.Coords, EltTy.bits .i32 = 32 ∨ (Rect.block (s := S100000x1) S200x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x2.size a ≤ S100000x2.size a
  hwx0_2 : ∀ i : grid0.Coords, EltTy.bits .f32 = 32 ∨ (Rect.block (s := S100000x2) S200x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64.size a ≤ S4x64.size a
  hwx0_3 : ∀ i : grid0.Coords, EltTy.bits .f32 = 32 ∨ (Rect.block (s := S4x64) S4x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .f32 = 32 ∨ (Rect.block (s := S3x64) S3x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x64.size a ≤ S2x64.size a
  hwx0_5 : ∀ i : grid0.Coords, EltTy.bits .f32 = 32 ∨ (Rect.block (s := S2x64) S2x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x32x4.size a ≤ S100000x32x4.size a
  hwx1_0 : ∀ i : grid1.Coords, EltTy.bits .f32 = 32 ∨ (Rect.block (s := S100000x32x4) S200x32x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x1.size a ≤ S100000x1.size a
  hwx1_1 : ∀ i : grid1.Coords, EltTy.bits .i32 = 32 ∨ (Rect.block (s := S100000x1) S200x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x2.size a ≤ S100000x2.size a
  hwx1_2 : ∀ i : grid1.Coords, EltTy.bits .f32 = 32 ∨ (Rect.block (s := S100000x2) S200x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x64.size a ≤ S4x64.size a
  hwx1_3 : ∀ i : grid1.Coords, EltTy.bits .f32 = 32 ∨ (Rect.block (s := S4x64) S4x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x64.size a ≤ S3x64.size a
  hwx1_4 : ∀ i : grid1.Coords, EltTy.bits .f32 = 32 ∨ (Rect.block (s := S3x64) S3x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2x64.size a ≤ S2x64.size a
  hwx1_5 : ∀ i : grid1.Coords, EltTy.bits .f32 = 32 ∨ (Rect.block (s := S2x64) S2x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S200x64.size a ≤ S100000x64.size a
  hwx1_10 : ∀ i : grid1.Coords, EltTy.bits .f32 = 32 ∨ (Rect.block (s := S100000x64) S200x64.size (cc1_transform_10 i) (hinb1_10 i)).WholeWords (EltTy.packing .f32)

variable [Facts₀]

def dot_S6400x4_S4x64_S6400x64_1_0_0_1_n_n : DotDims S6400x4 S4x64 S6400x64 where
  lhsContracting := [1]
  rhsContracting := [0]
  lhsNonContracting := [0]
  rhsNonContracting := [1]
  lhsBatch := []
  rhsBatch := []
  wf := dot_S6400x4_S4x64_S6400x64_1_0_0_1_n_n_wf
def dot_S6400x3_S3x64_S6400x64_1_0_0_1_n_n : DotDims S6400x3 S3x64 S6400x64 where
  lhsContracting := [1]
  rhsContracting := [0]
  lhsNonContracting := [0]
  rhsNonContracting := [1]
  lhsBatch := []
  rhsBatch := []
  wf := dot_S6400x3_S3x64_S6400x64_1_0_0_1_n_n_wf
def dot_S6400x2_S2x64_S6400x64_1_0_0_1_n_n : DotDims S6400x2 S2x64 S6400x64 where
  lhsContracting := [1]
  rhsContracting := [0]
  lhsNonContracting := [0]
  rhsNonContracting := [1]
  lhsBatch := []
  rhsBatch := []
  wf := dot_S6400x2_S2x64_S6400x64_1_0_0_1_n_n_wf

abbrev win0_0 : Pipeline.Window sig grid0 :=
  Pipeline.Window.ofSpec (Memref.whole main_arg0) S200x32x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S200x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S200x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S1x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S1x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S200x32x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S200x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S200x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S4x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S3x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S2x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v17) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v18) S200x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x32x4 : Shape := ⟨3, ![100000, 32, 4]⟩
abbrev S100000 : Shape := ⟨1, ![100000]⟩
abbrev S100000x2 : Shape := ⟨2, ![100000, 2]⟩
abbrev S64x9 : Shape := ⟨2, ![64, 9]⟩
abbrev S64 : Shape := ⟨1, ![64]⟩
abbrev S100000x1x1 : Shape := ⟨3, ![100000, 1, 1]⟩
abbrev S100000x32x3 : Shape := ⟨3, ![100000, 32, 3]⟩
abbrev S_ : Shape := ⟨0, ![]⟩
abbrev S100000x3 : Shape := ⟨2, ![100000, 3]⟩
abbrev S100000x1x3 : Shape := ⟨3, ![100000, 1, 3]⟩
abbrev S100000x32x2 : Shape := ⟨3, ![100000, 32, 2]⟩
abbrev S100000x1x2 : Shape := ⟨3, ![100000, 1, 2]⟩
abbrev S100000x32x9 : Shape := ⟨3, ![100000, 32, 9]⟩
abbrev S100000x1 : Shape := ⟨2, ![100000, 1]⟩
abbrev S32 : Shape := ⟨1, ![32]⟩
abbrev S1x32 : Shape := ⟨2, ![1, 32]⟩
abbrev S100000x32 : Shape := ⟨2, ![100000, 32]⟩
abbrev S100000x32x1 : Shape := ⟨3, ![100000, 32, 1]⟩
abbrev S100000x32x64 : Shape := ⟨3, ![100000, 32, 64]⟩
abbrev S1x1x64 : Shape := ⟨3, ![1, 1, 64]⟩
abbrev S100000x64 : Shape := ⟨2, ![100000, 64]⟩

abbrev nBuf : Space → Nat
  | .hbm => 68
  | .vmem => 0
  | .smem => 0
  | _ => 0

abbrev bufTy : (tb : Table) → Fin (tcTables nBuf tb) → BufTy
  | .hbm, ⟨0, _⟩ => ⟨S100000x32x4, .f32⟩
  | .hbm, ⟨1, _⟩ => ⟨S100000, .i32⟩
  | .hbm, ⟨2, _⟩ => ⟨S100000x2, .f32⟩
  | .hbm, ⟨3, _⟩ => ⟨S64x9, .f32⟩
  | .hbm, ⟨4, _⟩ => ⟨S64, .f32⟩
  | .hbm, ⟨5, _⟩ => ⟨S64, .f32⟩
  | .hbm, ⟨6, _⟩ => ⟨S100000, .f32⟩
  | .hbm, ⟨7, _⟩ => ⟨S100000x1x1, .f32⟩
  | .hbm, ⟨8, _⟩ => ⟨S100000x32x3, .f32⟩
  | .hbm, ⟨9, _⟩ => ⟨S_, .f32⟩
  | .hbm, ⟨10, _⟩ => ⟨S100000x3, .f32⟩
  | .hbm, ⟨11, _⟩ => ⟨S100000x1x3, .f32⟩
  | .hbm, ⟨12, _⟩ => ⟨S100000x1x3, .f32⟩
  | .hbm, ⟨13, _⟩ => ⟨S100000x1x3, .f32⟩
  | .hbm, ⟨14, _⟩ => ⟨S100000x32x3, .f32⟩
  | .hbm, ⟨15, _⟩ => ⟨S100000x32x3, .f32⟩
  | .hbm, ⟨16, _⟩ => ⟨S100000x32x3, .f32⟩
  | .hbm, ⟨17, _⟩ => ⟨S100000x32x2, .f32⟩
  | .hbm, ⟨18, _⟩ => ⟨S100000x1x2, .f32⟩
  | .hbm, ⟨19, _⟩ => ⟨S100000x32x2, .f32⟩
  | .hbm, ⟨20, _⟩ => ⟨S100000x32x2, .f32⟩
  | .hbm, ⟨21, _⟩ => ⟨S100000x32x9, .f32⟩
  | .hbm, ⟨22, _⟩ => ⟨S100000x1, .i32⟩
  | .hbm, ⟨23, _⟩ => ⟨S32, .i32⟩
  | .hbm, ⟨24, _⟩ => ⟨S1x32, .i32⟩
  | .hbm, ⟨25, _⟩ => ⟨S100000x32, .i32⟩
  | .hbm, ⟨26, _⟩ => ⟨S100000x32, .i32⟩
  | .hbm, ⟨27, _⟩ => ⟨S100000x32, .i1⟩
  | .hbm, ⟨28, _⟩ => ⟨S100000x32x1, .i1⟩
  | .hbm, ⟨29, _⟩ => ⟨S100000x32x1, .f32⟩
  | .hbm, ⟨30, _⟩ => ⟨S100000x32x9, .f32⟩
  | .hbm, ⟨31, _⟩ => ⟨S100000x32x9, .f32⟩
  | .hbm, ⟨32, _⟩ => ⟨S100000x32x64, .f32⟩
  | .hbm, ⟨33, _⟩ => ⟨S_, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S1x1x64, .f32⟩
  | .hbm, ⟨39, _⟩ => ⟨S100000x32x64, .f32⟩
  | .hbm, ⟨40, _⟩ => ⟨S100000x32x64, .f32⟩
  | .hbm, ⟨41, _⟩ => ⟨S100000x32x64, .f32⟩
  | .hbm, ⟨42, _⟩ => ⟨S_, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S1x1x64, .f32⟩
  | .hbm, ⟨48, _⟩ => ⟨S100000x32x64, .f32⟩
  | .hbm, ⟨49, _⟩ => ⟨S100000x32x64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S1x1x64, .f32⟩
  | .hbm, ⟨55, _⟩ => ⟨S100000x32x64, .f32⟩
  | .hbm, ⟨56, _⟩ => ⟨S100000x32x64, .f32⟩
  | .hbm, ⟨57, _⟩ => ⟨S1x1x64, .f32⟩
  | .hbm, ⟨58, _⟩ => ⟨S100000x32x64, .f32⟩
  | .hbm, ⟨59, _⟩ => ⟨S100000x32x64, .f32⟩
  | .hbm, ⟨60, _⟩ => ⟨S1x1x64, .f32⟩
  | .hbm, ⟨61, _⟩ => ⟨S100000x32x64, .f32⟩
  | .hbm, ⟨62, _⟩ => ⟨S100000x32x64, .f32⟩
  | .hbm, ⟨63, _⟩ => ⟨S_, .f32⟩
  | .hbm, ⟨64, _⟩ => ⟨S100000x32x64, .f32⟩
  | .hbm, ⟨65, _⟩ => ⟨S100000x32x64, .f32⟩
  | .hbm, ⟨66, _⟩ => ⟨S_, .f32⟩
  | .hbm, ⟨67, _⟩ => ⟨S100000x64, .f32⟩
  | _, _ => ⟨S100000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_call0_cst : Ref sig .tc := ⟨.hbm, 63, rfl⟩
abbrev main_call0_v0 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩

abbrev nD : Nat := 1
abbrev τ : Topo := Topo.v7x

variable {F : FTy → Type} [FloatOps F]

class Facts₀ : Prop where
  bcast_S100000_S100000x1x1_0 : S100000.BroadcastsInDim S100000x1x1 (![0] : Fin 1 → Fin S100000x1x1.rank)
  slices_S100000x32x4_S100000x32x3_0_0_0 : S100000x32x4.Slices ![0, 0, 0] S100000x32x3
  reducesTo_S100000x32x3_S100000x3_d1 : S100000x32x3.ReducesTo [1] S100000x3
  h_S_ : 0 < S_.numel
  bcast_S100000x3_S100000x1x3_0_2 : S100000x3.BroadcastsInDim S100000x1x3 (![0, 2] : Fin 2 → Fin S100000x1x3.rank)
  bcast_S100000x1x1_S100000x1x3_0_1_2 : S100000x1x1.BroadcastsInDim S100000x1x3 (![0, 1, 2] : Fin 3 → Fin S100000x1x3.rank)
  bcast_S100000x1x3_S100000x32x3_0_1_2 : S100000x1x3.BroadcastsInDim S100000x32x3 (![0, 1, 2] : Fin 3 → Fin S100000x32x3.rank)
  slices_S100000x32x4_S100000x32x2_0_0_0 : S100000x32x4.Slices ![0, 0, 0] S100000x32x2
  bcast_S100000x2_S100000x1x2_0_2 : S100000x2.BroadcastsInDim S100000x1x2 (![0, 2] : Fin 2 → Fin S100000x1x2.rank)
  bcast_S100000x1x2_S100000x32x2_0_1_2 : S100000x1x2.BroadcastsInDim S100000x32x2 (![0, 1, 2] : Fin 3 → Fin S100000x32x2.rank)
  concatenates_S100000x32x4_S100000x32x3_S100000x32x2_S100000x32x9_d2 : Shape.Concatenates [S100000x32x4, S100000x32x3, S100000x32x2] S100000x32x9 2
  bcast_S100000_S100000x1_0 : S100000.BroadcastsInDim S100000x1 (![0] : Fin 1 → Fin S100000x1.rank)
  bcast_S32_S1x32_1 : S32.BroadcastsInDim S1x32 (![1] : Fin 1 → Fin S1x32.rank)
  bcast_S100000x1_S100000x32_0_1 : S100000x1.BroadcastsInDim S100000x32 (![0, 1] : Fin 2 → Fin S100000x32.rank)
  bcast_S1x32_S100000x32_0_1 : S1x32.BroadcastsInDim S100000x32 (![0, 1] : Fin 2 → Fin S100000x32.rank)
  bcast_S100000x32_S100000x32x1_0_1 : S100000x32.BroadcastsInDim S100000x32x1 (![0, 1] : Fin 2 → Fin S100000x32x1.rank)
  bcast_S100000x32x1_S100000x32x9_0_1_2 : S100000x32x1.BroadcastsInDim S100000x32x9 (![0, 1, 2] : Fin 3 → Fin S100000x32x9.rank)
  reducesTo_S100000x32x64_S64_d0_1 : S100000x32x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S1x1x64_S100000x32x64_0_1_2 : S1x1x64.BroadcastsInDim S100000x32x64 (![0, 1, 2] : Fin 3 → Fin S100000x32x64.rank)
  bcast_S_S100000x32x64 : S_.BroadcastsInDim S100000x32x64 (![] : Fin 0 → Fin S100000x32x64.rank)
  reducesTo_S100000x32x64_S100000x64_d1 : S100000x32x64.ReducesTo [1] S100000x64
  dot_S100000x32x9_S64x9_S100000x32x64_2_1_01_0_n_n_wf : DotDims.WF S100000x32x9 S64x9 S100000x32x64 [2] [1] [0, 1] [0] [] []

variable [Facts₀]

def dot_S100000x32x9_S64x9_S100000x32x64_2_1_01_0_n_n : DotDims S100000x32x9 S64x9 S100000x32x64 where
  lhsContracting := [2]
  rhsContracting := [1]
  lhsNonContracting := [0, 1]
  rhsNonContracting := [0]
  lhsBatch := []
  rhsBatch := []
  wf := dot_S100000x32x9_S64x9_S100000x32x64_2_1_01_0_n_n_wf

class Facts : Prop extends Facts₀ where

variable [Facts]
-- ==== Proof.Spec.lean ====
/-
  The pillar feature layer as plain functions on the extended reals, generic in the number of rows `A`
  (a block of 200 voxels and the whole array of 100000 read the same definitions).

  For a voxel `a`, a point `p` and an output channel `o`:
  * `msk w p` is 1 when the point count `w` (a signed word) exceeds `p`, else 0;
  * `cmean` is the per-voxel mean of the first three coordinates: their sum over the 32 points divided by the count;
  * `X` is the masked linear layer: the nine features (the four raw coordinates, three offsets from the mean, two offsets
    from the voxel centre) times their weights, summed, times the mask;
  * `sum1`, `sum2` are the sums of `X` and of its square over all voxels and points, `mean` and the two spellings of the
    variance (`varK`: mean of squares minus squared mean; `varR`: mean of squared deviations) divide by the literal 3.2e6;
  * `out` is the maximum over the points of the normalised, scaled, shifted value clipped below at zero.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Pillar

/-- The divisor 3.2e6 = 100000 * 32 as the programs spell it. -/
abbrev total : EReal := Ideal.ofBits .f32 0x4A435000#32
/-- The variance offset 1e-3 as the programs spell it. -/
abbrev eps : EReal := Ideal.ofBits .f32 0x3A83126F#32
/-- The start value of the maximum over the points. -/
abbrev negInf : EReal := Ideal.ofBits .f32 0xFF800000#32

/-- The mask bit of point `p` in a voxel holding `w` points: `w > p`, signed. -/
def mbit (w : BitVec 32) (p : Fin 32) : BitVec 1 := IntOp.cmpi .sgt w (BitVec.ofNat 32 p.val)
/-- The mask as a number (the bit widened to a word and read signed). -/
def msk (w : BitVec 32) (p : Fin 32) : EReal := ((((mbit w p).setWidth 32).toInt : ℝ) : EReal)
/-- The point count as a number. -/
def cnt (w : BitVec 32) : EReal := ((w.toInt : ℝ) : EReal)

/-- A rank-3 array as a curried function. -/
def c3 {α : Type} {n0 n1 n2 : Nat} (x : (⟨3, ![n0, n1, n2]⟩ : Shape).Idx → α) : Fin n0 → Fin n1 → Fin n2 → α :=
  fun a b c => x (ix3 a b c)
/-- A rank-2 array as a curried function. -/
def c2 {α : Type} {n0 n1 : Nat} (x : (⟨2, ![n0, n1]⟩ : Shape).Idx → α) : Fin n0 → Fin n1 → α := fun a b => x (ix2 a b)
/-- A rank-1 array as a function of its coordinate. -/
def c1 {α : Type} {n0 : Nat} (x : (⟨1, ![n0]⟩ : Shape).Idx → α) : Fin n0 → α := fun a => x (ix1 a)
/-- The one column of an [n, 1] array. -/
def col {α : Type} {n0 : Nat} (x : (⟨2, ![n0, 1]⟩ : Shape).Idx → α) : Fin n0 → α := fun a => x (ix2 a 0)
/-- The one row of a [1, n] array. -/
def row {α : Type} {n1 : Nat} (x : (⟨2, ![1, n1]⟩ : Shape).Idx → α) : Fin n1 → α := fun o => x (ix2 0 o)

/-- The weights of the four raw coordinates, of the three mean offsets and of the two centre offsets, out of the
    [64, 9] weight matrix, each as [features, channels]. -/
def wv (W : Fin 64 → Fin 9 → EReal) (k : Fin 4) (o : Fin 64) : EReal := W o ⟨k.val, by omega⟩
def wc (W : Fin 64 → Fin 9 → EReal) (k : Fin 3) (o : Fin 64) : EReal := W o ⟨4 + k.val, by omega⟩
def wf (W : Fin 64 → Fin 9 → EReal) (k : Fin 2) (o : Fin 64) : EReal := W o ⟨7 + k.val, by omega⟩

variable {A : ℕ}

/-- The mean of coordinate `k` over a voxel's 32 points: the sum divided by the point count. -/
def cmean (vox : Fin A → Fin 32 → Fin 4 → EReal) (npv : Fin A → BitVec 32) (a : Fin A) (k : Fin 3) : EReal :=
  Ideal.div (∑ p : Fin 32, vox a p ⟨k.val, by omega⟩) (cnt (npv a))

/-- The masked linear layer. -/
def X (vox : Fin A → Fin 32 → Fin 4 → EReal) (npv : Fin A → BitVec 32) (ctr : Fin A → Fin 2 → EReal)
    (w4 : Fin 4 → Fin 64 → EReal) (w3 : Fin 3 → Fin 64 → EReal) (w2 : Fin 2 → Fin 64 → EReal)
    (a : Fin A) (p : Fin 32) (o : Fin 64) : EReal :=
  ((∑ k : Fin 4, vox a p k * w4 k o)
    + (∑ k : Fin 3, (vox a p ⟨k.val, by omega⟩ - cmean vox npv a k) * w3 k o)
    + (∑ k : Fin 2, (vox a p ⟨k.val, by omega⟩ - ctr a k) * w2 k o)) * msk (npv a) p

/-- The nine features of a point in the order the reference joins them: the four raw coordinates, the three offsets
    from the voxel's mean, the two offsets from its centre. -/
def feat (vox : Fin A → Fin 32 → Fin 4 → EReal) (npv : Fin A → BitVec 32) (ctr : Fin A → Fin 2 → EReal)
    (a : Fin A) (p : Fin 32) (c : Fin 9) : EReal :=
  if h4 : c.val < 4 then vox a p ⟨c.val, h4⟩
  else if h7 : c.val < 7 then vox a p ⟨c.val - 4, by omega⟩ - cmean vox npv a ⟨c.val - 4, by omega⟩
  else vox a p ⟨c.val - 7, by omega⟩ - ctr a ⟨c.val - 7, by omega⟩

/-- The masked linear layer in the reference's spelling: the features masked first, then one product with the
    [64, 9] weight matrix. -/
def XR (vox : Fin A → Fin 32 → Fin 4 → EReal) (npv : Fin A → BitVec 32) (ctr : Fin A → Fin 2 → EReal)
    (W : Fin 64 → Fin 9 → EReal) (a : Fin A) (p : Fin 32) (o : Fin 64) : EReal :=
  ∑ c : Fin 9, (feat vox npv ctr a p c * msk (npv a) p) * W o c

/-- The sum over voxels and points. -/
def sum1 (x : Fin A → Fin 32 → Fin 64 → EReal) (o : Fin 64) : EReal := ∑ a : Fin A, ∑ p : Fin 32, x a p o
/-- The sum of squares over voxels and points. -/
def sum2 (x : Fin A → Fin 32 → Fin 64 → EReal) (o : Fin 64) : EReal := ∑ a : Fin A, ∑ p : Fin 32, x a p o * x a p o
/-- The mean from the sum. -/
def mean (s1 : Fin 64 → EReal) (o : Fin 64) : EReal := Ideal.div (s1 o) total
/-- The variance as mean of squares minus squared mean. -/
def varK (s1 s2 : Fin 64 → EReal) (o : Fin 64) : EReal := Ideal.div (s2 o) total - mean s1 o * mean s1 o
/-- The variance as the mean of squared deviations (the sum started from zero). -/
def varR (x : Fin A → Fin 32 → Fin 64 → EReal) (mu : Fin 64 → EReal) (o : Fin 64) : EReal :=
  Ideal.div (0 + ∑ a : Fin A, ∑ p : Fin 32, (x a p o - mu o) * (x a p o - mu o)) total
/-- One normalised, scaled, shifted entry, clipped below at zero. -/
def act (x : Fin A → Fin 32 → Fin 64 → EReal) (mu var g b : Fin 64 → EReal) (a : Fin A) (p : Fin 32) (o : Fin 64) : EReal :=
  max ((x a p o - mu o) * Ideal.rsqrt (var o + eps) * g o + b o) 0
/-- The maximum over a voxel's points. -/
def out (x : Fin A → Fin 32 → Fin 64 → EReal) (mu var g b : Fin 64 → EReal) (a : Fin A) (o : Fin 64) : EReal :=
  (Finset.univ : Finset (Fin 32)).fold max negInf (fun p => act x mu var g b a p o)

end Pillar

end
-- ==== Proof.SpecLaws.lean ====
/-
  Laws of the pillar feature layer on the extended reals: the mask takes the values 0 and 1 only (and is 1 only
  when the point count is positive), a row of the layer depends on that row of its inputs alone, the layer is real
  on real inputs, and the two spellings of the layer (three separate products, or one product over the nine joined
  features) agree.
-/
import proofs.«144289_j40235253629489_1_alg».proof.Proof.Spec
import Mathlib.Data.EReal.Basic
import Mathlib.Data.EReal.Operations
import Mathlib.Algebra.BigOperators.Fin

noncomputable section

open Idealize.ShloMosaic Idealize.ShloMosaic.ValueIdx

namespace Pillar

variable {A B : ℕ}

/-- A one-bit word is 0 or 1. -/
private theorem bv1_cases (b : BitVec 1) : b = 0#1 ∨ b = 1#1 := by
  revert b; decide

/-- The mask bit is set exactly when the point index is below the count, read signed. -/
theorem mbit_eq (w : BitVec 32) (p : Fin 32) : mbit w p = BitVec.ofBool (decide ((p.val : ℤ) < w.toInt)) := by
  have hp : (BitVec.ofNat 32 p.val).toInt = (p.val : ℤ) := by
    have h := p.isLt
    rw [BitVec.toInt_eq_toNat_of_lt (by rw [BitVec.toNat_ofNat]; omega), BitVec.toNat_ofNat]
    omega
  unfold mbit IntOp.cmpi
  simp only [BitVec.slt, hp]

/-- The mask is 0, or it is 1 and then the count is at least 1. -/
theorem msk_cases (w : BitVec 32) (p : Fin 32) : msk w p = 0 ∨ (msk w p = 1 ∧ 1 ≤ w.toInt) := by
  unfold msk
  rw [mbit_eq]
  by_cases h : (p.val : ℤ) < w.toInt
  · right
    refine ⟨?_, by omega⟩
    simp [h]
  · left
    simp [h]

/-- The mask is the mask bit read as a natural number. -/
theorem msk_eq_toNat (w : BitVec 32) (p : Fin 32) : msk w p = ((((mbit w p).toNat : ℕ) : ℝ) : EReal) := by
  unfold msk
  rcases bv1_cases (mbit w p) with h | h <;> rw [h] <;> simp

/-- A row of the masked linear layer depends only on that row of the inputs. -/
theorem X_row (vox : Fin A → Fin 32 → Fin 4 → EReal) (npv : Fin A → BitVec 32) (ctr : Fin A → Fin 2 → EReal)
    (vox' : Fin B → Fin 32 → Fin 4 → EReal) (npv' : Fin B → BitVec 32) (ctr' : Fin B → Fin 2 → EReal)
    (w4 : Fin 4 → Fin 64 → EReal) (w3 : Fin 3 → Fin 64 → EReal) (w2 : Fin 2 → Fin 64 → EReal)
    (a : Fin A) (n : Fin B) (hv : vox a = vox' n) (hn : npv a = npv' n) (hc : ctr a = ctr' n) :
    X vox npv ctr w4 w3 w2 a = X vox' npv' ctr' w4 w3 w2 n := by
  funext p o
  unfold X cmean
  rw [hv, hn, hc]

/-- A row of the maximum over the points depends only on that row of the layer. -/
theorem out_row (x : Fin A → Fin 32 → Fin 64 → EReal) (x' : Fin B → Fin 32 → Fin 64 → EReal)
    (mu var g b : Fin 64 → EReal) (a : Fin A) (n : Fin B) (h : x a = x' n) (o : Fin 64) :
    out x mu var g b a o = out x' mu var g b n o := by
  unfold out act
  rw [h]

/-! Sums, differences, products and finite sums of real values are real. -/

private theorem real_add {x y : EReal} (hx : ∃ r : ℝ, x = (r : EReal)) (hy : ∃ r : ℝ, y = (r : EReal)) :
    ∃ r : ℝ, x + y = (r : EReal) := by
  obtain ⟨s, rfl⟩ := hx
  obtain ⟨t, rfl⟩ := hy
  exact ⟨s + t, (EReal.coe_add s t).symm⟩

private theorem real_sub {x y : EReal} (hx : ∃ r : ℝ, x = (r : EReal)) (hy : ∃ r : ℝ, y = (r : EReal)) :
    ∃ r : ℝ, x - y = (r : EReal) := by
  obtain ⟨s, rfl⟩ := hx
  obtain ⟨t, rfl⟩ := hy
  exact ⟨s - t, (EReal.coe_sub s t).symm⟩

private theorem real_mul {x y : EReal} (hx : ∃ r : ℝ, x = (r : EReal)) (hy : ∃ r : ℝ, y = (r : EReal)) :
    ∃ r : ℝ, x * y = (r : EReal) := by
  obtain ⟨s, rfl⟩ := hx
  obtain ⟨t, rfl⟩ := hy
  exact ⟨s * t, (EReal.coe_mul s t).symm⟩

private theorem real_sum {ι : Type} (s : Finset ι) (f : ι → EReal) (h : ∀ i, ∃ r : ℝ, f i = (r : EReal)) :
    ∃ r : ℝ, ∑ i ∈ s, f i = (r : EReal) := by
  classical
  refine Finset.induction_on s ⟨0, by simp⟩ ?_
  intro i t hi ih
  rw [Finset.sum_insert hi]
  exact real_add (h i) ih

/-- On real inputs the masked linear layer is real: where the mask is 0 the value is 0 whatever the other factor,
    and where it is 1 the count is a nonzero real, so the mean is the sum times a real reciprocal. -/
theorem X_real (vox : Fin A → Fin 32 → Fin 4 → EReal) (npv : Fin A → BitVec 32) (ctr : Fin A → Fin 2 → EReal)
    (w4 : Fin 4 → Fin 64 → EReal) (w3 : Fin 3 → Fin 64 → EReal) (w2 : Fin 2 → Fin 64 → EReal)
    (hv : ∀ a p k, ∃ r : ℝ, vox a p k = (r : EReal)) (hc : ∀ a k, ∃ r : ℝ, ctr a k = (r : EReal))
    (h4 : ∀ k o, ∃ r : ℝ, w4 k o = (r : EReal)) (h3 : ∀ k o, ∃ r : ℝ, w3 k o = (r : EReal))
    (h2 : ∀ k o, ∃ r : ℝ, w2 k o = (r : EReal)) :
    ∀ a p o, ∃ r : ℝ, X vox npv ctr w4 w3 w2 a p o = (r : EReal) := by
  intro a p o
  unfold X
  rcases msk_cases (npv a) p with h0 | ⟨h1, hw⟩
  · rw [h0, mul_zero]
    exact ⟨0, by simp⟩
  · rw [h1, mul_one]
    have hcm : ∀ k, ∃ r : ℝ, cmean vox npv a k = (r : EReal) := by
      intro k
      unfold cmean cnt
      have hpos : (0 : ℝ) < (((npv a).toInt : ℤ) : ℝ) := by exact_mod_cast (by omega : (0 : ℤ) < (npv a).toInt)
      rw [Ideal.div_coe hpos.ne']
      exact real_mul (real_sum _ _ (fun q => hv a q _)) ⟨_, rfl⟩
    refine real_add (real_add (real_sum _ _ ?_) (real_sum _ _ ?_)) (real_sum _ _ ?_)
    · intro k; exact real_mul (hv a p k) (h4 k o)
    · intro k; exact real_mul (real_sub (hv a p _) (hcm k)) (h3 k o)
    · intro k; exact real_mul (real_sub (hv a p _) (hc a k)) (h2 k o)

/-! The sums over 9, 4, 3 and 2 indices written out term by term. -/

private theorem fin9_sum (f : Fin 9 → EReal) :
    ∑ c, f c = f ⟨0, by omega⟩ + f ⟨1, by omega⟩ + f ⟨2, by omega⟩ + f ⟨3, by omega⟩ + f ⟨4, by omega⟩
      + f ⟨5, by omega⟩ + f ⟨6, by omega⟩ + f ⟨7, by omega⟩ + f ⟨8, by omega⟩ := by
  rw [Fin.sum_univ_castSucc, Fin.sum_univ_eight]; rfl

private theorem fin4_sum (f : Fin 4 → EReal) :
    ∑ c, f c = f ⟨0, by omega⟩ + f ⟨1, by omega⟩ + f ⟨2, by omega⟩ + f ⟨3, by omega⟩ := by
  rw [Fin.sum_univ_four]; rfl

private theorem fin3_sum (f : Fin 3 → EReal) : ∑ c, f c = f ⟨0, by omega⟩ + f ⟨1, by omega⟩ + f ⟨2, by omega⟩ := by
  rw [Fin.sum_univ_three]; rfl

private theorem fin2_sum (f : Fin 2 → EReal) : ∑ c, f c = f ⟨0, by omega⟩ + f ⟨1, by omega⟩ := by
  rw [Fin.sum_univ_two]; rfl

/-- The two spellings of the masked linear layer agree: where the mask is 0 both are 0, and where it is 1 the nine
    terms of the joined product are the four, three and two terms of the separate products, up to bracketing. -/
theorem XR_eq_X (vox : Fin A → Fin 32 → Fin 4 → EReal) (npv : Fin A → BitVec 32) (ctr : Fin A → Fin 2 → EReal)
    (W : Fin 64 → Fin 9 → EReal) (a : Fin A) (p : Fin 32) (o : Fin 64) :
    XR vox npv ctr W a p o = X vox npv ctr (wv W) (wc W) (wf W) a p o := by
  unfold XR X
  rcases msk_cases (npv a) p with h0 | ⟨h1, _⟩
  · rw [h0, mul_zero]
    simp only [mul_zero, zero_mul, Finset.sum_const_zero]
  · rw [h1, mul_one]
    simp only [mul_one]
    rw [fin9_sum, fin4_sum, fin3_sum, fin2_sum]
    simp only [feat, wv, wc, wf, Nat.reduceLT, ↓reduceDIte, Nat.reduceSub, Nat.reduceAdd]
    simp only [add_assoc]

end Pillar

end
-- ==== Proof.SpecStats.lean ====
/-
  The statistics of the pillar feature layer on the extended reals: the divisor's value, the regrouping of the sums
  over 100000 voxels as 500 blocks of 200, and the identity between the two spellings of the variance.
-/
import proofs.«144289_j40235253629489_1_alg».proof.Proof.Spec
import Mathlib.Algebra.BigOperators.Fin
import Mathlib.Algebra.BigOperators.Ring.Finset
import Mathlib.Algebra.BigOperators.Group.Finset.Basic
import Mathlib.Data.Fintype.BigOperators
import Mathlib.Data.EReal.Operations
import Mathlib.Logic.Equiv.Fin.Basic
import Mathlib.Tactic.FieldSimp
import Mathlib.Tactic.Ring
import Mathlib.Tactic.NormNum

noncomputable section

open Idealize.ShloMosaic

namespace Pillar

/-! ### The divisor -/

/-- The pattern 0x4A435000 is (2^23 + 4411392) * 2^(148 - 127 - 23) = 12800000 / 4 = 3200000. -/
theorem total_eq : total = (((3200000 : ℝ)) : EReal) := by
  simp [total, Ideal.ofBits, Ideal.ieee, -EReal.coe_mul]; norm_num

/-! ### Regrouping a sum over `m * n` indices as `m` blocks of `n` -/

/-- A sum over `Fin (m * n)` is the sum over the `m` blocks of the sums over the `n` places of a block, the index
    of place `a` of block `t` being `a + n * t`. -/
theorem stats_sum_fin_mul {M : Type*} [AddCommMonoid M] (m n : ℕ) (g : Fin (m * n) → M) :
    ∑ t : Fin m, ∑ a : Fin n, g (finProdFinEquiv (t, a)) = ∑ k : Fin (m * n), g k :=
  (Fintype.sum_prod_type (fun q : Fin m × Fin n => g (finProdFinEquiv q))).symm.trans
    (Equiv.sum_comp finProdFinEquiv g)

/-- The same at 500 blocks of 200, the index spelled `200 * t + a`. -/
theorem stats_sum_blocks {M : Type*} [AddCommMonoid M] (g : Fin 100000 → M) :
    ∑ t : Fin 500, ∑ a : Fin 200,
        g ⟨200 * t.val + a.val, by have := t.isLt; have := a.isLt; omega⟩ = ∑ k : Fin 100000, g k := by
  rw [← stats_sum_fin_mul 500 200 g]
  refine Finset.sum_congr rfl fun t _ => Finset.sum_congr rfl fun a _ => ?_
  congr 1
  apply Fin.ext
  show 200 * t.val + a.val = a.val + 200 * t.val
  omega

theorem sum1_blocks (x : Fin 100000 → Fin 32 → Fin 64 → EReal)
    (xb : Fin 500 → Fin 200 → Fin 32 → Fin 64 → EReal)
    (h : ∀ (t : Fin 500) (a : Fin 200),
      xb t a = x ⟨200 * t.val + a.val, by have := t.isLt; have := a.isLt; omega⟩) (o : Fin 64) :
    ∑ t : Fin 500, sum1 (xb t) o = sum1 x o := by
  unfold sum1
  rw [← stats_sum_blocks (fun n : Fin 100000 => ∑ p : Fin 32, x n p o)]
  refine Finset.sum_congr rfl fun t _ => Finset.sum_congr rfl fun a _ => ?_
  rw [h t a]

theorem sum2_blocks (x : Fin 100000 → Fin 32 → Fin 64 → EReal)
    (xb : Fin 500 → Fin 200 → Fin 32 → Fin 64 → EReal)
    (h : ∀ (t : Fin 500) (a : Fin 200),
      xb t a = x ⟨200 * t.val + a.val, by have := t.isLt; have := a.isLt; omega⟩) (o : Fin 64) :
    ∑ t : Fin 500, sum2 (xb t) o = sum2 x o := by
  unfold sum2
  rw [← stats_sum_blocks (fun n : Fin 100000 => ∑ p : Fin 32, x n p o * x n p o)]
  refine Finset.sum_congr rfl fun t _ => Finset.sum_congr rfl fun a _ => ?_
  rw [h t a]

/-! ### The two spellings of the variance -/

/-- A finite sum of real numbers read in the extended reals is the sum read there. -/
theorem stats_coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A double sum of real numbers read in the extended reals is the double sum read there. -/
theorem stats_coe_sum2 {α β : Type*} [Fintype α] [Fintype β] (f : α → β → ℝ) :
    ∑ a, ∑ b, ((f a b : ℝ) : EReal) = ((∑ a, ∑ b, f a b : ℝ) : EReal) := by
  rw [← stats_coe_sum]
  exact Finset.sum_congr rfl fun a _ => stats_coe_sum _ _

/-- Mean of squares minus squared mean is the mean of squared deviations, over `N` real terms. -/
theorem stats_real_var {ι : Type*} [Fintype ι] (y : ι → ℝ) (N : ℝ) (hN : N ≠ 0)
    (hc : (Fintype.card ι : ℝ) = N) :
    (∑ i, y i * y i) * (1 / N) - ((∑ i, y i) * (1 / N)) * ((∑ i, y i) * (1 / N))
      = (0 + ∑ i, (y i - (∑ j, y j) * (1 / N)) * (y i - (∑ j, y j) * (1 / N))) * (1 / N) := by
  generalize hS : ∑ j, y j = S
  generalize hmu : S * (1 / N) = mu
  have hsq : ∑ i, (y i - mu) * (y i - mu) = (∑ i, y i * y i) - 2 * mu * S + N * (mu * mu) := by
    have e : ∀ i, (y i - mu) * (y i - mu) = y i * y i - 2 * mu * y i + mu * mu := fun i => by ring
    rw [Finset.sum_congr rfl fun i _ => e i, Finset.sum_add_distrib, Finset.sum_sub_distrib,
      ← Finset.mul_sum, hS, Finset.sum_const, Finset.card_univ, nsmul_eq_mul, hc]
  rw [hsq, ← hmu]
  field_simp
  ring

/-- The same over a double sum. -/
theorem stats_real_var2 {α β : Type*} [Fintype α] [Fintype β] (y : α → β → ℝ) (N : ℝ) (hN : N ≠ 0)
    (hc : ((Fintype.card α * Fintype.card β : ℕ) : ℝ) = N) :
    (∑ a, ∑ b, y a b * y a b) * (1 / N)
        - ((∑ a, ∑ b, y a b) * (1 / N)) * ((∑ a, ∑ b, y a b) * (1 / N))
      = (0 + ∑ a, ∑ b, (y a b - (∑ a', ∑ b', y a' b') * (1 / N))
          * (y a b - (∑ a', ∑ b', y a' b') * (1 / N))) * (1 / N) := by
  have h := stats_real_var (fun q : α × β => y q.1 q.2) N hN (by rw [Fintype.card_prod]; exact hc)
  simp only [Fintype.sum_prod_type] at h
  exact h

theorem var_eq (x : Fin 100000 → Fin 32 → Fin 64 → EReal)
    (hx : ∀ a p o, ∃ r : ℝ, x a p o = (r : EReal)) (o : Fin 64) :
    varK (sum1 x) (sum2 x) o = varR x (mean (sum1 x)) o := by
  choose y hy using hx
  have hN : (3200000 : ℝ) ≠ 0 := by norm_num
  have h1 : sum1 x o = ((∑ a, ∑ p, y a p o : ℝ) : EReal) := by
    unfold sum1
    rw [← stats_coe_sum2]
    exact Finset.sum_congr rfl fun a _ => Finset.sum_congr rfl fun p _ => hy a p o
  have h2 : sum2 x o = ((∑ a, ∑ p, y a p o * y a p o : ℝ) : EReal) := by
    unfold sum2
    rw [← stats_coe_sum2]
    refine Finset.sum_congr rfl fun a _ => Finset.sum_congr rfl fun p _ => ?_
    rw [hy a p o, EReal.coe_mul]
  have hm : mean (sum1 x) o = (((∑ a, ∑ p, y a p o) * (1 / 3200000) : ℝ) : EReal) := by
    unfold mean
    rw [h1, total_eq, Ideal.div_coe hN, ← EReal.coe_mul]
  have hd : ∑ a, ∑ p, (x a p o - mean (sum1 x) o) * (x a p o - mean (sum1 x) o)
      = ((∑ a, ∑ p, (y a p o - (∑ a', ∑ p', y a' p' o) * (1 / 3200000))
          * (y a p o - (∑ a', ∑ p', y a' p' o) * (1 / 3200000)) : ℝ) : EReal) := by
    rw [← stats_coe_sum2]
    refine Finset.sum_congr rfl fun a _ => Finset.sum_congr rfl fun p _ => ?_
    rw [hy a p o, hm, ← EReal.coe_sub, ← EReal.coe_mul]
  unfold varK varR
  rw [hd, hm, h2, total_eq, Ideal.div_coe hN, Ideal.div_coe hN, ← EReal.coe_zero, ← EReal.coe_add,
    ← EReal.coe_mul, ← EReal.coe_mul, ← EReal.coe_mul, ← EReal.coe_sub]
  refine congrArg _ (stats_real_var2 (fun a p => y a p o) 3200000 hN ?_)
  rw [Fintype.card_fin, Fintype.card_fin]
  norm_num

end Pillar

end
-- ==== Proof.Finite.lean ====
import proofs.«144289_j40235253629489_1_alg».proof.Pre_finite_inputs
import proofs.«144289_j40235253629489_1_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

/-!
# The finiteness precondition, read back

The precondition is the conjunction, over the five float inputs, of "every entry has absolute value
strictly below +∞". At the extended reals an entry `a` with `max a (-a) < ⊤` is neither `⊤` nor `⊥`,
so it is a real number. This module proves that consequence once for a vector of any shape and then
applies it to each of the five float inputs of the precondition.
-/

noncomputable section

namespace Cert.Pre_finite_inputs.Finite

open Cert.Pre_finite_inputs Idealize.ShloMosaic

/-- The rank-0 shape has exactly one index. -/
instance subsingleton_S_Idx : Subsingleton S_.Idx := ⟨fun a b => funext fun d => d.elim0⟩

/-- The word `0x7F800000` is +∞ at the extended reals. -/
theorem ofBits_inf : Ideal.ofBits .f32 0x7F800000#32 = (⊤ : EReal) := by
  simp [Ideal.ofBits, Ideal.ieee]

/-- An extended real whose absolute value `max a (-a)` is strictly below +∞ is a real number. -/
theorem real_of_abs_lt_top (a : EReal) (h : max a (-a) < ⊤) : ∃ r : ℝ, a = (r : EReal) := by
  induction a using EReal.rec with
  | bot => simp at h
  | coe r => exact ⟨r, rfl⟩
  | top => simp at h

/-- One input: if the `and` over all entries of `|x| < +∞` is 1, every entry of `x` is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf x) (broadcastInDim s ![] hb (constant (F := Ideal) S_ .f32 0x7F800000#32)))
          init hr hu ValueIdx.ix0 = 1#1) :
    ∀ i, ∃ r : ℝ, x i = (r : EReal) := by
  intro i
  have hi := Host.reduce_andi_all _ init hr hu _ e i
  have hc : Ideal.cmp .olt (max (x i) (-(x i))) (Ideal.ofBits .f32 0x7F800000#32) = 1#1 := hi
  rw [ofBits_inf] at hc
  refine real_of_abs_lt_top (x i) ?_
  by_contra hn
  simp [Ideal.cmp, hn] at hc

variable [hP : Cert.Pre_finite_inputs.Facts]

/-- The precondition at the extended reals: every entry of every float input is a real number. -/
theorem real_of_pre (x0 : FVec Ideal S100000x32x4 .f32) (x1 : IVec S100000 32) (x2 : FVec Ideal S100000x2 .f32)
    (x3 : FVec Ideal S64x9 .f32) (x4 x5 : FVec Ideal S64 .f32)
    (h : Cert.Pre_finite_inputs.fn (F := Ideal) x0 x1 x2 x3 x4 x5 = (fun _ => 1#1)) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) := by
  have h0 := congrFun h ValueIdx.ix0
  dsimp only [fn, fn_part1, andi] at h0
  obtain ⟨h0123, e5⟩ := IntOp.andi_eq_one.1 h0
  obtain ⟨h012, e4⟩ := IntOp.andi_eq_one.1 h0123
  obtain ⟨h01, e3⟩ := IntOp.andi_eq_one.1 h012
  obtain ⟨e0, e2⟩ := IntOp.andi_eq_one.1 h01
  exact ⟨real_of_all x0 _ _ _ _ e0, real_of_all x2 _ _ _ _ e2, real_of_all x3 _ _ _ _ e3,
    real_of_all x4 _ _ _ _ e4, real_of_all x5 _ _ _ _ e5⟩

end Cert.Pre_finite_inputs.Finite

end
-- ==== Proof.RefValue.lean ====
/-
  The reference program's result read at a voxel and a channel, one stage after another, over the shared definitions of
  the pillar feature layer: the joined feature array is `feat` (the four raw coordinates, the three offsets from the
  voxel's mean, the two offsets from its centre), the broadcast comparison of the point count with the point's number is
  `msk`, the product of the masked features with the weight matrix is `XR`, the two sums over voxels and points give
  `mean` and `varR`, the normalised, scaled and shifted entry clipped below at zero is `act`, and the maximum over a
  voxel's points is `out`. A sum over the first two axes of a [100000, 32, 64] array is read once, for any array, as
  the double sum over voxels and points (`sum_filter_drop01`).
-/
import proofs.«144289_j40235253629489_1_alg».proof.Proof.Gen.ReferenceIdeal.Read
import proofs.«144289_j40235253629489_1_alg».proof.Proof.Spec
import Idealize.ShloMosaic.Lib.Pipeline.Value
import Idealize.ShloMosaic.Lib.ValueIdx
import Idealize.ShloMosaic.Lib.IdealHost
import Idealize.ShloMosaic.PureOps.Ideal
import Idealize.ShloMosaic.PureOps.Ideal.Laws
import Idealize.ShloMosaic.PureOps.Reduce
import Mathlib.Data.Fintype.BigOperators

noncomputable section

namespace Cert.ReferenceIdeal.RefValue

open Cert.ReferenceIdeal Cert.ReferenceIdeal.Gen Cert.ReferenceIdeal.Read Idealize.ShloMosaic Idealize.ShloMosaic.ValueIdx Pillar
open scoped BigOperators

/-- A one-bit word widened and read signed is the word read unsigned. -/
theorem bit_toInt_eq_toNat (b : BitVec 1) : (b.setWidth 32).toInt = (b.toNat : Int) := by
  rcases BitVec.eq_zero_or_eq_one b with rfl | rfl <;> decide

/-- The mask stage at a point of a voxel is the mask of the voxel's point count. -/
theorem mask_at (x1 : (⟨S100000, .i32⟩ : BufTy).Contents (Elt Ideal)) (n : Fin 100000) (p : Fin 32) (c : Fin 9) :
    val_main_v23 (F := Ideal) x1 (ix3 n p c) = Pillar.msk (c1 x1 n) p := by
  rw [val_main_v23_apply, val_main_v22_apply, val_main_v21_apply, val_main_v20_apply, val_main_v18_apply,
    val_main_v15_apply, val_main_v19_apply, val_main_v17_apply, val_main_v16_apply]
  have e1 : idx_main_v15 (idx_main_v18 (idx_main_v21 (idx_main_v23 (ix3 n p c)))) = ix1 n :=
    funext fun a => Fin.ext (by match a with | ⟨0, _⟩ => rfl)
  rw [e1]
  show (((IntOp.cmpi .sgt (x1 (ix1 n)) (BitVec.ofNat 32 p.val)).toNat : ℝ) : EReal) = _
  unfold Pillar.msk Pillar.mbit c1
  rw [bit_toInt_eq_toNat]
  norm_cast

/-- The source indices that drop to channel `j` under a reduction over the first two axes, summed, are the double sum
    over voxels and points at channel `j`. -/
theorem sum_filter_drop01 (h : S100000x32x64.ReducesTo [0, 1] S64) (x : S100000x32x64.Idx → EReal) (j : Fin 64) :
    ∑ i ∈ Finset.univ.filter (fun i => h.drop i = ix1 j), x i = ∑ n : Fin 100000, ∑ p : Fin 32, x (ix3 n p j) := by
  refine Eq.trans ?_ (Fintype.sum_prod_type' (fun (n : Fin 100000) (p : Fin 32) => x (ix3 n p j)))
  have hd : ∀ i : S100000x32x64.Idx, (h.drop i 0 : Nat) = (i 2 : Nat) := fun i =>
    Shape.ReducesTo.drop_apply_val_of_eq h i 0 2
  have hback : ∀ i : S100000x32x64.Idx, h.drop i = ix1 j → ix3 (i 0) (i 1) j = i := fun i hi => by
    have h2 : (i 2 : Nat) = j.val := by rw [← hd i, hi]
    funext a
    match a with
    | ⟨0, _⟩ => rfl
    | ⟨1, _⟩ => rfl
    | ⟨2, _⟩ => exact Fin.ext h2.symm
  refine Finset.sum_nbij' (fun i => ((i 0 : Fin 100000), (i 1 : Fin 32))) (fun np => ix3 np.1 np.2 j) ?_ ?_ ?_ ?_ ?_
  · intro i _; exact @Finset.mem_univ (Fin 100000 × Fin 32) _ ((i 0 : Fin 100000), (i 1 : Fin 32))
  · intro np _
    refine Finset.mem_filter.2 ⟨Finset.mem_univ _, funext fun b => Fin.ext ?_⟩
    obtain rfl : b = 0 := Subsingleton.elim _ _
    exact hd _
  · intro i hi; exact hback i (Finset.mem_filter.1 hi).2
  · intro np _; rfl
  · intro i hi; exact (congrArg x (hback i (Finset.mem_filter.1 hi).2)).symm

/-- The centred coordinate stage: coordinate `k` of a point less the voxel's mean of that coordinate. -/
theorem centred_at (x0 : (⟨S100000x32x4, .f32⟩ : BufTy).Contents (Elt Ideal)) (x1 : (⟨S100000, .i32⟩ : BufTy).Contents (Elt Ideal))
    (n : Fin 100000) (p : Fin 32) (k : Fin 3) :
    val_main_v9 (F := Ideal) x0 x1 (ix3 n p k)
      = c3 x0 n p ⟨k.val, by omega⟩ - Pillar.cmean (c3 x0) (c1 x1) n k := by
  rw [val_main_v9_apply, val_main_v7_apply, val_main_v8_apply, val_main_v6_apply, val_main_v4_apply, val_main_v3_apply,
    val_main_v5_apply, val_main_v1_apply, val_main_v0_apply, val_main_cst_apply]
  simp only [val_main_v2_apply]
  have e7 : idx_main_v7 (ix3 n p k) = ix3 n p ⟨k.val, by omega⟩ :=
    funext fun a => Fin.ext (by match a with | ⟨0, _⟩ => rfl | ⟨1, _⟩ => rfl | ⟨2, _⟩ => rfl)
  have e2 : ∀ q : Fin 32, idx_main_v2 (idx_main_v3 (idx_main_v4 (idx_main_v8 (ix3 n p k))) q) = ix3 n q ⟨k.val, by omega⟩ :=
    fun q => funext fun a => Fin.ext (by match a with | ⟨0, _⟩ => rfl | ⟨1, _⟩ => rfl | ⟨2, _⟩ => rfl)
  have e1 : idx_main_v1 (idx_main_v5 (idx_main_v8 (ix3 n p k))) = ix1 n :=
    funext fun a => Fin.ext (by match a with | ⟨0, _⟩ => rfl)
  rw [e7, e1]
  simp only [e2]
  show x0 (ix3 n p ⟨k.val, _⟩) - Ideal.div (Ideal.ofBits .f32 0x00000000#32 + ∑ q : Fin 32, x0 (ix3 n q ⟨k.val, _⟩))
    (((x1 (ix1 n)).toInt : ℝ) : EReal) = _
  rw [Ideal.ofBits_zero_f32, zero_add]
  rfl

/-- The centre-offset stage: coordinate `k` of a point less the voxel centre's. -/
theorem offset_at (x0 : (⟨S100000x32x4, .f32⟩ : BufTy).Contents (Elt Ideal)) (x2 : (⟨S100000x2, .f32⟩ : BufTy).Contents (Elt Ideal))
    (n : Fin 100000) (p : Fin 32) (k : Fin 2) :
    val_main_v13 (F := Ideal) x0 x2 (ix3 n p k) = c3 x0 n p ⟨k.val, by omega⟩ - c2 x2 n k := by
  rw [val_main_v13_apply, val_main_v10_apply, val_main_v12_apply, val_main_v11_apply]
  have e10 : idx_main_v10 (ix3 n p k) = ix3 n p ⟨k.val, by omega⟩ :=
    funext fun a => Fin.ext (by match a with | ⟨0, _⟩ => rfl | ⟨1, _⟩ => rfl | ⟨2, _⟩ => rfl)
  have e11 : idx_main_v11 (idx_main_v12 (ix3 n p k)) = ix2 n k :=
    funext fun a => Fin.ext (by match a with | ⟨0, _⟩ => rfl | ⟨1, _⟩ => rfl)
  rw [e10, e11]
  rfl

/-- The joined feature array at a point is the nine features of the point. -/
theorem feat_at (x0 : (⟨S100000x32x4, .f32⟩ : BufTy).Contents (Elt Ideal)) (x1 : (⟨S100000, .i32⟩ : BufTy).Contents (Elt Ideal))
    (x2 : (⟨S100000x2, .f32⟩ : BufTy).Contents (Elt Ideal)) (n : Fin 100000) (p : Fin 32) (c : Fin 9) :
    val_main_v14 (F := Ideal) x0 x1 x2 (ix3 n p c) = Pillar.feat (c3 x0) (c1 x1) (c2 x2) n p c := by
  unfold val_main_v14
  rw [Pillar.feat]
  by_cases h4 : c.val < 4
  · rw [dif_pos h4]
    show _ = x0 (ix3 n p ⟨c.val, h4⟩)
    exact concatenate_apply_piece (t := S100000x32x9) (2 : Fin 3) [⟨S100000x32x4, x0⟩, ⟨S100000x32x3, val_main_v9 (F := Ideal) x0 x1⟩, ⟨S100000x32x2, val_main_v13 (F := Ideal) x0 x2⟩] concatenates_S100000x32x4_S100000x32x3_S100000x32x2_S100000x32x9_d2 (ix3 n p c) 0 (by show (0 : Nat) < 3; omega) S100000x32x4 x0 rfl rfl 0 rfl
      (ix3 n p ⟨c.val, h4⟩) (fun b _ => by match b with | ⟨0, _⟩ => rfl | ⟨1, _⟩ => rfl | ⟨2, _⟩ => rfl)
      (Nat.zero_add _)
  · rw [dif_neg h4]
    by_cases h7 : c.val < 7
    · rw [dif_pos h7, ← centred_at x0 x1 n p ⟨c.val - 4, by omega⟩]
      exact concatenate_apply_piece (t := S100000x32x9) (2 : Fin 3) [⟨S100000x32x4, x0⟩, ⟨S100000x32x3, val_main_v9 (F := Ideal) x0 x1⟩, ⟨S100000x32x2, val_main_v13 (F := Ideal) x0 x2⟩] concatenates_S100000x32x4_S100000x32x3_S100000x32x2_S100000x32x9_d2 (ix3 n p c) 1 (by show (1 : Nat) < 3; omega) S100000x32x3 (val_main_v9 (F := Ideal) x0 x1) rfl rfl 4 rfl
        (ix3 n p ⟨c.val - 4, by omega⟩) (fun b hb => by match b, hb with | ⟨0, _⟩, _ => rfl | ⟨1, _⟩, _ => rfl | ⟨2, _⟩, hb => exact absurd (Fin.ext rfl) hb)
        (by show 4 + (c.val - 4) = c.val; omega)
    · rw [dif_neg h7, ← offset_at x0 x2 n p ⟨c.val - 7, by omega⟩]
      exact concatenate_apply_piece (t := S100000x32x9) (2 : Fin 3) [⟨S100000x32x4, x0⟩, ⟨S100000x32x3, val_main_v9 (F := Ideal) x0 x1⟩, ⟨S100000x32x2, val_main_v13 (F := Ideal) x0 x2⟩] concatenates_S100000x32x4_S100000x32x3_S100000x32x2_S100000x32x9_d2 (ix3 n p c) 2 (by show (2 : Nat) < 3; omega) S100000x32x2 (val_main_v13 (F := Ideal) x0 x2) rfl rfl 7 rfl
        (ix3 n p ⟨c.val - 7, by omega⟩) (fun b hb => by match b, hb with | ⟨0, _⟩, _ => rfl | ⟨1, _⟩, _ => rfl | ⟨2, _⟩, hb => exact absurd (Fin.ext rfl) hb)
        (by show 7 + (c.val - 7) = c.val; omega)

/-- The masked linear layer of the inputs, in the reference's spelling. -/
abbrev xr (x0 : (⟨S100000x32x4, .f32⟩ : BufTy).Contents (Elt Ideal)) (x1 : (⟨S100000, .i32⟩ : BufTy).Contents (Elt Ideal))
    (x2 : (⟨S100000x2, .f32⟩ : BufTy).Contents (Elt Ideal)) (x3 : (⟨S64x9, .f32⟩ : BufTy).Contents (Elt Ideal)) : Fin 100000 → Fin 32 → Fin 64 → EReal :=
  Pillar.XR (c3 x0) (c1 x1) (c2 x2) (c2 x3)

/-- The product stage at a point and a channel is the masked linear layer. -/
theorem xr_at (x0 : (⟨S100000x32x4, .f32⟩ : BufTy).Contents (Elt Ideal)) (x1 : (⟨S100000, .i32⟩ : BufTy).Contents (Elt Ideal))
    (x2 : (⟨S100000x2, .f32⟩ : BufTy).Contents (Elt Ideal)) (x3 : (⟨S64x9, .f32⟩ : BufTy).Contents (Elt Ideal))
    (n : Fin 100000) (p : Fin 32) (o : Fin 64) :
    val_main_v25 (F := Ideal) x0 x1 x2 x3 (ix3 n p o) = xr x0 x1 x2 x3 n p o := by
  rw [val_main_v25_apply]
  unfold xr Pillar.XR
  refine Finset.sum_congr rfl fun k _ => ?_
  have el : lidx_main_v25 (ix3 n p o) k = ix3 n p k :=
    funext fun a => Fin.ext (by match a with | ⟨0, _⟩ => rfl | ⟨1, _⟩ => rfl | ⟨2, _⟩ => rfl)
  have er : ridx_main_v25 (ix3 n p o) k = ix2 o k :=
    funext fun a => Fin.ext (by match a with | ⟨0, _⟩ => rfl | ⟨1, _⟩ => rfl)
  rw [el, er, val_main_v24_apply, feat_at, mask_at]
  rfl

/-- A sum over the first two axes from the zero word, at a channel: zero plus the double sum over voxels and points. -/
theorem reduceAdd01_at (x : (⟨S100000x32x64, .f32⟩ : BufTy).Contents (Elt Ideal)) (o : Fin 64) :
    Host.reduceAdd (F := Ideal) x (constant (F := Ideal) S_ .f32 0x00000000#32) reducesTo_S100000x32x64_S64_d0_1 h_S_ (ix1 o)
      = 0 + ∑ n : Fin 100000, ∑ p : Fin 32, x (ix3 n p o) := by
  rw [hostReduceAdd_apply]
  unfold Ideal.hostReduceAdd
  rw [sum_filter_drop01, constant_apply, Ideal.ofBits_zero_f32]

/-- The mean stage at a channel. -/
theorem mean_at (x0 : (⟨S100000x32x4, .f32⟩ : BufTy).Contents (Elt Ideal)) (x1 : (⟨S100000, .i32⟩ : BufTy).Contents (Elt Ideal))
    (x2 : (⟨S100000x2, .f32⟩ : BufTy).Contents (Elt Ideal)) (x3 : (⟨S64x9, .f32⟩ : BufTy).Contents (Elt Ideal)) (o : Fin 64) :
    val_main_v28 (F := Ideal) x0 x1 x2 x3 (ix1 o) = Pillar.mean (Pillar.sum1 (xr x0 x1 x2 x3)) o := by
  rw [val_main_v28_apply, val_main_v27_apply, val_main_cst_1_apply]
  unfold val_main_v26 val_main_cst_0
  rw [reduceAdd01_at, zero_add]
  simp only [xr_at]
  rfl

/-- The mean of the inputs' layer, per channel. -/
abbrev mu (x0 : (⟨S100000x32x4, .f32⟩ : BufTy).Contents (Elt Ideal)) (x1 : (⟨S100000, .i32⟩ : BufTy).Contents (Elt Ideal))
    (x2 : (⟨S100000x2, .f32⟩ : BufTy).Contents (Elt Ideal)) (x3 : (⟨S64x9, .f32⟩ : BufTy).Contents (Elt Ideal)) : Fin 64 → EReal :=
  Pillar.mean (Pillar.sum1 (xr x0 x1 x2 x3))

/-- The variance stage at a channel: the mean of squared deviations, the sum started from zero. -/
theorem var_at (x0 : (⟨S100000x32x4, .f32⟩ : BufTy).Contents (Elt Ideal)) (x1 : (⟨S100000, .i32⟩ : BufTy).Contents (Elt Ideal))
    (x2 : (⟨S100000x2, .f32⟩ : BufTy).Contents (Elt Ideal)) (x3 : (⟨S64x9, .f32⟩ : BufTy).Contents (Elt Ideal)) (o : Fin 64) :
    val_main_v35 (F := Ideal) x0 x1 x2 x3 (ix1 o) = Pillar.varR (xr x0 x1 x2 x3) (mu x0 x1 x2 x3) o := by
  rw [val_main_v35_apply, val_main_v34_apply, val_main_cst_3_apply]
  unfold val_main_v33 val_main_cst_2
  rw [reduceAdd01_at]
  have e : ∀ (n : Fin 100000) (p : Fin 32), val_main_v32 (F := Ideal) x0 x1 x2 x3 (ix3 n p o)
      = (xr x0 x1 x2 x3 n p o - mu x0 x1 x2 x3 o) * (xr x0 x1 x2 x3 n p o - mu x0 x1 x2 x3 o) := fun n p => by
    rw [val_main_v32_apply, val_main_v31_apply, val_main_v30_apply, val_main_v29_apply, xr_at]
    have e28 : idx_main_v29 (idx_main_v30 (ix3 n p o)) = ix1 o :=
      funext fun a => Fin.ext (by match a with | ⟨0, _⟩ => rfl)
    rw [e28, mean_at]
    rfl
  simp only [e]
  rfl

/-- The normalised, scaled, shifted and clipped stage at a point and a channel. -/
theorem act_at (x0 : (⟨S100000x32x4, .f32⟩ : BufTy).Contents (Elt Ideal)) (x1 : (⟨S100000, .i32⟩ : BufTy).Contents (Elt Ideal))
    (x2 : (⟨S100000x2, .f32⟩ : BufTy).Contents (Elt Ideal)) (x3 : (⟨S64x9, .f32⟩ : BufTy).Contents (Elt Ideal))
    (x4 x5 : (⟨S64, .f32⟩ : BufTy).Contents (Elt Ideal))
    (n : Fin 100000) (p : Fin 32) (o : Fin 64) :
    val_main_v51 (F := Ideal) x0 x1 x2 x3 x4 x5 (ix3 n p o)
      = Pillar.act (xr x0 x1 x2 x3) (mu x0 x1 x2 x3) (Pillar.varR (xr x0 x1 x2 x3) (mu x0 x1 x2 x3)) (c1 x4) (c1 x5) n p o := by
  rw [val_main_v51_apply, val_main_call0_v0_apply, val_main_call0_cst_apply, val_main_v50_apply, val_main_v49_apply,
    val_main_v48_apply, val_main_v47_apply, val_main_v46_apply, val_main_v45_apply, val_main_v44_apply, val_main_v43_apply,
    val_main_v42_apply, val_main_v41_apply, val_main_v40_apply, val_main_v39_apply, val_main_cst_4_apply,
    val_main_v38_apply, val_main_v37_apply, val_main_v36_apply, xr_at]
  have e48 : idx_main_v48 (idx_main_v49 (ix3 n p o)) = ix1 o :=
    funext fun a => Fin.ext (by match a with | ⟨0, _⟩ => rfl)
  have e45 : idx_main_v45 (idx_main_v46 (ix3 n p o)) = ix1 o :=
    funext fun a => Fin.ext (by match a with | ⟨0, _⟩ => rfl)
  have e42 : idx_main_v42 (idx_main_v43 (ix3 n p o)) = ix1 o :=
    funext fun a => Fin.ext (by match a with | ⟨0, _⟩ => rfl)
  have e36 : idx_main_v36 (idx_main_v37 (ix3 n p o)) = ix1 o :=
    funext fun a => Fin.ext (by match a with | ⟨0, _⟩ => rfl)
  rw [e48, e45, e42, e36, var_at, mean_at]
  show max ((xr x0 x1 x2 x3 n p o - mu x0 x1 x2 x3 o)
      * Ideal.rsqrt (Pillar.varR (xr x0 x1 x2 x3) (mu x0 x1 x2 x3) o + Ideal.ofBits .f32 0x3A83126F#32) * x4 (ix1 o) + x5 (ix1 o))
      (Ideal.ofBits .f32 0x00000000#32) = _
  rw [Ideal.ofBits_zero_f32]
  rfl

/-- The reference's result at a voxel and a channel. -/
theorem ref_value (x0 : (⟨S100000x32x4, .f32⟩ : BufTy).Contents (Elt Ideal)) (x1 : (⟨S100000, .i32⟩ : BufTy).Contents (Elt Ideal))
    (x2 : (⟨S100000x2, .f32⟩ : BufTy).Contents (Elt Ideal)) (x3 : (⟨S64x9, .f32⟩ : BufTy).Contents (Elt Ideal))
    (x4 x5 : (⟨S64, .f32⟩ : BufTy).Contents (Elt Ideal)) (n : Fin 100000) (o : Fin 64) :
    val_main_v52 (F := Ideal) x0 x1 x2 x3 x4 x5 (ix2 n o)
      = Pillar.out (Pillar.XR (c3 x0) (c1 x1) (c2 x2) (c2 x3)) (Pillar.mean (Pillar.sum1 (Pillar.XR (c3 x0) (c1 x1) (c2 x2) (c2 x3)))) (Pillar.varR (Pillar.XR (c3 x0) (c1 x1) (c2 x2) (c2 x3)) (Pillar.mean (Pillar.sum1 (Pillar.XR (c3 x0) (c1 x1) (c2 x2) (c2 x3))))) (c1 x4) (c1 x5) n o := by
  have hR : S100000x32x64.Reduces [1] S100000x64 := by decide
  unfold val_main_v52
  refine (Host.reduce_eq_fold_single (FloatOps.maximumf (F := Ideal) (φ := .f32)) (val_main_v51 (F := Ideal) x0 x1 x2 x3 x4 x5)
    (val_main_cst_5 (F := Ideal)) reducesTo_S100000x32x64_S100000x64_d1 hR h_S_ (ix2 n o)).trans ?_
  have hf : (val_main_v51 (F := Ideal) x0 x1 x2 x3 x4 x5 ∘ hR.lift (ix2 n o))
      = fun p : Fin 32 => Pillar.act (xr x0 x1 x2 x3) (mu x0 x1 x2 x3) (Pillar.varR (xr x0 x1 x2 x3) (mu x0 x1 x2 x3)) (c1 x4) (c1 x5) n p o :=
    funext fun (k : Fin 32) => by
      have el : hR.lift (ix2 n o) k = ix3 n k o :=
        funext fun a => Fin.ext (by match a with | ⟨0, _⟩ => rfl | ⟨1, _⟩ => rfl | ⟨2, _⟩ => rfl)
      show val_main_v51 (F := Ideal) x0 x1 x2 x3 x4 x5 (hR.lift (ix2 n o) k) = _
      rw [el]
      exact act_at x0 x1 x2 x3 x4 x5 n k o
  rw [hf]
  rfl

end Cert.ReferenceIdeal.RefValue

end
-- ==== Proof.PfnBody.lean ====
/-
  The second kernel's block, entry by entry.

  For a block of 200 voxels the kernel forms, for voxel `a`, point `p` and channel `o`, the linear layer
  `L a p o` = (the four raw coordinates times their weights) + (the three offsets from the voxel's mean times theirs)
  + (the two offsets from the voxel's centre times theirs), each a product of a [6400, K] array (row 32·a + p) with a
  [K, 64] array; multiplies it by the mask (1 when the voxel's count exceeds `p`, else 0); subtracts the mean row,
  multiplies by the reciprocal square root of the variance row plus 1e-3 and by the scale row, adds the shift row,
  clips below at zero; and takes the maximum over the 32 points, started from minus infinity.

  The lemmas read each array operation at an index given by coordinates: the mask (`pay4_apply`); the reshapes
  between [200, 32, K] and [6400, K] (`flat_apply`, `unflat_apply`); a product started from zero as the sum over
  the contracted coordinate (`mm4_apply`, `mm3_apply`, `mm2_apply`); the sum over the points and the division by
  the count (`dev_apply`); the centre offset (`ctr_apply`); the linear layer (`pay3_apply`); the rows broadcast over
  voxels and points and the maximum over the points (`pay1_apply`). `out1_10_apply` puts them together: the block the
  kernel leaves is `Pillar.out` of `Pillar.X` of the block's inputs.
-/
import proofs.«144289_j40235253629489_1_alg».proof.Proof.Gen.KernelIdeal.Frame
import proofs.«144289_j40235253629489_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PfnBody

open Cert.KernelIdeal Cert.KernelIdeal.Gen Idealize.ShloMosaic Idealize.ShloMosaic.ValueIdx Pillar

/-! ## Layout operations at an index -/

/-- The leading K of the four coordinates, cut out of the voxel block, read the same entries. -/
theorem slice_lane_apply {α : Type} {K : Nat} (hK : K ≤ 4) (x : S200x32x4.Idx → α)
    (h : S200x32x4.Slices ![0, 0, 0] ⟨3, ![200, 32, K]⟩) (a : Fin 200) (p : Fin 32) (k : Fin K) :
    extractStridedSlice ⟨3, ![200, 32, K]⟩ ![0, 0, 0] x h (ix3 a p k) = x (ix3 a p (⟨k.val, by omega⟩ : Fin 4)) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm)

/-- The sum over the 32 points of a [200,32,3] array. -/
theorem lanesum_apply (src : FVec Ideal S200x32x3 .f32) (h : S200x32x3.Reduces [1] S200x3) (hφ : FKind.Formats .f32)
    (hacc : (0x00000000#32 : BitVec 32) = FKind.add.neutral .f32 hφ) (a : Fin 200) (k : Fin 3) :
    multiReduction (F := Ideal) .add [1] S200x3 src 0x00000000#32 h hφ hacc (ix2 a k) = ∑ p : Fin 32, src (ix3 a p k) := by
  refine (Ideal.multiReduction_add_single src 0x00000000#32 h hφ hacc (ix2 a k)).trans ?_
  refine Finset.sum_congr rfl fun p _ => congrArg src ?_
  funext ax
  match ax with
  | ⟨0, _⟩ => rfl
  | ⟨1, _⟩ => rfl
  | ⟨2, _⟩ => rfl

/-- A column [200,1] broadcast along a second axis reads its one entry of the row. -/
theorem bcast_col_apply {α : Type} {n : Nat} (x : S200x1.Idx → α) (h : S200x1.Broadcasts ⟨2, ![200, n]⟩) (a : Fin 200) (p : Fin n) :
    broadcastTo ⟨2, ![200, n]⟩ x h (ix2 a p) = x (ix2 a 0) := by
  refine broadcastTo_apply x h (ix2 a p) (ix2 a (0 : Fin 1)) fun ax => ?_
  match ax with
  | ⟨0, _⟩ => rfl
  | ⟨1, _⟩ => rfl

/-- A [200,K] array given a unit middle axis reads the same entry. -/
theorem keep_mid_apply {α : Type} {K : Nat} (x : (⟨2, ![200, K]⟩ : Shape).Idx → α)
    (h : (⟨2, ![200, K]⟩ : Shape).ShapeCasts ⟨3, ![200, 1, K]⟩) (a : Fin 200) (u : Fin 1) (k : Fin K) :
    shapeCast ⟨3, ![200, 1, K]⟩ x h (ix3 a u k) = x (ix2 a k) :=
  shapeCast_apply x h _ _ (by
    have hu : u.val = 0 := by omega
    rw [Shape.rowMajor_val_three, Shape.rowMajor_val_two]
    show a.val * K + k.val = (a.val * 1 + u.val) * K + k.val
    rw [hu, Nat.mul_one, Nat.add_zero])

/-- A [200,1,K] array broadcast along the points reads its one entry. -/
theorem bcast_mid_apply {α : Type} {K : Nat} (x : (⟨3, ![200, 1, K]⟩ : Shape).Idx → α)
    (h : (⟨3, ![200, 1, K]⟩ : Shape).Broadcasts ⟨3, ![200, 32, K]⟩) (a : Fin 200) (p : Fin 32) (k : Fin K) :
    broadcastTo ⟨3, ![200, 32, K]⟩ x h (ix3 a p k) = x (ix3 a (0 : Fin 1) k) := by
  refine broadcastTo_apply x h (ix3 a p k) (ix3 a (0 : Fin 1) k) fun ax => ?_
  match ax with
  | ⟨0, _⟩ => rfl
  | ⟨1, _⟩ => rfl
  | ⟨2, _⟩ =>
    show k.val = if K = 1 then 0 else k.val
    split
    · have := k.isLt; omega
    · rfl

/-- The offset of a point's coordinate from the voxel's mean of that coordinate. -/
theorem dev_apply (v0 : Vec Ideal S200x32x4 .f32) (w : IVec S200x1 32)
    (hs : S200x32x4.Slices ![0, 0, 0] S200x32x3) (hr : S200x32x3.Reduces [1] S200x3) (hφ : FKind.Formats .f32)
    (hacc : (0x00000000#32 : BitVec 32) = FKind.add.neutral .f32 hφ)
    (hb1 : S200x1.Broadcasts S200x3) (hc : S200x3.ShapeCasts S200x1x3) (hb2 : S200x1x3.Broadcasts S200x32x3)
    (a : Fin 200) (p : Fin 32) (k : Fin 3) :
    subf (extractStridedSlice S200x32x3 ![0, 0, 0] v0 hs)
        (broadcastTo S200x32x3 (shapeCast S200x1x3
          (divf (multiReduction (F := Ideal) .add [1] S200x3 (extractStridedSlice S200x32x3 ![0, 0, 0] v0 hs) 0x00000000#32 hr hφ hacc)
            (broadcastTo S200x3 (sitofp (F := Ideal) .f32 w) hb1)) hc) hb2) (ix3 a p k)
      = v0 (ix3 a p (⟨k.val, by omega⟩ : Fin 4))
        - Ideal.div (∑ q : Fin 32, v0 (ix3 a q (⟨k.val, by omega⟩ : Fin 4))) (cnt (w (ix2 a 0))) := by
  rw [subf_apply, slice_lane_apply (by decide), bcast_mid_apply, keep_mid_apply, divf_apply, lanesum_apply, bcast_col_apply]
  refine congrArg₂ (· - ·) rfl (congrArg₂ Ideal.div (Finset.sum_congr rfl fun q _ => ?_) rfl)
  rw [slice_lane_apply (by decide)]

/-- The offset of a point's coordinate from the voxel's centre. -/
theorem ctr_apply (v0 : Vec Ideal S200x32x4 .f32) (v1 : Vec Ideal S200x2 .f32)
    (hs : S200x32x4.Slices ![0, 0, 0] S200x32x2) (hc : S200x2.ShapeCasts S200x1x2) (hb : S200x1x2.Broadcasts S200x32x2)
    (a : Fin 200) (p : Fin 32) (k : Fin 2) :
    subf (F := Ideal) (φ := .f32) (extractStridedSlice S200x32x2 ![0, 0, 0] v0 hs) (broadcastTo S200x32x2 (shapeCast S200x1x2 v1 hc) hb) (ix3 a p k)
      = v0 (ix3 a p (⟨k.val, by omega⟩ : Fin 4)) - v1 (ix2 a k) := by
  rw [subf_apply, slice_lane_apply (by decide), bcast_mid_apply, keep_mid_apply]

/-! ## The mask -/

/-- The mask at voxel a and point p: 1 when the voxel's count exceeds p (signed), else 0. -/
theorem pay4_apply (v2 : Vec Ideal S200x1 .i32) (a : Fin 200) (p : Fin 32) :
    k1_pay4 (F := Ideal) v2 (ix2 a p) = Pillar.msk (col v2 a) p := by
  unfold k1_pay4 k1_pay2
  rw [shapeCast_self]
  show FloatOps.sitofp .f32 ((IntOp.cmpi .sgt (broadcastTo S200x32 v2 _ (ix2 a p)) (iota .tc S200x32 32 [1] _ (ix2 a p))).setWidth 32) = _
  rw [bcast_col_apply, iota_single_apply]
  rfl

/-! ## The three products -/

/-- A [200,32,K] array flattened to [6400,K] reads, at row 32·a + p, the entry of voxel a and point p. -/
theorem flat_apply {α : Type} {K : Nat} (x : (⟨3, ![200, 32, K]⟩ : Shape).Idx → α)
    (h : (⟨3, ![200, 32, K]⟩ : Shape).ShapeCasts ⟨2, ![6400, K]⟩) (a : Fin 200) (p : Fin 32) (k : Fin K) (r : Fin 6400)
    (hr : r.val = 32 * a.val + p.val) :
    shapeCast ⟨2, ![6400, K]⟩ x h (ix2 r k) = x (ix3 a p k) :=
  shapeCast_apply x h _ _ (by
    rw [Shape.rowMajor_val_three, Shape.rowMajor_val_two]
    show (a.val * 32 + p.val) * K + k.val = r.val * K + k.val
    rw [hr, Nat.mul_comm a.val 32])

/-- A [6400,64] array folded to [200,32,64] reads, at voxel a and point p, row 32·a + p. -/
theorem unflat_apply {α : Type} (y : S6400x64.Idx → α) (h : S6400x64.ShapeCasts S200x32x64) (a : Fin 200) (p : Fin 32) (o : Fin 64) :
    shapeCast S200x32x64 y h (ix3 a p o) = y (ix2 (⟨32 * a.val + p.val, by omega⟩ : Fin 6400) o) :=
  shapeCast_apply y h _ _ (by
    rw [Shape.rowMajor_val_three, Shape.rowMajor_val_two]
    show (32 * a.val + p.val) * 64 + o.val = (a.val * 32 + p.val) * 64 + o.val
    rw [Nat.mul_comm a.val 32])

theorem lhs4_0 (i : S6400x64.Idx) (q : dot_S6400x4_S4x64_S6400x64_1_0_0_1_n_n.contr.Idx) :
    (dot_S6400x4_S4x64_S6400x64_1_0_0_1_n_n.lhsIdx i q 0).val = (i 0).val := by
  unfold DotDims.lhsIdx
  rw [dif_neg (show ¬(0 : Fin S6400x4.rank) ∈ dot_S6400x4_S4x64_S6400x64_1_0_0_1_n_n.lhsBatch by decide), dif_pos (show (0 : Fin S6400x4.rank) ∈ dot_S6400x4_S4x64_S6400x64_1_0_0_1_n_n.lhsNonContracting by decide)]
  rfl
theorem lhs4_1 (i : S6400x64.Idx) (q : dot_S6400x4_S4x64_S6400x64_1_0_0_1_n_n.contr.Idx) :
    (dot_S6400x4_S4x64_S6400x64_1_0_0_1_n_n.lhsIdx i q 1).val = (q ⟨0, by decide⟩).val :=
  dot_S6400x4_S4x64_S6400x64_1_0_0_1_n_n.lhsIdx_val_of_single rfl i q
theorem rhs4_0 (i : S6400x64.Idx) (q : dot_S6400x4_S4x64_S6400x64_1_0_0_1_n_n.contr.Idx) :
    (dot_S6400x4_S4x64_S6400x64_1_0_0_1_n_n.rhsIdx i q 0).val = (q ⟨0, by decide⟩).val :=
  dot_S6400x4_S4x64_S6400x64_1_0_0_1_n_n.rhsIdx_val_of_single rfl i q
theorem rhs4_1 (i : S6400x64.Idx) (q : dot_S6400x4_S4x64_S6400x64_1_0_0_1_n_n.contr.Idx) :
    (dot_S6400x4_S4x64_S6400x64_1_0_0_1_n_n.rhsIdx i q 1).val = (i 1).val := by
  unfold DotDims.rhsIdx
  rw [dif_neg (show ¬(1 : Fin S4x64.rank) ∈ dot_S6400x4_S4x64_S6400x64_1_0_0_1_n_n.rhsBatch by decide), dif_pos (show (1 : Fin S4x64.rank) ∈ dot_S6400x4_S4x64_S6400x64_1_0_0_1_n_n.rhsNonContracting by decide)]
  rfl

/-- The product of a [6400,4] array with a [4,64] array started from zero: the sum of the four products. -/
theorem mm4_apply (L : FVec Ideal S6400x4 .bf16) (R : FVec Ideal S4x64 .bf16) (r : Fin 6400) (o : Fin 64) :
    matmul dot_S6400x4_S4x64_S6400x64_1_0_0_1_n_n none L R (constant (F := Ideal) S6400x64 .f32 0x00000000#32) (ix2 r o)
      = ∑ k : Fin 4, L (ix2 r k) * R (ix2 k o) := by
  simp only [matmul]
  rw [Ideal.matmul_constant_zero_apply, ← Equiv.sum_comp (contrEquiv1 dot_S6400x4_S4x64_S6400x64_1_0_0_1_n_n 4 rfl rfl).symm]
  refine Finset.sum_congr rfl fun k _ => ?_
  have hk := contrEquiv1_symm_val dot_S6400x4_S4x64_S6400x64_1_0_0_1_n_n 4 rfl rfl k
  have el : dot_S6400x4_S4x64_S6400x64_1_0_0_1_n_n.lhsIdx (ix2 r o) ((contrEquiv1 dot_S6400x4_S4x64_S6400x64_1_0_0_1_n_n 4 rfl rfl).symm k) = ix2 r k := funext fun a => Fin.ext (by
    match a with
    | ⟨0, _⟩ => exact lhs4_0 _ _
    | ⟨1, _⟩ => exact (lhs4_1 _ _).trans hk)
  have er : dot_S6400x4_S4x64_S6400x64_1_0_0_1_n_n.rhsIdx (ix2 r o) ((contrEquiv1 dot_S6400x4_S4x64_S6400x64_1_0_0_1_n_n 4 rfl rfl).symm k) = ix2 k o := funext fun a => Fin.ext (by
    match a with
    | ⟨0, _⟩ => exact (rhs4_0 _ _).trans hk
    | ⟨1, _⟩ => exact rhs4_1 _ _)
  rw [el, er]

theorem lhs3_0 (i : S6400x64.Idx) (q : dot_S6400x3_S3x64_S6400x64_1_0_0_1_n_n.contr.Idx) :
    (dot_S6400x3_S3x64_S6400x64_1_0_0_1_n_n.lhsIdx i q 0).val = (i 0).val := by
  unfold DotDims.lhsIdx
  rw [dif_neg (show ¬(0 : Fin S6400x3.rank) ∈ dot_S6400x3_S3x64_S6400x64_1_0_0_1_n_n.lhsBatch by decide), dif_pos (show (0 : Fin S6400x3.rank) ∈ dot_S6400x3_S3x64_S6400x64_1_0_0_1_n_n.lhsNonContracting by decide)]
  rfl
theorem lhs3_1 (i : S6400x64.Idx) (q : dot_S6400x3_S3x64_S6400x64_1_0_0_1_n_n.contr.Idx) :
    (dot_S6400x3_S3x64_S6400x64_1_0_0_1_n_n.lhsIdx i q 1).val = (q ⟨0, by decide⟩).val :=
  dot_S6400x3_S3x64_S6400x64_1_0_0_1_n_n.lhsIdx_val_of_single rfl i q
theorem rhs3_0 (i : S6400x64.Idx) (q : dot_S6400x3_S3x64_S6400x64_1_0_0_1_n_n.contr.Idx) :
    (dot_S6400x3_S3x64_S6400x64_1_0_0_1_n_n.rhsIdx i q 0).val = (q ⟨0, by decide⟩).val :=
  dot_S6400x3_S3x64_S6400x64_1_0_0_1_n_n.rhsIdx_val_of_single rfl i q
theorem rhs3_1 (i : S6400x64.Idx) (q : dot_S6400x3_S3x64_S6400x64_1_0_0_1_n_n.contr.Idx) :
    (dot_S6400x3_S3x64_S6400x64_1_0_0_1_n_n.rhsIdx i q 1).val = (i 1).val := by
  unfold DotDims.rhsIdx
  rw [dif_neg (show ¬(1 : Fin S3x64.rank) ∈ dot_S6400x3_S3x64_S6400x64_1_0_0_1_n_n.rhsBatch by decide), dif_pos (show (1 : Fin S3x64.rank) ∈ dot_S6400x3_S3x64_S6400x64_1_0_0_1_n_n.rhsNonContracting by decide)]
  rfl

/-- The product of a [6400,3] array with a [3,64] array started from zero: the sum of the three products. -/
theorem mm3_apply (L : FVec Ideal S6400x3 .bf16) (R : FVec Ideal S3x64 .bf16) (r : Fin 6400) (o : Fin 64) :
    matmul dot_S6400x3_S3x64_S6400x64_1_0_0_1_n_n none L R (constant (F := Ideal) S6400x64 .f32 0x00000000#32) (ix2 r o)
      = ∑ k : Fin 3, L (ix2 r k) * R (ix2 k o) := by
  simp only [matmul]
  rw [Ideal.matmul_constant_zero_apply, ← Equiv.sum_comp (contrEquiv1 dot_S6400x3_S3x64_S6400x64_1_0_0_1_n_n 3 rfl rfl).symm]
  refine Finset.sum_congr rfl fun k _ => ?_
  have hk := contrEquiv1_symm_val dot_S6400x3_S3x64_S6400x64_1_0_0_1_n_n 3 rfl rfl k
  have el : dot_S6400x3_S3x64_S6400x64_1_0_0_1_n_n.lhsIdx (ix2 r o) ((contrEquiv1 dot_S6400x3_S3x64_S6400x64_1_0_0_1_n_n 3 rfl rfl).symm k) = ix2 r k := funext fun a => Fin.ext (by
    match a with
    | ⟨0, _⟩ => exact lhs3_0 _ _
    | ⟨1, _⟩ => exact (lhs3_1 _ _).trans hk)
  have er : dot_S6400x3_S3x64_S6400x64_1_0_0_1_n_n.rhsIdx (ix2 r o) ((contrEquiv1 dot_S6400x3_S3x64_S6400x64_1_0_0_1_n_n 3 rfl rfl).symm k) = ix2 k o := funext fun a => Fin.ext (by
    match a with
    | ⟨0, _⟩ => exact (rhs3_0 _ _).trans hk
    | ⟨1, _⟩ => exact rhs3_1 _ _)
  rw [el, er]

theorem lhs2_0 (i : S6400x64.Idx) (q : dot_S6400x2_S2x64_S6400x64_1_0_0_1_n_n.contr.Idx) :
    (dot_S6400x2_S2x64_S6400x64_1_0_0_1_n_n.lhsIdx i q 0).val = (i 0).val := by
  unfold DotDims.lhsIdx
  rw [dif_neg (show ¬(0 : Fin S6400x2.rank) ∈ dot_S6400x2_S2x64_S6400x64_1_0_0_1_n_n.lhsBatch by decide), dif_pos (show (0 : Fin S6400x2.rank) ∈ dot_S6400x2_S2x64_S6400x64_1_0_0_1_n_n.lhsNonContracting by decide)]
  rfl
theorem lhs2_1 (i : S6400x64.Idx) (q : dot_S6400x2_S2x64_S6400x64_1_0_0_1_n_n.contr.Idx) :
    (dot_S6400x2_S2x64_S6400x64_1_0_0_1_n_n.lhsIdx i q 1).val = (q ⟨0, by decide⟩).val :=
  dot_S6400x2_S2x64_S6400x64_1_0_0_1_n_n.lhsIdx_val_of_single rfl i q
theorem rhs2_0 (i : S6400x64.Idx) (q : dot_S6400x2_S2x64_S6400x64_1_0_0_1_n_n.contr.Idx) :
    (dot_S6400x2_S2x64_S6400x64_1_0_0_1_n_n.rhsIdx i q 0).val = (q ⟨0, by decide⟩).val :=
  dot_S6400x2_S2x64_S6400x64_1_0_0_1_n_n.rhsIdx_val_of_single rfl i q
theorem rhs2_1 (i : S6400x64.Idx) (q : dot_S6400x2_S2x64_S6400x64_1_0_0_1_n_n.contr.Idx) :
    (dot_S6400x2_S2x64_S6400x64_1_0_0_1_n_n.rhsIdx i q 1).val = (i 1).val := by
  unfold DotDims.rhsIdx
  rw [dif_neg (show ¬(1 : Fin S2x64.rank) ∈ dot_S6400x2_S2x64_S6400x64_1_0_0_1_n_n.rhsBatch by decide), dif_pos (show (1 : Fin S2x64.rank) ∈ dot_S6400x2_S2x64_S6400x64_1_0_0_1_n_n.rhsNonContracting by decide)]
  rfl

/-- The product of a [6400,2] array with a [2,64] array started from zero: the sum of the two products. -/
theorem mm2_apply (L : FVec Ideal S6400x2 .bf16) (R : FVec Ideal S2x64 .bf16) (r : Fin 6400) (o : Fin 64) :
    matmul dot_S6400x2_S2x64_S6400x64_1_0_0_1_n_n none L R (constant (F := Ideal) S6400x64 .f32 0x00000000#32) (ix2 r o)
      = ∑ k : Fin 2, L (ix2 r k) * R (ix2 k o) := by
  simp only [matmul]
  rw [Ideal.matmul_constant_zero_apply, ← Equiv.sum_comp (contrEquiv1 dot_S6400x2_S2x64_S6400x64_1_0_0_1_n_n 2 rfl rfl).symm]
  refine Finset.sum_congr rfl fun k _ => ?_
  have hk := contrEquiv1_symm_val dot_S6400x2_S2x64_S6400x64_1_0_0_1_n_n 2 rfl rfl k
  have el : dot_S6400x2_S2x64_S6400x64_1_0_0_1_n_n.lhsIdx (ix2 r o) ((contrEquiv1 dot_S6400x2_S2x64_S6400x64_1_0_0_1_n_n 2 rfl rfl).symm k) = ix2 r k := funext fun a => Fin.ext (by
    match a with
    | ⟨0, _⟩ => exact lhs2_0 _ _
    | ⟨1, _⟩ => exact (lhs2_1 _ _).trans hk)
  have er : dot_S6400x2_S2x64_S6400x64_1_0_0_1_n_n.rhsIdx (ix2 r o) ((contrEquiv1 dot_S6400x2_S2x64_S6400x64_1_0_0_1_n_n 2 rfl rfl).symm k) = ix2 k o := funext fun a => Fin.ext (by
    match a with
    | ⟨0, _⟩ => exact (rhs2_0 _ _).trans hk
    | ⟨1, _⟩ => exact rhs2_1 _ _)
  rw [el, er]

/-! ## The linear layer -/

/-- The raw coordinates times their weights, at row 32·a + p. -/
theorem term4_apply (d : FVec Ideal S200x32x4 .f32) (w : Vec Ideal S4x64 .f32)
    (hd : S200x32x4.ShapeCasts S6400x4) (hw : S4x64.ShapeCasts S4x64) (hb : FTy.bits .bf16 < FTy.bits .f32)
    (a : Fin 200) (p : Fin 32) (o : Fin 64) :
    matmul dot_S6400x4_S4x64_S6400x64_1_0_0_1_n_n none (truncf (F := Ideal) .bf16 (shapeCast S6400x4 d hd) hb)
        (truncf (F := Ideal) .bf16 (shapeCast S4x64 w hw) hb) (constant (F := Ideal) S6400x64 .f32 0x00000000#32)
        (ix2 (⟨32 * a.val + p.val, by omega⟩ : Fin 6400) o)
      = ∑ k : Fin 4, d (ix3 a p k) * w (ix2 k o) := by
  refine (mm4_apply _ _ _ _).trans (Finset.sum_congr rfl fun k _ => ?_)
  rw [truncf_apply, truncf_apply, flat_apply d hd a p k _ rfl, shapeCast_self]

/-- The mean offsets times their weights, at row 32·a + p. -/
theorem term3_apply (d : FVec Ideal S200x32x3 .f32) (w : Vec Ideal S3x64 .f32)
    (hd : S200x32x3.ShapeCasts S6400x3) (hw : S3x64.ShapeCasts S3x64) (hb : FTy.bits .bf16 < FTy.bits .f32)
    (a : Fin 200) (p : Fin 32) (o : Fin 64) :
    matmul dot_S6400x3_S3x64_S6400x64_1_0_0_1_n_n none (truncf (F := Ideal) .bf16 (shapeCast S6400x3 d hd) hb)
        (truncf (F := Ideal) .bf16 (shapeCast S3x64 w hw) hb) (constant (F := Ideal) S6400x64 .f32 0x00000000#32)
        (ix2 (⟨32 * a.val + p.val, by omega⟩ : Fin 6400) o)
      = ∑ k : Fin 3, d (ix3 a p k) * w (ix2 k o) := by
  refine (mm3_apply _ _ _ _).trans (Finset.sum_congr rfl fun k _ => ?_)
  rw [truncf_apply, truncf_apply, flat_apply d hd a p k _ rfl, shapeCast_self]

/-- The centre offsets times their weights, at row 32·a + p. -/
theorem term2_apply (d : FVec Ideal S200x32x2 .f32) (w : Vec Ideal S2x64 .f32)
    (hd : S200x32x2.ShapeCasts S6400x2) (hw : S2x64.ShapeCasts S2x64) (hb : FTy.bits .bf16 < FTy.bits .f32)
    (a : Fin 200) (p : Fin 32) (o : Fin 64) :
    matmul dot_S6400x2_S2x64_S6400x64_1_0_0_1_n_n none (truncf (F := Ideal) .bf16 (shapeCast S6400x2 d hd) hb)
        (truncf (F := Ideal) .bf16 (shapeCast S2x64 w hw) hb) (constant (F := Ideal) S6400x64 .f32 0x00000000#32)
        (ix2 (⟨32 * a.val + p.val, by omega⟩ : Fin 6400) o)
      = ∑ k : Fin 2, d (ix3 a p k) * w (ix2 k o) := by
  refine (mm2_apply _ _ _ _).trans (Finset.sum_congr rfl fun k _ => ?_)
  rw [truncf_apply, truncf_apply, flat_apply d hd a p k _ rfl, shapeCast_self]

/-- The linear layer before the mask, at voxel a, point p and channel o: the three weighted sums added. -/
theorem pay3_apply (v0 : Vec Ideal S200x32x4 .f32) (v1 : Vec Ideal S200x2 .f32) (v2 : Vec Ideal S200x1 .i32)
    (v19 : Vec Ideal S4x64 .f32) (v22 : Vec Ideal S3x64 .f32) (v25 : Vec Ideal S2x64 .f32)
    (a : Fin 200) (p : Fin 32) (o : Fin 64) :
    k1_pay3 (F := Ideal) v0 v1 v2 v19 v22 v25 (ix3 a p o)
      = (∑ k : Fin 4, c3 v0 a p k * c2 v19 k o)
        + (∑ k : Fin 3, (c3 v0 a p ⟨k.val, by omega⟩ - cmean (c3 v0) (col v2) a k) * c2 v22 k o)
        + (∑ k : Fin 2, (c3 v0 a p ⟨k.val, by omega⟩ - c2 v1 a k) * c2 v25 k o) := by
  unfold k1_pay3 k1_pay2
  refine (unflat_apply _ _ a p o).trans ?_
  refine congrArg₂ (· + ·) (congrArg₂ (· + ·) ?_ ?_) ?_
  · exact term4_apply v0 v19 _ _ _ a p o
  · refine (term3_apply _ v22 _ _ _ a p o).trans (Finset.sum_congr rfl fun k _ => ?_)
    refine congrArg (· * c2 v22 k o) ?_
    refine (dev_apply v0 _ _ _ _ _ _ _ _ a p k).trans ?_
    rw [shapeCast_self]
    rfl
  · refine (term2_apply _ v25 _ _ _ a p o).trans (Finset.sum_congr rfl fun k _ => ?_)
    exact congrArg (· * c2 v25 k o) (ctr_apply v0 v1 _ _ _ a p k)

/-! ## Normalisation and the maximum over the points -/

/-- A [200,32] array given a trailing unit axis and broadcast along the channels reads the same entry. -/
theorem mask_bcast_apply {α : Type} (m : S200x32.Idx → α) (hc : S200x32.ShapeCasts S200x32x1)
    (hb : S200x32x1.Broadcasts S200x32x64) (a : Fin 200) (p : Fin 32) (o : Fin 64) :
    broadcastTo S200x32x64 (shapeCast S200x32x1 m hc) hb (ix3 a p o) = m (ix2 a p) := by
  refine (broadcastTo_apply _ hb (ix3 a p o) (ix3 a p (0 : Fin 1)) fun ax => ?_).trans ?_
  · match ax with
    | ⟨0, _⟩ => rfl
    | ⟨1, _⟩ => rfl
    | ⟨2, _⟩ => rfl
  · exact shapeCast_apply m hc _ _ (by
      rw [Shape.rowMajor_val_three, Shape.rowMajor_val_two]
      show a.val * 32 + p.val = (a.val * 32 + p.val) * 1 + 0
      rw [Nat.mul_one, Nat.add_zero])

/-- A [1,64] row given a second unit axis and broadcast over voxels and points reads its entry of the channel. -/
theorem row_bcast_apply {α : Type} (v : S1x64.Idx → α) (h1 : S1x64.ShapeCasts S1x64) (h2 : S1x64.ShapeCasts S1x1x64)
    (hb : S1x1x64.Broadcasts S200x32x64) (a : Fin 200) (p : Fin 32) (o : Fin 64) :
    broadcastTo S200x32x64 (shapeCast S1x1x64 (shapeCast S1x64 v h1) h2) hb (ix3 a p o) = v (ix2 0 o) := by
  refine (broadcastTo_apply _ hb (ix3 a p o) (ix3 (0 : Fin 1) (0 : Fin 1) o) fun ax => ?_).trans ?_
  · match ax with
    | ⟨0, _⟩ => rfl
    | ⟨1, _⟩ => rfl
    | ⟨2, _⟩ => rfl
  · rw [shapeCast_self]
    exact shapeCast_ab_1ab_apply v h2 0 0 o

/-- The same for any [1,1,64] array. -/
theorem row3_bcast_apply {α : Type} (y : S1x1x64.Idx → α) (hb : S1x1x64.Broadcasts S200x32x64)
    (a : Fin 200) (p : Fin 32) (o : Fin 64) :
    broadcastTo S200x32x64 y hb (ix3 a p o) = y (ix3 (0 : Fin 1) (0 : Fin 1) o) := by
  refine broadcastTo_apply _ hb (ix3 a p o) (ix3 (0 : Fin 1) (0 : Fin 1) o) fun ax => ?_
  match ax with
  | ⟨0, _⟩ => rfl
  | ⟨1, _⟩ => rfl
  | ⟨2, _⟩ => rfl

/-- The maximum over the 32 points of a [200,32,64] array, started from minus infinity. -/
theorem maxred_apply (src : FVec Ideal S200x32x64 .f32) (h : S200x32x64.Reduces [1] S200x64) (hφ : FKind.Formats .f32)
    (hacc : (0xFF800000#32 : BitVec 32) = FKind.maximumf.neutral .f32 hφ) (a : Fin 200) (o : Fin 64) :
    multiReduction (F := Ideal) .maximumf [1] S200x64 src 0xFF800000#32 h hφ hacc (ix2 a o)
      = (Finset.univ : Finset (Fin 32)).fold max negInf (fun p => src (ix3 a p o)) := by
  refine (Ideal.multiReduction_maximumf_single src 0xFF800000#32 h hφ hacc (ix2 a o)).trans ?_
  have e : (src ∘ h.lift (ix2 a o)) = fun p : Fin 32 => src (ix3 a p o) :=
    funext fun p => congrArg src (funext fun ax => by
      match ax with
      | ⟨0, _⟩ => rfl
      | ⟨1, _⟩ => rfl
      | ⟨2, _⟩ => rfl)
  exact congrArg (fun f : Fin 32 → EReal => (Finset.univ : Finset (Fin 32)).fold max negInf f) e

/-- The normalised, scaled, shifted and clipped value, maximised over the points. -/
theorem pay1_apply (v36 : FVec Ideal S200x32x64 .f32) (v41 : FVec Ideal S200x32 .f32)
    (v45 v48 v51 v54 : Vec Ideal S1x64 .f32) (a : Fin 200) (o : Fin 64) :
    k1_pay1 (F := Ideal) v36 v41 v45 v48 v51 v54 (ix2 a o)
      = (Finset.univ : Finset (Fin 32)).fold max negInf (fun p =>
          max ((v36 (ix3 a p o) * v41 (ix2 a p) - row v45 o) * Ideal.rsqrt (row v48 o + eps) * row v51 o + row v54 o) 0) := by
  unfold k1_pay1
  refine (maxred_apply _ _ _ _ a o).trans ?_
  refine congrArg (fun f : Fin 32 → EReal => (Finset.univ : Finset (Fin 32)).fold max negInf f) (funext fun p => ?_)
  refine congrArg₂ max (congrArg₂ (· + ·) (congrArg₂ (· * ·) (congrArg₂ (· * ·) (congrArg₂ (· - ·)
    (congrArg₂ (· * ·) rfl ?_) ?_) ?_) ?_) ?_) ?_
  · exact mask_bcast_apply v41 _ _ a p o
  · exact row_bcast_apply v45 _ _ _ a p o
  · refine (row3_bcast_apply _ _ a p o).trans ?_
    refine congrArg Ideal.rsqrt (congrArg₂ (· + ·) ?_ rfl)
    rw [shapeCast_self]
    exact shapeCast_ab_1ab_apply v48 _ 0 0 o
  · exact row_bcast_apply v51 _ _ _ a p o
  · exact row_bcast_apply v54 _ _ _ a p o
  · exact Ideal.ofBits_zero_f32

theorem zeros2 : (![0, 0] : Fin 2 → Nat) = fun _ => 0 := funext fun a => by
  match a with
  | ⟨0, _⟩ => rfl
  | ⟨1, _⟩ => rfl
theorem zeros3 : (![0, 0, 0] : Fin 3 → Nat) = fun _ => 0 := funext fun a => by
  match a with
  | ⟨0, _⟩ => rfl
  | ⟨1, _⟩ => rfl
  | ⟨2, _⟩ => rfl

/-- What the second kernel leaves in its output block, entry by entry: the feature layer's output for the
    block's voxels, from the block's points, counts and centres, the weight pieces and the four rows. -/
theorem out1_10_apply (x0 : Vec Ideal S200x32x4 .f32) (x1 : Vec Ideal S200x1 .i32) (x2 : Vec Ideal S200x2 .f32)
    (x3 : Vec Ideal S4x64 .f32) (x4 : Vec Ideal S3x64 .f32) (x5 : Vec Ideal S2x64 .f32)
    (x6 x7 x8 x9 : Vec Ideal S1x64 .f32) (a : Fin 200) (o : Fin 64) :
    Gen.out1_10 (F := Ideal) x0 x1 x2 x3 x4 x5 x6 x7 x8 x9 (ix2 a o)
      = Pillar.out (Pillar.X (c3 x0) (col x1) (c2 x2) (c2 x3) (c2 x4) (c2 x5)) (row x6) (row x7) (row x8) (row x9) a o := by
  unfold Gen.out1_10
  rw [View.canon_unit_zero zeros2]
  simp only [View.ld_unit_zero (S := S200x32x4) zeros3, View.ld_unit_zero (S := S200x2) zeros2,
    View.ld_unit_zero (S := S200x1) zeros2, View.ld_unit_zero (S := S4x64) zeros2, View.ld_unit_zero (S := S3x64) zeros2,
    View.ld_unit_zero (S := S2x64) zeros2, View.ld_unit_zero (S := S1x64) zeros2]
  refine (pay1_apply _ _ x6 x7 x8 x9 a o).trans ?_
  unfold Pillar.out Pillar.act Pillar.X
  refine congrArg (fun f : Fin 32 → EReal => (Finset.univ : Finset (Fin 32)).fold max negInf f) (funext fun p => ?_)
  rw [pay3_apply, pay4_apply]

end Cert.KernelIdeal.PfnBody

end
-- ==== Proof.StatsBody.lean ====
/-
  The first kernel of the program, read as mathematics: the running sums of the masked linear layer over the grid.

  The grid has 500 points; point `t` sees a block of 200 voxels of 32 points each (four coordinates a point), the voxels'
  point counts, their centres, and the three pieces of the [64, 9] weight matrix. Two [1, 64] rows are carried from
  point to point: the first point sets them to zero, and every point adds to the first the sum, over the block's voxels
  and points, of the masked linear layer `Pillar.X` of the block, and to the second the sum of its squares.

  Three steps. What a point leaves in the two rows is named as the body's arithmetic applied to the block and to what
  the rows held before (`out_A_6` … `out_B_7`). That arithmetic is read entry by entry over the extended reals: a change
  of float format is the identity, a product into the zero array is the sum of the products, a lane sum is the sum over
  the lane, so row `32 a + p`, channel `o` of the [6400, 64] array is the nine weighted features of point `p` of voxel
  `a`, the mask multiplies it, and the two reductions sum it over points and voxels (`masked_apply`, `blockSum1`,
  `blockSum2`). Last, induction over the points: after point `n` the rows hold the sums of the blocks' sums over the
  points up to `n` (`stats_at`), and after point 499 over all of them (`stats_final`). Only that addition in the
  extended reals is a commutative monoid is used; nothing needs the entries to be finite.
-/
import proofs.«144289_j40235253629489_1_alg».proof.Proof.Gen.KernelIdeal.Frame
import proofs.«144289_j40235253629489_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.StatsBody

open Cert.KernelIdeal Cert.KernelIdeal.Gen Idealize.ShloMosaic Idealize.ShloMosaic.ValueIdx Pillar
open Idealize.ShloMosaic.TcCoe Idealize.SL.Sem

variable {F : FTy → Type} [FloatOps F]

/-- The zero offsets of a rank-2 and of a rank-3 whole-buffer access. -/
theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-! ## What one grid point leaves in the two accumulators

At a point other than the first the body adds the block's sum of the masked layer to the first accumulator and
the block's sum of its squares to the second; at the first point it stores the zero row first and adds to that. -/

/-- A later point: the first accumulator's old contents plus the block's sum. -/
theorem out_B_6 (c : Dev nD) (i : grid0.Coords) (arg1 : Memref sig .tc .vmem S200x32x4 .f32) (harg1 : arg1.IsWhole) (arg2 : Memref sig .tc .vmem S200x1 .i32) (harg2 : arg2.IsWhole) (arg3 : Memref sig .tc .vmem S200x2 .f32) (harg3 : arg3.IsWhole) (arg4 : Memref sig .tc .vmem S4x64 .f32) (harg4 : arg4.IsWhole) (arg5 : Memref sig .tc .vmem S3x64 .f32) (harg5 : arg5.IsWhole) (arg6 : Memref sig .tc .vmem S2x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (x0 : Vec F S200x32x4 .f32) (x1 : Vec F S200x1 .i32) (x2 : Vec F S200x2 .f32) (x3 : Vec F S4x64 .f32) (x4 : Vec F S3x64 .f32) (x5 : Vec F S2x64 .f32) (xo6 xo7 : Vec F S1x64 .f32) :
    out0_B_6 c i arg1 harg1 arg2 harg2 arg3 harg3 arg4 harg4 arg5 harg5 arg6 harg6 arg7 harg7 arg8 harg8 hc0 x0 x1 x2 x3 x4 x5 xo6 xo7 = k0_pay2 (k0_pay6 x1) (k0_pay7 x0 x2 x1 x3 x4 x5) xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 xo6 xo7)]
  unfold kernelRun0_B
  dsimp only
  sl_unfold_words
  rw [View.canon_unit_zero hz2]
  simp only [View.readAt_eq_ld, harg1.read_unread, harg2.read_unread, harg3.read_unread, harg4.read_unread, harg5.read_unread,
    harg6.read_unread, harg7.read_unread, View.ld_unit_zero (S := S200x32x4) hz3, View.ld_unit_zero (S := S200x1) hz2,
    View.ld_unit_zero (S := S200x2) hz2, View.ld_unit_zero (S := S4x64) hz2, View.ld_unit_zero (S := S3x64) hz2,
    View.ld_unit_zero (S := S2x64) hz2, View.ld_unit_zero (S := S1x64) hz2]

/-- A later point: the second accumulator's old contents plus the block's sum of squares. -/
theorem out_B_7 (c : Dev nD) (i : grid0.Coords) (arg1 : Memref sig .tc .vmem S200x32x4 .f32) (harg1 : arg1.IsWhole) (arg2 : Memref sig .tc .vmem S200x1 .i32) (harg2 : arg2.IsWhole) (arg3 : Memref sig .tc .vmem S200x2 .f32) (harg3 : arg3.IsWhole) (arg4 : Memref sig .tc .vmem S4x64 .f32) (harg4 : arg4.IsWhole) (arg5 : Memref sig .tc .vmem S3x64 .f32) (harg5 : arg5.IsWhole) (arg6 : Memref sig .tc .vmem S2x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (x0 : Vec F S200x32x4 .f32) (x1 : Vec F S200x1 .i32) (x2 : Vec F S200x2 .f32) (x3 : Vec F S4x64 .f32) (x4 : Vec F S3x64 .f32) (x5 : Vec F S2x64 .f32) (xo6 xo7 : Vec F S1x64 .f32) :
    out0_B_7 c i arg1 harg1 arg2 harg2 arg3 harg3 arg4 harg4 arg5 harg5 arg6 harg6 arg7 harg7 arg8 harg8 hc0 x0 x1 x2 x3 x4 x5 xo6 xo7 = k0_pay3 (k0_pay6 x1) (k0_pay7 x0 x2 x1 x3 x4 x5) xo7 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 x5 xo6 xo7)]
  unfold kernelRun0_B
  dsimp only
  sl_unfold_words
  rw [View.canon_unit_zero hz2]
  simp only [View.readAt_eq_ld, harg1.read_unread, harg2.read_unread, harg3.read_unread, harg4.read_unread, harg5.read_unread,
    harg6.read_unread, harg8.read_unread, View.ld_unit_zero (S := S200x32x4) hz3, View.ld_unit_zero (S := S200x1) hz2,
    View.ld_unit_zero (S := S200x2) hz2, View.ld_unit_zero (S := S4x64) hz2, View.ld_unit_zero (S := S3x64) hz2,
    View.ld_unit_zero (S := S2x64) hz2, View.ld_unit_zero (S := S1x64) hz2]

/-- The first point: the zero row plus the block's sum. -/
theorem out_A_6 (c : Dev nD) (i : grid0.Coords) (arg1 : Memref sig .tc .vmem S200x32x4 .f32) (harg1 : arg1.IsWhole) (arg2 : Memref sig .tc .vmem S200x1 .i32) (harg2 : arg2.IsWhole) (arg3 : Memref sig .tc .vmem S200x2 .f32) (harg3 : arg3.IsWhole) (arg4 : Memref sig .tc .vmem S4x64 .f32) (harg4 : arg4.IsWhole) (arg5 : Memref sig .tc .vmem S3x64 .f32) (harg5 : arg5.IsWhole) (arg6 : Memref sig .tc .vmem S2x64 .f32) (harg6 : arg6.IsWhole) (arg7 : Memref sig .tc .vmem S1x64 .f32) (harg7 : arg7.IsWhole) (arg8 : Memref sig .tc .vmem S1x64 .f32) (harg8 : arg8.IsWhole) (hc0 : cond0_0 i) (x0 : Vec F S200x32x4 .f32) (x1 : Vec F S200x1 .i32) (x2 : Vec F S200x2 .f32) (x3 : Vec F S4x64 .f32) (x4 : Vec F S3x64 .f32) (x5 : Vec F S2x64 .f32) :
    out0_A_6 c i arg1 harg1 arg2 harg2 arg3 harg3 arg4 harg4 arg5 harg5 arg6 harg6 arg7 harg7 arg8 harg8 hc0 x0 x1 x2 x3 x4 x5 = k0_pay2 (k0_pay6 x1) (k0_pay7 x0 x2 x1 x3 x4 x5) (k0_pay4 (F := F)) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread,
    harg6.read_unread, View.ld_unit_zero (S := S200x32x4) hz3, View.ld_unit_zero (S := S200x1) hz2,
    View.ld_unit_zero (S := S200x2) hz2, View.ld_unit_zero (S := S4x64) hz2, View.ld_unit_zero (S := S3x64) hz2,
    View.ld_unit_zero (S := S2x64) hz2]

/-- The first point: the zero row plus the block's sum of squares. -/
theorem out_A_7 (c : Dev nD) (i : grid0.Coords) (arg1 : Memref sig .tc .vmem S200x32x4 .f32) (harg1 : arg1.IsWhole) (arg2 : Memref sig .tc .vmem S200x1 .i32) (harg2 : arg2.IsWhole) (arg3 : Memref sig .tc .vmem S200x2 .f32) (harg3 : arg3.IsWhole) (arg4 : Memref sig .tc .vmem S4x64 .f32) (harg4 : arg4.IsWhole) (arg5 : Memref sig .tc .vmem S3x64 .f32) (harg5 : arg5.IsWhole) (arg6 : Memref sig .tc .vmem S2x64 .f32) (harg6 : arg6.IsWhole) (arg7 : Memref sig .tc .vmem S1x64 .f32) (harg7 : arg7.IsWhole) (arg8 : Memref sig .tc .vmem S1x64 .f32) (harg8 : arg8.IsWhole) (hc0 : cond0_0 i) (x0 : Vec F S200x32x4 .f32) (x1 : Vec F S200x1 .i32) (x2 : Vec F S200x2 .f32) (x3 : Vec F S4x64 .f32) (x4 : Vec F S3x64 .f32) (x5 : Vec F S2x64 .f32) :
    out0_A_7 c i arg1 harg1 arg2 harg2 arg3 harg3 arg4 harg4 arg5 harg5 arg6 harg6 arg7 harg7 arg8 harg8 hc0 x0 x1 x2 x3 x4 x5 = k0_pay3 (k0_pay6 x1) (k0_pay7 x0 x2 x1 x3 x4 x5) (k0_pay5 (F := F)) := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4 x5)]
  unfold kernelRun0_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread,
    harg6.read_unread, View.ld_unit_zero (S := S200x32x4) hz3, View.ld_unit_zero (S := S200x1) hz2,
    View.ld_unit_zero (S := S200x2) hz2, View.ld_unit_zero (S := S4x64) hz2, View.ld_unit_zero (S := S3x64) hz2,
    View.ld_unit_zero (S := S2x64) hz2]

/-! ## The three products at an entry -/

theorem lhs4_0 (i : S6400x64.Idx) (q : dot_S6400x4_S4x64_S6400x64_1_0_0_1_n_n.contr.Idx) :
    (dot_S6400x4_S4x64_S6400x64_1_0_0_1_n_n.lhsIdx i q 0).val = (i 0).val := by
  unfold DotDims.lhsIdx
  rw [dif_neg (show ¬(0 : Fin S6400x4.rank) ∈ dot_S6400x4_S4x64_S6400x64_1_0_0_1_n_n.lhsBatch by decide), dif_pos (show (0 : Fin S6400x4.rank) ∈ dot_S6400x4_S4x64_S6400x64_1_0_0_1_n_n.lhsNonContracting by decide)]
  rfl
theorem lhs4_1 (i : S6400x64.Idx) (q : dot_S6400x4_S4x64_S6400x64_1_0_0_1_n_n.contr.Idx) :
    (dot_S6400x4_S4x64_S6400x64_1_0_0_1_n_n.lhsIdx i q 1).val = (q ⟨0, by decide⟩).val :=
  dot_S6400x4_S4x64_S6400x64_1_0_0_1_n_n.lhsIdx_val_of_single rfl i q
theorem rhs4_0 (i : S6400x64.Idx) (q : dot_S6400x4_S4x64_S6400x64_1_0_0_1_n_n.contr.Idx) :
    (dot_S6400x4_S4x64_S6400x64_1_0_0_1_n_n.rhsIdx i q 0).val = (q ⟨0, by decide⟩).val :=
  dot_S6400x4_S4x64_S6400x64_1_0_0_1_n_n.rhsIdx_val_of_single rfl i q
theorem rhs4_1 (i : S6400x64.Idx) (q : dot_S6400x4_S4x64_S6400x64_1_0_0_1_n_n.contr.Idx) :
    (dot_S6400x4_S4x64_S6400x64_1_0_0_1_n_n.rhsIdx i q 1).val = (i 1).val := by
  unfold DotDims.rhsIdx
  rw [dif_neg (show ¬(1 : Fin S4x64.rank) ∈ dot_S6400x4_S4x64_S6400x64_1_0_0_1_n_n.rhsBatch by decide), dif_pos (show (1 : Fin S4x64.rank) ∈ dot_S6400x4_S4x64_S6400x64_1_0_0_1_n_n.rhsNonContracting by decide)]
  rfl
/-- The product of a [6400, 4] by a [4, 64] array into the zero array, at row `n` and channel `o`: the sum over the
    4 shared coordinates. -/
theorem matmul4_apply (l : FVec Ideal S6400x4 .bf16) (r : FVec Ideal S4x64 .bf16) (n : Fin 6400) (o : Fin 64) :
    matmul dot_S6400x4_S4x64_S6400x64_1_0_0_1_n_n none l r (constant (F := Ideal) S6400x64 .f32 0x00000000#32) (ix2 n o)
      = ∑ k : Fin 4, l (ix2 n k) * r (ix2 k o) := by
  refine (Ideal.matmul_constant_zero_apply dot_S6400x4_S4x64_S6400x64_1_0_0_1_n_n none l r (ix2 n o)).trans ?_
  rw [← Equiv.sum_comp (contrEquiv1 dot_S6400x4_S4x64_S6400x64_1_0_0_1_n_n 4 rfl rfl).symm]
  refine Finset.sum_congr rfl fun k _ => ?_
  have hk := contrEquiv1_symm_val dot_S6400x4_S4x64_S6400x64_1_0_0_1_n_n 4 rfl rfl k
  have el : dot_S6400x4_S4x64_S6400x64_1_0_0_1_n_n.lhsIdx (ix2 n o) ((contrEquiv1 dot_S6400x4_S4x64_S6400x64_1_0_0_1_n_n 4 rfl rfl).symm k) = ix2 n k := funext fun a => Fin.ext (by
    match a with
    | ⟨0, _⟩ => exact lhs4_0 _ _
    | ⟨1, _⟩ => exact (lhs4_1 _ _).trans hk)
  have er : dot_S6400x4_S4x64_S6400x64_1_0_0_1_n_n.rhsIdx (ix2 n o) ((contrEquiv1 dot_S6400x4_S4x64_S6400x64_1_0_0_1_n_n 4 rfl rfl).symm k) = ix2 k o := funext fun a => Fin.ext (by
    match a with
    | ⟨0, _⟩ => exact (rhs4_0 _ _).trans hk
    | ⟨1, _⟩ => exact rhs4_1 _ _)
  rw [el, er]

theorem lhs3_0 (i : S6400x64.Idx) (q : dot_S6400x3_S3x64_S6400x64_1_0_0_1_n_n.contr.Idx) :
    (dot_S6400x3_S3x64_S6400x64_1_0_0_1_n_n.lhsIdx i q 0).val = (i 0).val := by
  unfold DotDims.lhsIdx
  rw [dif_neg (show ¬(0 : Fin S6400x3.rank) ∈ dot_S6400x3_S3x64_S6400x64_1_0_0_1_n_n.lhsBatch by decide), dif_pos (show (0 : Fin S6400x3.rank) ∈ dot_S6400x3_S3x64_S6400x64_1_0_0_1_n_n.lhsNonContracting by decide)]
  rfl
theorem lhs3_1 (i : S6400x64.Idx) (q : dot_S6400x3_S3x64_S6400x64_1_0_0_1_n_n.contr.Idx) :
    (dot_S6400x3_S3x64_S6400x64_1_0_0_1_n_n.lhsIdx i q 1).val = (q ⟨0, by decide⟩).val :=
  dot_S6400x3_S3x64_S6400x64_1_0_0_1_n_n.lhsIdx_val_of_single rfl i q
theorem rhs3_0 (i : S6400x64.Idx) (q : dot_S6400x3_S3x64_S6400x64_1_0_0_1_n_n.contr.Idx) :
    (dot_S6400x3_S3x64_S6400x64_1_0_0_1_n_n.rhsIdx i q 0).val = (q ⟨0, by decide⟩).val :=
  dot_S6400x3_S3x64_S6400x64_1_0_0_1_n_n.rhsIdx_val_of_single rfl i q
theorem rhs3_1 (i : S6400x64.Idx) (q : dot_S6400x3_S3x64_S6400x64_1_0_0_1_n_n.contr.Idx) :
    (dot_S6400x3_S3x64_S6400x64_1_0_0_1_n_n.rhsIdx i q 1).val = (i 1).val := by
  unfold DotDims.rhsIdx
  rw [dif_neg (show ¬(1 : Fin S3x64.rank) ∈ dot_S6400x3_S3x64_S6400x64_1_0_0_1_n_n.rhsBatch by decide), dif_pos (show (1 : Fin S3x64.rank) ∈ dot_S6400x3_S3x64_S6400x64_1_0_0_1_n_n.rhsNonContracting by decide)]
  rfl
/-- The product of a [6400, 3] by a [3, 64] array into the zero array, at row `n` and channel `o`: the sum over the
    3 shared coordinates. -/
theorem matmul3_apply (l : FVec Ideal S6400x3 .bf16) (r : FVec Ideal S3x64 .bf16) (n : Fin 6400) (o : Fin 64) :
    matmul dot_S6400x3_S3x64_S6400x64_1_0_0_1_n_n none l r (constant (F := Ideal) S6400x64 .f32 0x00000000#32) (ix2 n o)
      = ∑ k : Fin 3, l (ix2 n k) * r (ix2 k o) := by
  refine (Ideal.matmul_constant_zero_apply dot_S6400x3_S3x64_S6400x64_1_0_0_1_n_n none l r (ix2 n o)).trans ?_
  rw [← Equiv.sum_comp (contrEquiv1 dot_S6400x3_S3x64_S6400x64_1_0_0_1_n_n 3 rfl rfl).symm]
  refine Finset.sum_congr rfl fun k _ => ?_
  have hk := contrEquiv1_symm_val dot_S6400x3_S3x64_S6400x64_1_0_0_1_n_n 3 rfl rfl k
  have el : dot_S6400x3_S3x64_S6400x64_1_0_0_1_n_n.lhsIdx (ix2 n o) ((contrEquiv1 dot_S6400x3_S3x64_S6400x64_1_0_0_1_n_n 3 rfl rfl).symm k) = ix2 n k := funext fun a => Fin.ext (by
    match a with
    | ⟨0, _⟩ => exact lhs3_0 _ _
    | ⟨1, _⟩ => exact (lhs3_1 _ _).trans hk)
  have er : dot_S6400x3_S3x64_S6400x64_1_0_0_1_n_n.rhsIdx (ix2 n o) ((contrEquiv1 dot_S6400x3_S3x64_S6400x64_1_0_0_1_n_n 3 rfl rfl).symm k) = ix2 k o := funext fun a => Fin.ext (by
    match a with
    | ⟨0, _⟩ => exact (rhs3_0 _ _).trans hk
    | ⟨1, _⟩ => exact rhs3_1 _ _)
  rw [el, er]

theorem lhs2_0 (i : S6400x64.Idx) (q : dot_S6400x2_S2x64_S6400x64_1_0_0_1_n_n.contr.Idx) :
    (dot_S6400x2_S2x64_S6400x64_1_0_0_1_n_n.lhsIdx i q 0).val = (i 0).val := by
  unfold DotDims.lhsIdx
  rw [dif_neg (show ¬(0 : Fin S6400x2.rank) ∈ dot_S6400x2_S2x64_S6400x64_1_0_0_1_n_n.lhsBatch by decide), dif_pos (show (0 : Fin S6400x2.rank) ∈ dot_S6400x2_S2x64_S6400x64_1_0_0_1_n_n.lhsNonContracting by decide)]
  rfl
theorem lhs2_1 (i : S6400x64.Idx) (q : dot_S6400x2_S2x64_S6400x64_1_0_0_1_n_n.contr.Idx) :
    (dot_S6400x2_S2x64_S6400x64_1_0_0_1_n_n.lhsIdx i q 1).val = (q ⟨0, by decide⟩).val :=
  dot_S6400x2_S2x64_S6400x64_1_0_0_1_n_n.lhsIdx_val_of_single rfl i q
theorem rhs2_0 (i : S6400x64.Idx) (q : dot_S6400x2_S2x64_S6400x64_1_0_0_1_n_n.contr.Idx) :
    (dot_S6400x2_S2x64_S6400x64_1_0_0_1_n_n.rhsIdx i q 0).val = (q ⟨0, by decide⟩).val :=
  dot_S6400x2_S2x64_S6400x64_1_0_0_1_n_n.rhsIdx_val_of_single rfl i q
theorem rhs2_1 (i : S6400x64.Idx) (q : dot_S6400x2_S2x64_S6400x64_1_0_0_1_n_n.contr.Idx) :
    (dot_S6400x2_S2x64_S6400x64_1_0_0_1_n_n.rhsIdx i q 1).val = (i 1).val := by
  unfold DotDims.rhsIdx
  rw [dif_neg (show ¬(1 : Fin S2x64.rank) ∈ dot_S6400x2_S2x64_S6400x64_1_0_0_1_n_n.rhsBatch by decide), dif_pos (show (1 : Fin S2x64.rank) ∈ dot_S6400x2_S2x64_S6400x64_1_0_0_1_n_n.rhsNonContracting by decide)]
  rfl
/-- The product of a [6400, 2] by a [2, 64] array into the zero array, at row `n` and channel `o`: the sum over the
    2 shared coordinates. -/
theorem matmul2_apply (l : FVec Ideal S6400x2 .bf16) (r : FVec Ideal S2x64 .bf16) (n : Fin 6400) (o : Fin 64) :
    matmul dot_S6400x2_S2x64_S6400x64_1_0_0_1_n_n none l r (constant (F := Ideal) S6400x64 .f32 0x00000000#32) (ix2 n o)
      = ∑ k : Fin 2, l (ix2 n k) * r (ix2 k o) := by
  refine (Ideal.matmul_constant_zero_apply dot_S6400x2_S2x64_S6400x64_1_0_0_1_n_n none l r (ix2 n o)).trans ?_
  rw [← Equiv.sum_comp (contrEquiv1 dot_S6400x2_S2x64_S6400x64_1_0_0_1_n_n 2 rfl rfl).symm]
  refine Finset.sum_congr rfl fun k _ => ?_
  have hk := contrEquiv1_symm_val dot_S6400x2_S2x64_S6400x64_1_0_0_1_n_n 2 rfl rfl k
  have el : dot_S6400x2_S2x64_S6400x64_1_0_0_1_n_n.lhsIdx (ix2 n o) ((contrEquiv1 dot_S6400x2_S2x64_S6400x64_1_0_0_1_n_n 2 rfl rfl).symm k) = ix2 n k := funext fun a => Fin.ext (by
    match a with
    | ⟨0, _⟩ => exact lhs2_0 _ _
    | ⟨1, _⟩ => exact (lhs2_1 _ _).trans hk)
  have er : dot_S6400x2_S2x64_S6400x64_1_0_0_1_n_n.rhsIdx (ix2 n o) ((contrEquiv1 dot_S6400x2_S2x64_S6400x64_1_0_0_1_n_n 2 rfl rfl).symm k) = ix2 k o := funext fun a => Fin.ext (by
    match a with
    | ⟨0, _⟩ => exact (rhs2_0 _ _).trans hk
    | ⟨1, _⟩ => exact rhs2_1 _ _)
  rw [el, er]

/-! ## The layout operations and the lane sums at an entry -/

section AtEntry
variable {α : Type}

/-- Row `32 a + p` of a block flattened from [200, 32, ·] to [6400, ·]: point `p` of voxel `a`. -/
def flat (a : Fin 200) (p : Fin 32) : Fin 6400 := ⟨32 * a.val + p.val, by omega⟩

/-- Flattening the first two axes: row `32 a + p` reads (a, p). -/
theorem flatten_apply {K : ℕ} (x : (⟨3, ![200, 32, K]⟩ : Shape).Idx → α)
    (h : (⟨3, ![200, 32, K]⟩ : Shape).ShapeCasts ⟨2, ![6400, K]⟩) (a : Fin 200) (p : Fin 32) (k : Fin K) :
    shapeCast ⟨2, ![6400, K]⟩ x h (ix2 (flat a p) k) = x (ix3 a p k) :=
  shapeCast_apply x h _ _ (by
    rw [Shape.rowMajor_val_three, Shape.rowMajor_val_two]
    show (a.val * 32 + p.val) * K + k.val = (32 * a.val + p.val) * K + k.val
    rw [Nat.mul_comm a.val 32])

/-- and splitting them again: (a, p) reads row `32 a + p`. -/
theorem unflatten_apply {K : ℕ} (x : (⟨2, ![6400, K]⟩ : Shape).Idx → α)
    (h : (⟨2, ![6400, K]⟩ : Shape).ShapeCasts ⟨3, ![200, 32, K]⟩) (a : Fin 200) (p : Fin 32) (k : Fin K) :
    shapeCast ⟨3, ![200, 32, K]⟩ x h (ix3 a p k) = x (ix2 (flat a p) k) :=
  shapeCast_apply x h _ _ (by
    rw [Shape.rowMajor_val_three, Shape.rowMajor_val_two]
    show (32 * a.val + p.val) * K + k.val = (a.val * 32 + p.val) * K + k.val
    rw [Nat.mul_comm a.val 32])

/-- The first `K` of the four coordinates of a point. -/
theorem lead_apply {K : ℕ} (hK : K ≤ 4) (x : (⟨3, ![200, 32, 4]⟩ : Shape).Idx → α)
    (h : (⟨3, ![200, 32, 4]⟩ : Shape).Slices ![0, 0, 0] ⟨3, ![200, 32, K]⟩) (a : Fin 200) (p : Fin 32) (k : Fin K) :
    extractStridedSlice ⟨3, ![200, 32, K]⟩ ![0, 0, 0] x h (ix3 a p k) = x (ix3 a p ⟨k.val, by omega⟩) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm)

/-- A per-voxel row given a unit point axis reads the row. -/
theorem midUnit_apply {K : ℕ} (x : (⟨2, ![200, K]⟩ : Shape).Idx → α)
    (h : (⟨2, ![200, K]⟩ : Shape).ShapeCasts ⟨3, ![200, 1, K]⟩) (a : Fin 200) (u : Fin 1) (k : Fin K) :
    shapeCast ⟨3, ![200, 1, K]⟩ x h (ix3 a u k) = x (ix2 a k) :=
  shapeCast_apply x h _ _ (by
    have hu : u.val = 0 := by omega
    rw [Shape.rowMajor_val_three, Shape.rowMajor_val_two]
    show a.val * K + k.val = (a.val * 1 + u.val) * K + k.val
    rw [hu, Nat.mul_one, Nat.add_zero])

/-- A per-voxel row repeated over the 32 points reads the voxel's row. -/
theorem overPoints_apply {K : ℕ} (x : (⟨3, ![200, 1, K]⟩ : Shape).Idx → α)
    (h : (⟨3, ![200, 1, K]⟩ : Shape).Broadcasts ⟨3, ![200, 32, K]⟩) (a : Fin 200) (p : Fin 32) (k : Fin K) :
    broadcastTo ⟨3, ![200, 32, K]⟩ x h (ix3 a p k) = x (ix3 a (0 : Fin 1) k) := by
  refine broadcastTo_apply x h (ix3 a p k) (ix3 a (0 : Fin 1) k) fun ax => ?_
  match ax with
  | ⟨0, _⟩ => show a.val = if (200 : ℕ) = 1 then 0 else a.val; rw [if_neg (by decide)]
  | ⟨1, _⟩ => rfl
  | ⟨2, _⟩ =>
    show k.val = if K = 1 then 0 else k.val
    split
    · have := k.isLt; omega
    · rfl

/-- A per-voxel column repeated along a second axis reads the voxel's entry. -/
theorem overCols_apply {K : ℕ} (x : (⟨2, ![200, 1]⟩ : Shape).Idx → α)
    (h : (⟨2, ![200, 1]⟩ : Shape).Broadcasts ⟨2, ![200, K]⟩) (a : Fin 200) (k : Fin K) :
    broadcastTo ⟨2, ![200, K]⟩ x h (ix2 a k) = x (ix2 a (0 : Fin 1)) := by
  refine broadcastTo_apply x h (ix2 a k) (ix2 a (0 : Fin 1)) fun ax => ?_
  match ax with
  | ⟨0, _⟩ => show a.val = if (200 : ℕ) = 1 then 0 else a.val; rw [if_neg (by decide)]
  | ⟨1, _⟩ => rfl

/-- A per-point value given a unit channel axis reads the value. -/
theorem lastUnit_apply (x : (⟨2, ![200, 32]⟩ : Shape).Idx → α)
    (h : (⟨2, ![200, 32]⟩ : Shape).ShapeCasts ⟨3, ![200, 32, 1]⟩) (a : Fin 200) (p : Fin 32) (u : Fin 1) :
    shapeCast ⟨3, ![200, 32, 1]⟩ x h (ix3 a p u) = x (ix2 a p) :=
  shapeCast_apply x h _ _ (by
    have hu : u.val = 0 := by omega
    rw [Shape.rowMajor_val_three, Shape.rowMajor_val_two]
    show a.val * 32 + p.val = (a.val * 32 + p.val) * 1 + u.val
    rw [hu, Nat.mul_one, Nat.add_zero])

/-- A per-point value repeated over the 64 channels reads the point's value. -/
theorem overChannels_apply (x : (⟨3, ![200, 32, 1]⟩ : Shape).Idx → α)
    (h : (⟨3, ![200, 32, 1]⟩ : Shape).Broadcasts ⟨3, ![200, 32, 64]⟩) (a : Fin 200) (p : Fin 32) (o : Fin 64) :
    broadcastTo ⟨3, ![200, 32, 64]⟩ x h (ix3 a p o) = x (ix3 a p (0 : Fin 1)) := by
  refine broadcastTo_apply x h (ix3 a p o) (ix3 a p (0 : Fin 1)) fun ax => ?_
  match ax with
  | ⟨0, _⟩ => show a.val = if (200 : ℕ) = 1 then 0 else a.val; rw [if_neg (by decide)]
  | ⟨1, _⟩ => show p.val = if (32 : ℕ) = 1 then 0 else p.val; rw [if_neg (by decide)]
  | ⟨2, _⟩ => rfl

end AtEntry

/-- The sum over the 32 points of a [200, 32, K] array, at voxel `a` and coordinate `k`. -/
theorem sumPoints_apply {K : ℕ} (src : FVec Ideal ⟨3, ![200, 32, K]⟩ .f32)
    (h : (⟨3, ![200, 32, K]⟩ : Shape).Reduces [1] ⟨2, ![200, K]⟩) (hφ : FKind.Formats .f32)
    (hacc : (0x00000000#32 : BitVec 32) = FKind.add.neutral .f32 hφ) (a : Fin 200) (k : Fin K) :
    multiReduction (F := Ideal) .add [1] ⟨2, ![200, K]⟩ src 0x00000000#32 h hφ hacc (ix2 a k) = ∑ p : Fin 32, src (ix3 a p k) := by
  refine (Ideal.multiReduction_add_single src 0x00000000#32 h hφ hacc (ix2 a k)).trans ?_
  refine Finset.sum_congr rfl fun p _ => congrArg src (funext fun ax => Fin.ext ?_)
  match ax with
  | ⟨0, _⟩ => rfl
  | ⟨1, _⟩ => rfl
  | ⟨2, _⟩ => rfl

/-- The sum over the 200 voxels of a [200, 64] array, at channel `o`. -/
theorem sumVoxels_apply (src : FVec Ideal ⟨2, ![200, 64]⟩ .f32)
    (h : (⟨2, ![200, 64]⟩ : Shape).Reduces [0] ⟨1, ![64]⟩) (hφ : FKind.Formats .f32)
    (hacc : (0x00000000#32 : BitVec 32) = FKind.add.neutral .f32 hφ) (o : Fin 64) :
    multiReduction (F := Ideal) .add [0] ⟨1, ![64]⟩ src 0x00000000#32 h hφ hacc (ix1 o) = ∑ a : Fin 200, src (ix2 a o) := by
  refine (Ideal.multiReduction_add_single src 0x00000000#32 h hφ hacc (ix1 o)).trans ?_
  refine Finset.sum_congr rfl fun a _ => congrArg src (funext fun ax => Fin.ext ?_)
  match ax with
  | ⟨0, _⟩ => rfl
  | ⟨1, _⟩ => rfl

/-- The arithmetic operations at an entry, with each operand's entry named. -/
theorem add_at {s : Shape} {φ : FTy} (A B : FVec Ideal s φ) (i : s.Idx) {x y : EReal} (hA : A i = x) (hB : B i = y) :
    addf A B i = x + y := by rw [addf_apply, hA, hB]
theorem sub_at {s : Shape} {φ : FTy} (A B : FVec Ideal s φ) (i : s.Idx) {x y : EReal} (hA : A i = x) (hB : B i = y) :
    subf A B i = x - y := by rw [subf_apply, hA, hB]
theorem mul_at {s : Shape} {φ : FTy} (A B : FVec Ideal s φ) (i : s.Idx) {x y : EReal} (hA : A i = x) (hB : B i = y) :
    mulf A B i = x * y := by rw [mulf_apply, hA, hB]
theorem div_at {s : Shape} {φ : FTy} (A B : FVec Ideal s φ) (i : s.Idx) {x y : EReal} (hA : A i = x) (hB : B i = y) :
    divf A B i = Ideal.div x y := by rw [divf_apply, hA, hB]

/-! ## The body's arithmetic at an entry

Over the extended reals a change of float format is the identity, a product into the zero array is the sum of the
products, and a lane sum is the sum over the lane's coordinates: so the [6400, 64] array the body computes from a block
is, at row `32 a + p` and channel `o`, the nine weighted features of point `p` of voxel `a`, and masked it is the
masked linear layer. -/

/-- The counts are loaded as they are. -/
theorem pay6_eq {F : FTy → Type} [FloatOps F] (v5 : Vec F S200x1 .i32) : k0_pay6 v5 = v5 := shapeCast_self v5 _

/-- The zero rows the first point stores. -/
theorem pay4_apply (o : Fin 64) : (k0_pay4 (F := Ideal)) (ix2 (0 : Fin 1) o) = 0 := Ideal.ofBits_zero_f32
theorem pay5_apply (o : Fin 64) : (k0_pay5 (F := Ideal)) (ix2 (0 : Fin 1) o) = 0 := Ideal.ofBits_zero_f32

/-- The three products summed: the weighted raw coordinates, offsets from the voxel's mean and offsets from its centre. -/
theorem pay7_apply (v3 : Vec Ideal S200x32x4 .f32) (v4 : Vec Ideal S200x2 .f32) (v5 : Vec Ideal S200x1 .i32)
    (v22 : Vec Ideal S4x64 .f32) (v25 : Vec Ideal S3x64 .f32) (v28 : Vec Ideal S2x64 .f32) (a : Fin 200) (p : Fin 32) (o : Fin 64) :
    k0_pay7 v3 v4 v5 v22 v25 v28 (ix2 (flat a p) o)
      = (∑ k : Fin 4, c3 v3 a p k * c2 v22 k o)
        + (∑ k : Fin 3, (c3 v3 a p ⟨k.val, by omega⟩ - cmean (c3 v3) (col v5) a k) * c2 v25 k o)
        + (∑ k : Fin 2, (c3 v3 a p ⟨k.val, by omega⟩ - c2 v4 a k) * c2 v28 k o) := by
  unfold k0_pay7
  dsimp only
  refine add_at _ _ _ (add_at _ _ _ ?_ ?_) ?_
  · refine (matmul4_apply _ _ (flat a p) o).trans (Finset.sum_congr rfl fun k _ => congrArg₂ (· * ·) ?_ ?_)
    · exact flatten_apply (K := 4) v3 _ a p k
    · exact congrFun (shapeCast_self v22 _) (ix2 k o)
  · refine (matmul3_apply _ _ (flat a p) o).trans (Finset.sum_congr rfl fun k _ => congrArg₂ (· * ·) ?_ ?_)
    · refine (flatten_apply (K := 3) _ _ a p k).trans (sub_at _ _ _ (lead_apply (K := 3) (by omega) v3 _ a p k) ?_)
      refine (overPoints_apply (K := 3) _ _ a p k).trans ((midUnit_apply (K := 3) _ _ a 0 k).trans (div_at _ _ _ ?_ ?_))
      · exact (sumPoints_apply (K := 3) _ _ _ _ a k).trans
          (Finset.sum_congr rfl fun p' _ => lead_apply (K := 3) (by omega) v3 _ a p' k)
      · refine (overCols_apply (K := 3) _ _ a k).trans ?_
        show (((k0_pay6 v5 (ix2 a (0 : Fin 1))).toInt : ℝ) : EReal) = cnt (col v5 a)
        rw [pay6_eq]
        rfl
    · exact congrFun (shapeCast_self v25 _) (ix2 k o)
  · refine (matmul2_apply _ _ (flat a p) o).trans (Finset.sum_congr rfl fun k _ => congrArg₂ (· * ·) ?_ ?_)
    · refine (flatten_apply (K := 2) _ _ a p k).trans (sub_at _ _ _ (lead_apply (K := 2) (by omega) v3 _ a p k) ?_)
      exact (overPoints_apply (K := 2) _ _ a p k).trans (midUnit_apply (K := 2) v4 _ a 0 k)
    · exact congrFun (shapeCast_self v28 _) (ix2 k o)

/-- The mask applied: entry (a, p, o) of the masked array is row `32 a + p` of the unmasked one times the mask of point
    `p` in a voxel of that count. -/
theorem pay1_apply (v6 : IVec S200x1 32) (v38 : FVec Ideal S6400x64 .f32) (a : Fin 200) (p : Fin 32) (o : Fin 64) :
    k0_pay1 v6 v38 (ix3 a p o) = v38 (ix2 (flat a p) o) * msk (v6 (ix2 a (0 : Fin 1))) p := by
  unfold k0_pay1
  dsimp only
  refine mul_at _ _ _ (unflatten_apply (K := 64) v38 _ a p o) ?_
  refine (overChannels_apply _ _ a p o).trans ((lastUnit_apply _ _ a p 0).trans ?_)
  show ((((IntOp.cmpi .sgt (broadcastTo S200x32 v6 broadcasts_S200x1_S200x32 (ix2 a p))
    (iota .tc S200x32 32 [1] iota_S200x32_d1_w32 (ix2 a p))).setWidth 32).toInt : ℝ) : EReal) = msk (v6 (ix2 a (0 : Fin 1))) p
  rw [overCols_apply (K := 32) v6 _ a p, iota_single_apply]
  rfl

/-- So the masked array of a block IS the masked linear layer of the block. -/
theorem masked_apply (v3 : Vec Ideal S200x32x4 .f32) (v4 : Vec Ideal S200x2 .f32) (v5 : Vec Ideal S200x1 .i32)
    (v22 : Vec Ideal S4x64 .f32) (v25 : Vec Ideal S3x64 .f32) (v28 : Vec Ideal S2x64 .f32) (a : Fin 200) (p : Fin 32) (o : Fin 64) :
    k0_pay1 (k0_pay6 v5) (k0_pay7 v3 v4 v5 v22 v25 v28) (ix3 a p o)
      = Pillar.X (c3 v3) (col v5) (c2 v4) (c2 v22) (c2 v25) (c2 v28) a p o := by
  rw [pay1_apply, pay7_apply, pay6_eq]
  rfl

/-- The first accumulator's update: its old row plus the sum of the masked array over the block's voxels and points. -/
theorem pay2_apply (v6 : IVec S200x1 32) (v38 : FVec Ideal S6400x64 .f32) (v53 : Vec Ideal S1x64 .f32) (o : Fin 64) :
    k0_pay2 v6 v38 v53 (ix2 (0 : Fin 1) o)
      = v53 (ix2 (0 : Fin 1) o) + ∑ a : Fin 200, ∑ p : Fin 32, k0_pay1 v6 v38 (ix3 a p o) := by
  unfold k0_pay2
  dsimp only
  refine add_at _ _ _ (congrFun (shapeCast_self v53 _) _) ?_
  refine (shapeCast_a_1a_apply _ _ 0 o).trans ((sumVoxels_apply _ _ _ _ o).trans (Finset.sum_congr rfl fun a _ => ?_))
  exact sumPoints_apply (K := 64) _ _ _ _ a o

/-- The second accumulator's update: its old row plus the sum of the squares. -/
theorem pay3_apply (v6 : IVec S200x1 32) (v38 : FVec Ideal S6400x64 .f32) (v58 : Vec Ideal S1x64 .f32) (o : Fin 64) :
    k0_pay3 v6 v38 v58 (ix2 (0 : Fin 1) o)
      = v58 (ix2 (0 : Fin 1) o) + ∑ a : Fin 200, ∑ p : Fin 32, k0_pay1 v6 v38 (ix3 a p o) * k0_pay1 v6 v38 (ix3 a p o) := by
  unfold k0_pay3
  dsimp only
  refine add_at _ _ _ (congrFun (shapeCast_self v58 _) _) ?_
  refine (shapeCast_a_1a_apply _ _ 0 o).trans ((sumVoxels_apply _ _ _ _ o).trans (Finset.sum_congr rfl fun a _ => ?_))
  exact (sumPoints_apply (K := 64) _ _ _ _ a o).trans (Finset.sum_congr rfl fun p _ => mul_at _ _ _ rfl rfl)

/-! ## The accumulation over the grid

After point `n` the two accumulators hold the sums, over the blocks of the points up to `n`, of the block's sum of
the masked linear layer and of its squares: the first point starts from the zero row, every later point adds to what the
point before left. -/

section Accumulation

variable (V : (c : Dev nD) → (b : Ref sig .tc) → Buf (Elt Ideal) ((c : Thread nD τ).loc b))

/-- The blocks the six input windows hold at point `t`: the voxels' points, the point counts, the voxel centres, and the
    three pieces of the weight matrix. -/
abbrev xb0 (c : Dev nD) (t : Fin cfg0.N) : Vec Ideal S200x32x4 .f32 := Gen.iblk0 V c 0 t
abbrev xb1 (c : Dev nD) (t : Fin cfg0.N) : Vec Ideal S200x1 .i32 := Gen.iblk0 V c 1 t
abbrev xb2 (c : Dev nD) (t : Fin cfg0.N) : Vec Ideal S200x2 .f32 := Gen.iblk0 V c 2 t
abbrev xb3 (c : Dev nD) (t : Fin cfg0.N) : Vec Ideal S4x64 .f32 := Gen.iblk0 V c 3 t
abbrev xb4 (c : Dev nD) (t : Fin cfg0.N) : Vec Ideal S3x64 .f32 := Gen.iblk0 V c 4 t
abbrev xb5 (c : Dev nD) (t : Fin cfg0.N) : Vec Ideal S2x64 .f32 := Gen.iblk0 V c 5 t

/-- The masked linear layer of the block at point `t`. -/
def Xblk (c : Dev nD) (t : Fin cfg0.N) : Fin 200 → Fin 32 → Fin 64 → EReal :=
  Pillar.X (c3 (xb0 V c t)) (col (xb1 V c t)) (c2 (xb2 V c t)) (c2 (xb3 V c t)) (c2 (xb4 V c t)) (c2 (xb5 V c t))

/-- A block's contribution to the first accumulator, from the body's arithmetic. -/
theorem blockSum1 (v3 : Vec Ideal S200x32x4 .f32) (v4 : Vec Ideal S200x2 .f32) (v5 : Vec Ideal S200x1 .i32)
    (v22 : Vec Ideal S4x64 .f32) (v25 : Vec Ideal S3x64 .f32) (v28 : Vec Ideal S2x64 .f32) (prev : Vec Ideal S1x64 .f32) (o : Fin 64) :
    k0_pay2 (k0_pay6 v5) (k0_pay7 v3 v4 v5 v22 v25 v28) prev (ix2 (0 : Fin 1) o)
      = prev (ix2 (0 : Fin 1) o) + Pillar.sum1 (Pillar.X (c3 v3) (col v5) (c2 v4) (c2 v22) (c2 v25) (c2 v28)) o :=
  (pay2_apply _ _ prev o).trans (congrArg (prev (ix2 (0 : Fin 1) o) + ·)
    (Finset.sum_congr rfl fun a _ => Finset.sum_congr rfl fun p _ => masked_apply v3 v4 v5 v22 v25 v28 a p o))

/-- A block's contribution to the second accumulator. -/
theorem blockSum2 (v3 : Vec Ideal S200x32x4 .f32) (v4 : Vec Ideal S200x2 .f32) (v5 : Vec Ideal S200x1 .i32)
    (v22 : Vec Ideal S4x64 .f32) (v25 : Vec Ideal S3x64 .f32) (v28 : Vec Ideal S2x64 .f32) (prev : Vec Ideal S1x64 .f32) (o : Fin 64) :
    k0_pay3 (k0_pay6 v5) (k0_pay7 v3 v4 v5 v22 v25 v28) prev (ix2 (0 : Fin 1) o)
      = prev (ix2 (0 : Fin 1) o) + Pillar.sum2 (Pillar.X (c3 v3) (col v5) (c2 v4) (c2 v22) (c2 v25) (c2 v28)) o :=
  (pay3_apply _ _ prev o).trans (congrArg (prev (ix2 (0 : Fin 1) o) + ·)
    (Finset.sum_congr rfl fun a _ => Finset.sum_congr rfl fun p _ => by rw [masked_apply v3 v4 v5 v22 v25 v28 a p o]))

/-- The first point: both accumulators are zero plus the first block's sums. -/
theorem first_point (c : Dev nD) (hn : 0 < cfg0.N) (o : Fin 64) :
    (Gen.outsAt0 (F := Ideal) V c 0 hn).1 (ix2 (0 : Fin 1) o) = 0 + Pillar.sum1 (Xblk V c ⟨0, hn⟩) o
    ∧ (Gen.outsAt0 (F := Ideal) V c 0 hn).2 (ix2 (0 : Fin 1) o) = 0 + Pillar.sum2 (Xblk V c ⟨0, hn⟩) o := by
  rw [Gen.outsAt0_A V c ⟨0, hn⟩ (Nat.zero_mod _)]
  dsimp only
  constructor
  · refine (congrFun (out_A_6 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (xb0 V c ⟨0, hn⟩) (xb1 V c ⟨0, hn⟩) (xb2 V c ⟨0, hn⟩) (xb3 V c ⟨0, hn⟩) (xb4 V c ⟨0, hn⟩) (xb5 V c ⟨0, hn⟩)) (ix2 (0 : Fin 1) o)).trans ?_
    refine (blockSum1 _ _ _ _ _ _ _ o).trans ?_
    rw [pay4_apply]
    rfl
  · refine (congrFun (out_A_7 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (xb0 V c ⟨0, hn⟩) (xb1 V c ⟨0, hn⟩) (xb2 V c ⟨0, hn⟩) (xb3 V c ⟨0, hn⟩) (xb4 V c ⟨0, hn⟩) (xb5 V c ⟨0, hn⟩)) (ix2 (0 : Fin 1) o)).trans ?_
    refine (blockSum2 _ _ _ _ _ _ _ o).trans ?_
    rw [pay5_apply]
    rfl

/-- A later point: each accumulator is what the point before left plus the block's sum. -/
theorem later_point (c : Dev nD) (n : ℕ) (hn : n + 1 < cfg0.N) (o : Fin 64) :
    (Gen.outsAt0 (F := Ideal) V c (n + 1) hn).1 (ix2 (0 : Fin 1) o)
        = (Gen.outsAt0 (F := Ideal) V c n (Nat.lt_of_succ_lt hn)).1 (ix2 (0 : Fin 1) o) + Pillar.sum1 (Xblk V c ⟨n + 1, hn⟩) o
    ∧ (Gen.outsAt0 (F := Ideal) V c (n + 1) hn).2 (ix2 (0 : Fin 1) o)
        = (Gen.outsAt0 (F := Ideal) V c n (Nat.lt_of_succ_lt hn)).2 (ix2 (0 : Fin 1) o) + Pillar.sum2 (Xblk V c ⟨n + 1, hn⟩) o := by
  have hN : cfg0.N = 500 := N_0
  have hB : ¬(⟨n + 1, hn⟩ : Fin cfg0.N).val % 500 = 0 := by dsimp only; omega
  rw [Gen.outsAt0_B V c ⟨n + 1, hn⟩ hB]
  dsimp only
  constructor
  · refine (congrFun (out_B_6 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => hB ((hcond0_0 ⟨n + 1, hn⟩).mp h)) (xb0 V c ⟨n + 1, hn⟩) (xb1 V c ⟨n + 1, hn⟩) (xb2 V c ⟨n + 1, hn⟩) (xb3 V c ⟨n + 1, hn⟩) (xb4 V c ⟨n + 1, hn⟩) (xb5 V c ⟨n + 1, hn⟩)
      (Gen.outsAt0 (F := Ideal) V c n (Nat.lt_of_succ_lt hn)).1 (Gen.outsAt0 (F := Ideal) V c n (Nat.lt_of_succ_lt hn)).2) (ix2 (0 : Fin 1) o)).trans ?_
    exact blockSum1 _ _ _ _ _ _ _ o
  · refine (congrFun (out_B_7 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => hB ((hcond0_0 ⟨n + 1, hn⟩).mp h)) (xb0 V c ⟨n + 1, hn⟩) (xb1 V c ⟨n + 1, hn⟩) (xb2 V c ⟨n + 1, hn⟩) (xb3 V c ⟨n + 1, hn⟩) (xb4 V c ⟨n + 1, hn⟩) (xb5 V c ⟨n + 1, hn⟩)
      (Gen.outsAt0 (F := Ideal) V c n (Nat.lt_of_succ_lt hn)).1 (Gen.outsAt0 (F := Ideal) V c n (Nat.lt_of_succ_lt hn)).2) (ix2 (0 : Fin 1) o)).trans ?_
    exact blockSum2 _ _ _ _ _ _ _ o

/-- A sum over the points up to `n + 1` is the sum over the points up to `n` plus the term of point `n + 1`. -/
theorem sum_upto_succ (f : Fin cfg0.N → EReal) (n : ℕ) (hn : n + 1 < cfg0.N) :
    (∑ t : Fin cfg0.N, if t.val ≤ n + 1 then f t else 0) = (∑ t : Fin cfg0.N, if t.val ≤ n then f t else 0) + f ⟨n + 1, hn⟩ := by
  have e : ∀ t : Fin cfg0.N, (if t.val ≤ n + 1 then f t else 0)
      = (if t.val ≤ n then f t else 0) + (if t = ⟨n + 1, hn⟩ then f t else 0) := fun t => by
    by_cases h1 : t.val ≤ n
    · have h2 : ¬t = ⟨n + 1, hn⟩ := fun h => by rw [h] at h1; exact absurd h1 (by dsimp only; omega)
      rw [if_pos h1, if_pos (by omega), if_neg h2, add_zero]
    · by_cases h2 : t = ⟨n + 1, hn⟩
      · rw [if_neg h1, if_pos h2, if_pos (by rw [h2]), zero_add]
      · have h3 : ¬t.val ≤ n + 1 := fun h => h2 (Fin.ext (by dsimp only; omega))
        rw [if_neg h1, if_neg h2, if_neg h3, add_zero]
  rw [Finset.sum_congr rfl fun t _ => e t, Finset.sum_add_distrib, Finset.sum_ite_eq' Finset.univ ⟨n + 1, hn⟩ f, if_pos (Finset.mem_univ _)]

/-- and up to point `0` it is the term of point `0`. -/
theorem sum_upto_zero (f : Fin cfg0.N → EReal) (hn : 0 < cfg0.N) :
    (∑ t : Fin cfg0.N, if t.val ≤ 0 then f t else 0) = f ⟨0, hn⟩ := by
  have e : ∀ t : Fin cfg0.N, (if t.val ≤ 0 then f t else 0) = (if t = ⟨0, hn⟩ then f t else 0) := fun t => by
    by_cases h : t = ⟨0, hn⟩
    · rw [if_pos h, if_pos (by rw [h])]
    · rw [if_neg h, if_neg (fun h0 => h (Fin.ext (by dsimp only; omega)))]
  rw [Finset.sum_congr rfl fun t _ => e t, Finset.sum_ite_eq' Finset.univ ⟨0, hn⟩ f, if_pos (Finset.mem_univ _)]

/-- THE ACCUMULATORS AFTER POINT `n`: the sums of the blocks' sums over the points up to `n`. -/
theorem stats_at (c : Dev nD) : ∀ (n : ℕ) (hn : n < cfg0.N) (o : Fin 64),
    (Gen.outsAt0 (F := Ideal) V c n hn).1 (ix2 (0 : Fin 1) o) = ∑ t : Fin cfg0.N, (if t.val ≤ n then Pillar.sum1 (Xblk V c t) o else 0)
    ∧ (Gen.outsAt0 (F := Ideal) V c n hn).2 (ix2 (0 : Fin 1) o) = ∑ t : Fin cfg0.N, (if t.val ≤ n then Pillar.sum2 (Xblk V c t) o else 0)
  | 0, hn, o => by
    rw [sum_upto_zero (fun t => Pillar.sum1 (Xblk V c t) o) hn, sum_upto_zero (fun t => Pillar.sum2 (Xblk V c t) o) hn]
    have h := first_point V c hn o
    rw [zero_add, zero_add] at h
    exact h
  | n + 1, hn, o => by
    rw [sum_upto_succ (fun t => Pillar.sum1 (Xblk V c t) o) n hn, sum_upto_succ (fun t => Pillar.sum2 (Xblk V c t) o) n hn,
      ← (stats_at c n (Nat.lt_of_succ_lt hn) o).1, ← (stats_at c n (Nat.lt_of_succ_lt hn) o).2]
    exact later_point V c n hn o

/-- AFTER THE LAST POINT: the sums over all 500 blocks. -/
theorem stats_final (c : Dev nD) (hn : 499 < cfg0.N) (o : Fin 64) :
    (Gen.outsAt0 (F := Ideal) V c 499 hn).1 (ix2 (0 : Fin 1) o) = ∑ t : Fin cfg0.N, Pillar.sum1 (Xblk V c t) o
    ∧ (Gen.outsAt0 (F := Ideal) V c 499 hn).2 (ix2 (0 : Fin 1) o) = ∑ t : Fin cfg0.N, Pillar.sum2 (Xblk V c t) o := by
  have hN : cfg0.N = 500 := N_0
  have h := stats_at V c 499 hn o
  have e : ∀ (f : Fin cfg0.N → EReal), (∑ t : Fin cfg0.N, if t.val ≤ 499 then f t else 0) = ∑ t : Fin cfg0.N, f t := fun f =>
    Finset.sum_congr rfl fun t _ => if_pos (by have := t.isLt; omega)
  rw [e, e] at h
  exact h

end Accumulation

end Cert.KernelIdeal.StatsBody
end
-- ==== Proof.HostVals.lean ====
/-
  The arrays the two kernels find when they are entered, read back to the program's arguments.

  Before the statistics kernel the program reshapes the point counts [100000] to a column [100000, 1], transposes the
  weight matrix [64, 9] to [9, 64] and cuts it into its rows 0–3, 4–6 and 7–8. Between the two kernels it flattens the
  two statistics rows [1, 64], divides each by 3.2e6, subtracts the squared first quotient from the second, and writes the
  mean, the variance, the scale and the shift as rows [1, 64].

  Here: at the first kernel's entry the point array and the voxel centres are the arguments, the column of counts reads
  the count of its voxel, and the three weight blocks read the weight matrix at the transposed index (`Pillar.wv`,
  `Pillar.wc`, `Pillar.wf`). At the second kernel's entry those six arrays are unchanged, the mean row is
  `Pillar.mean` and the variance row `Pillar.varK` of the first kernel's two result rows, and the scale and shift rows
  read the scale and shift arguments.
-/
import proofs.«144289_j40235253629489_1_alg».proof.Proof.Gen.KernelIdeal.Frame
import proofs.«144289_j40235253629489_1_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal

set_option maxRecDepth 16384

noncomputable section

namespace Cert.KernelIdeal.HostVals

open Cert.KernelIdeal Cert.KernelIdeal.Gen Idealize.ShloMosaic Idealize.ShloMosaic.TcCoe Idealize.ShloMosaic.ValueIdx Idealize.ShloMosaic.StableHlo Pillar

variable (m : (ℓ : Loc nD τ sig) → Buf (Elt Ideal) ℓ) (ρ : Dev nD → PrngReg) (c : Dev nD)

/-! ## Region 0's entry: the arrays the first host stretch leaves -/

/-- No operation of the first host stretch writes the point array. -/
theorem V1_arg0 : Gen.V1 m ρ c main_arg0 = m ((c : Thread nD τ).loc main_arg0) := by
  show StableHlo.after Gen.hostOps0 (Gen.W0 m ρ c) (Proc.devRef .tc main_arg0) = _
  after_results

/-- No operation of the first host stretch writes the voxel centres. -/
theorem V1_arg2 : Gen.V1 m ρ c main_arg2 = m ((c : Thread nD τ).loc main_arg2) := by
  show StableHlo.after Gen.hostOps0 (Gen.W0 m ρ c) (Proc.devRef .tc main_arg2) = _
  after_results

/-- The point counts as a column: the reshape of the counts. -/
theorem V1_v0_eq : (Gen.V1 m ρ c main_v0 : S100000x1.Idx → BitVec 32)
    = shapeCast S100000x1 (m ((c : Thread nD τ).loc main_arg1) : S100000.Idx → BitVec 32) shapeCasts_S100000_S100000x1 := by
  show StableHlo.after Gen.hostOps0 (Gen.W0 m ρ c) (Proc.devRef .tc main_v0) = _
  after_results
  rfl

/-- Entry `(a, 0)` of the column of point counts is the count of voxel `a`. -/
theorem V1_v0 (a : Fin 100000) :
    (Gen.V1 m ρ c main_v0 : S100000x1.Idx → BitVec 32) (ix2 a 0)
      = (m ((c : Thread nD τ).loc main_arg1) : S100000.Idx → BitVec 32) (ix1 a) := by
  rw [V1_v0_eq]
  refine shapeCast_apply (s := S100000) (t := S100000x1) _ _ _ _ ?_
  rw [Shape.rowMajor_val_one, Shape.rowMajor_val_two]
  show a.val = a.val * 1 + 0
  omega

/-- The transposed weight matrix. -/
theorem V1_v1_eq : (Gen.W1 m ρ c (Proc.devRef .tc main_v1) : S9x64.Idx → EReal)
    = transpose S9x64 [1, 0] (m ((c : Thread nD τ).loc main_arg3) : S64x9.Idx → EReal) transposes_S64x9_S9x64_1_0 := by
  show StableHlo.after Gen.hostOps0 (Gen.W0 m ρ c) (Proc.devRef .tc main_v1) = _
  after_results

/-- Rows 0 to 3 of the transposed weight matrix. -/
theorem V1_v2_eq : (Gen.V1 m ρ c main_v2 : S4x64.Idx → EReal)
    = extractStridedSlice S4x64 ![0, 0]
        (transpose S9x64 [1, 0] (m ((c : Thread nD τ).loc main_arg3) : S64x9.Idx → EReal) transposes_S64x9_S9x64_1_0)
        slices_S9x64_S4x64_0_0 := by
  show StableHlo.after Gen.hostOps0 (Gen.W0 m ρ c) (Proc.devRef .tc main_v2) = _
  after_results

/-- Rows 4 to 6 of the transposed weight matrix. -/
theorem V1_v3_eq : (Gen.V1 m ρ c main_v3 : S3x64.Idx → EReal)
    = extractStridedSlice S3x64 ![4, 0]
        (transpose S9x64 [1, 0] (m ((c : Thread nD τ).loc main_arg3) : S64x9.Idx → EReal) transposes_S64x9_S9x64_1_0)
        slices_S9x64_S3x64_4_0 := by
  show StableHlo.after Gen.hostOps0 (Gen.W0 m ρ c) (Proc.devRef .tc main_v3) = _
  after_results

/-- Rows 7 and 8 of the transposed weight matrix. -/
theorem V1_v4_eq : (Gen.V1 m ρ c main_v4 : S2x64.Idx → EReal)
    = extractStridedSlice S2x64 ![7, 0]
        (transpose S9x64 [1, 0] (m ((c : Thread nD τ).loc main_arg3) : S64x9.Idx → EReal) transposes_S64x9_S9x64_1_0)
        slices_S9x64_S2x64_7_0 := by
  show StableHlo.after Gen.hostOps0 (Gen.W0 m ρ c) (Proc.devRef .tc main_v4) = _
  after_results

/-- Entry `(k, o)` of the raw coordinates' weights is the weight matrix at `(o, k)`. -/
theorem V1_v2 : c2 (Gen.V1 m ρ c main_v2 : S4x64.Idx → EReal)
    = wv (c2 (m ((c : Thread nD τ).loc main_arg3) : S64x9.Idx → EReal)) := by
  funext k o
  show (Gen.V1 m ρ c main_v2 : S4x64.Idx → EReal) (ix2 k o) = _
  rw [V1_v2_eq]
  refine (slice2_axis0_apply 0 _ slices_S9x64_S4x64_0_0 k o ⟨k.val, by omega⟩ (by show k.val = 0 + k.val; omega)).trans ?_
  exact transpose_ix2_apply _ transposes_S64x9_S9x64_1_0 _ _

/-- Entry `(k, o)` of the mean offsets' weights is the weight matrix at `(o, 4 + k)`. -/
theorem V1_v3 : c2 (Gen.V1 m ρ c main_v3 : S3x64.Idx → EReal)
    = wc (c2 (m ((c : Thread nD τ).loc main_arg3) : S64x9.Idx → EReal)) := by
  funext k o
  show (Gen.V1 m ρ c main_v3 : S3x64.Idx → EReal) (ix2 k o) = _
  rw [V1_v3_eq]
  refine (slice2_axis0_apply 4 _ slices_S9x64_S3x64_4_0 k o ⟨4 + k.val, by omega⟩ rfl).trans ?_
  exact transpose_ix2_apply _ transposes_S64x9_S9x64_1_0 _ _

/-- Entry `(k, o)` of the centre offsets' weights is the weight matrix at `(o, 7 + k)`. -/
theorem V1_v4 : c2 (Gen.V1 m ρ c main_v4 : S2x64.Idx → EReal)
    = wf (c2 (m ((c : Thread nD τ).loc main_arg3) : S64x9.Idx → EReal)) := by
  funext k o
  show (Gen.V1 m ρ c main_v4 : S2x64.Idx → EReal) (ix2 k o) = _
  rw [V1_v4_eq]
  refine (slice2_axis0_apply 7 _ slices_S9x64_S2x64_7_0 k o ⟨7 + k.val, by omega⟩ rfl).trans ?_
  exact transpose_ix2_apply _ transposes_S64x9_S9x64_1_0 _ _

/-! ## Region 1's entry: the arrays region 0 and the second host stretch leave -/

/-- An input array of region 0 that the second host stretch does not write is, at region 1's entry, what it was at
    region 0's: the point array. -/
theorem V3_arg0_V1 : Gen.V3 m ρ c main_arg0 = Gen.V1 m ρ c main_arg0 := by
  have h : Gen.V3 m ρ c main_arg0 = Gen.W2 m ρ c (Proc.devRef .tc main_arg0) := by
    show StableHlo.after Gen.hostOps1 (Gen.W2 m ρ c) (Proc.devRef .tc main_arg0) = _
    after_results
  rw [h]
  exact (Gen.W2_arr m ρ c 0).trans (((Gen.dat0 (Gen.V1 m ρ) c).arrAt_in 0 rfl _).trans (Gen.A_eq0 (Gen.V1 m ρ) c 0))

theorem V3_arg0 : Gen.V3 m ρ c main_arg0 = m ((c : Thread nD τ).loc main_arg0) :=
  (V3_arg0_V1 m ρ c).trans (V1_arg0 m ρ c)

/-- The column of point counts is unchanged. -/
theorem V3_v0 : Gen.V3 m ρ c main_v0 = Gen.V1 m ρ c main_v0 := by
  have h : Gen.V3 m ρ c main_v0 = Gen.W2 m ρ c (Proc.devRef .tc main_v0) := by
    show StableHlo.after Gen.hostOps1 (Gen.W2 m ρ c) (Proc.devRef .tc main_v0) = _
    after_results
  rw [h]
  exact (Gen.W2_arr m ρ c 1).trans (((Gen.dat0 (Gen.V1 m ρ) c).arrAt_in 1 rfl _).trans (Gen.A_eq0 (Gen.V1 m ρ) c 1))

/-- The voxel centres are unchanged. -/
theorem V3_arg2_V1 : Gen.V3 m ρ c main_arg2 = Gen.V1 m ρ c main_arg2 := by
  have h : Gen.V3 m ρ c main_arg2 = Gen.W2 m ρ c (Proc.devRef .tc main_arg2) := by
    show StableHlo.after Gen.hostOps1 (Gen.W2 m ρ c) (Proc.devRef .tc main_arg2) = _
    after_results
  rw [h]
  exact (Gen.W2_arr m ρ c 2).trans (((Gen.dat0 (Gen.V1 m ρ) c).arrAt_in 2 rfl _).trans (Gen.A_eq0 (Gen.V1 m ρ) c 2))

theorem V3_arg2 : Gen.V3 m ρ c main_arg2 = m ((c : Thread nD τ).loc main_arg2) :=
  (V3_arg2_V1 m ρ c).trans (V1_arg2 m ρ c)

/-- The three weight blocks are unchanged. -/
theorem V3_v2 : Gen.V3 m ρ c main_v2 = Gen.V1 m ρ c main_v2 := by
  have h : Gen.V3 m ρ c main_v2 = Gen.W2 m ρ c (Proc.devRef .tc main_v2) := by
    show StableHlo.after Gen.hostOps1 (Gen.W2 m ρ c) (Proc.devRef .tc main_v2) = _
    after_results
  rw [h]
  exact (Gen.W2_arr m ρ c 3).trans (((Gen.dat0 (Gen.V1 m ρ) c).arrAt_in 3 rfl _).trans (Gen.A_eq0 (Gen.V1 m ρ) c 3))

theorem V3_v3 : Gen.V3 m ρ c main_v3 = Gen.V1 m ρ c main_v3 := by
  have h : Gen.V3 m ρ c main_v3 = Gen.W2 m ρ c (Proc.devRef .tc main_v3) := by
    show StableHlo.after Gen.hostOps1 (Gen.W2 m ρ c) (Proc.devRef .tc main_v3) = _
    after_results
  rw [h]
  exact (Gen.W2_arr m ρ c 4).trans (((Gen.dat0 (Gen.V1 m ρ) c).arrAt_in 4 rfl _).trans (Gen.A_eq0 (Gen.V1 m ρ) c 4))

theorem V3_v4 : Gen.V3 m ρ c main_v4 = Gen.V1 m ρ c main_v4 := by
  have h : Gen.V3 m ρ c main_v4 = Gen.W2 m ρ c (Proc.devRef .tc main_v4) := by
    show StableHlo.after Gen.hostOps1 (Gen.W2 m ρ c) (Proc.devRef .tc main_v4) = _
    after_results
  rw [h]
  exact (Gen.W2_arr m ρ c 5).trans (((Gen.dat0 (Gen.V1 m ρ) c).arrAt_in 5 rfl _).trans (Gen.A_eq0 (Gen.V1 m ρ) c 5))

/-- The divisor 3.2e6 at every channel. -/
abbrev totals : S64.Idx → EReal := broadcastInDim S64 ![] bcast_S_S64 (constant (F := Ideal) S_ .f32 0x4A435000#32)

/-- The mean row: the first statistic flattened, divided by 3.2e6, as a row again. -/
theorem V3_v14_eq : (Gen.V3 m ρ c main_v14 : S1x64.Idx → EReal)
    = shapeCast S1x64
        (Host.divf (F := Ideal) (s := S64) (φ := .f32)
          (shapeCast S64 (Gen.W2 m ρ c (Proc.devRef .tc main_v5_0) : S1x64.Idx → EReal) shapeCasts_S1x64_S64) totals)
        shapeCasts_S64_S1x64 := by
  show StableHlo.after Gen.hostOps1 (Gen.W2 m ρ c) (Proc.devRef .tc main_v14) = _
  after_results
  rfl

/-- Entry `(0, o)` of the mean row is the first statistic's entry divided by 3.2e6. -/
theorem V3_v14 (o : Fin 64) :
    (Gen.V3 m ρ c main_v14 : S1x64.Idx → EReal) (ix2 0 o)
      = Pillar.mean (row (Gen.W2 m ρ c (Proc.devRef .tc main_v5_0) : S1x64.Idx → EReal)) o := by
  rw [V3_v14_eq]
  refine (shapeCast_a_1a_apply _ shapeCasts_S64_S1x64 0 o).trans ?_
  show Ideal.div (shapeCast S64 (Gen.W2 m ρ c (Proc.devRef .tc main_v5_0) : S1x64.Idx → EReal) shapeCasts_S1x64_S64 (ix1 o)) total = _
  rw [shapeCast_1a_a_apply]
  rfl

/-- The variance row: the second statistic over 3.2e6 minus the squared mean, as a row. -/
theorem V3_v15_eq : (Gen.V3 m ρ c main_v15 : S1x64.Idx → EReal)
    = shapeCast S1x64
        (subf (F := Ideal) (s := S64) (φ := .f32)
          (Host.divf (F := Ideal) (s := S64) (φ := .f32)
            (shapeCast S64 (Gen.W2 m ρ c (Proc.devRef .tc main_v5_1) : S1x64.Idx → EReal) shapeCasts_S1x64_S64) totals)
          (mulf (F := Ideal) (s := S64) (φ := .f32)
            (Host.divf (F := Ideal) (s := S64) (φ := .f32)
              (shapeCast S64 (Gen.W2 m ρ c (Proc.devRef .tc main_v5_0) : S1x64.Idx → EReal) shapeCasts_S1x64_S64) totals)
            (Host.divf (F := Ideal) (s := S64) (φ := .f32)
              (shapeCast S64 (Gen.W2 m ρ c (Proc.devRef .tc main_v5_0) : S1x64.Idx → EReal) shapeCasts_S1x64_S64) totals)))
        shapeCasts_S64_S1x64 := by
  show StableHlo.after Gen.hostOps1 (Gen.W2 m ρ c) (Proc.devRef .tc main_v15) = _
  after_results
  rfl

/-- Entry `(0, o)` of the variance row is the mean of squares minus the squared mean. -/
theorem V3_v15 (o : Fin 64) :
    (Gen.V3 m ρ c main_v15 : S1x64.Idx → EReal) (ix2 0 o)
      = Pillar.varK (row (Gen.W2 m ρ c (Proc.devRef .tc main_v5_0) : S1x64.Idx → EReal))
          (row (Gen.W2 m ρ c (Proc.devRef .tc main_v5_1) : S1x64.Idx → EReal)) o := by
  rw [V3_v15_eq]
  refine (shapeCast_a_1a_apply _ shapeCasts_S64_S1x64 0 o).trans ?_
  show Ideal.div (shapeCast S64 (Gen.W2 m ρ c (Proc.devRef .tc main_v5_1) : S1x64.Idx → EReal) shapeCasts_S1x64_S64 (ix1 o)) total
      - Ideal.div (shapeCast S64 (Gen.W2 m ρ c (Proc.devRef .tc main_v5_0) : S1x64.Idx → EReal) shapeCasts_S1x64_S64 (ix1 o)) total
        * Ideal.div (shapeCast S64 (Gen.W2 m ρ c (Proc.devRef .tc main_v5_0) : S1x64.Idx → EReal) shapeCasts_S1x64_S64 (ix1 o)) total = _
  rw [shapeCast_1a_a_apply, shapeCast_1a_a_apply]
  rfl

/-- The scale as a row: the reshape of the scale vector. -/
theorem V3_v16_eq : (Gen.V3 m ρ c main_v16 : S1x64.Idx → EReal)
    = shapeCast S1x64 (m ((c : Thread nD τ).loc main_arg4) : S64.Idx → EReal) shapeCasts_S64_S1x64 := by
  have h4 : Gen.W2 m ρ c (Proc.devRef .tc main_arg4) = m ((c : Thread nD τ).loc main_arg4) := by
    rw [Gen.W2_of_ne m ρ c main_arg4 (by decide)]
    show StableHlo.after Gen.hostOps0 (Gen.W0 m ρ c) (Proc.devRef .tc main_arg4) = _
    after_results
  rw [← h4]
  show StableHlo.after Gen.hostOps1 (Gen.W2 m ρ c) (Proc.devRef .tc main_v16) = _
  after_results
  rfl

/-- Entry `(0, o)` of the scale row is the scale of channel `o`. -/
theorem V3_v16 (o : Fin 64) :
    (Gen.V3 m ρ c main_v16 : S1x64.Idx → EReal) (ix2 0 o)
      = (m ((c : Thread nD τ).loc main_arg4) : S64.Idx → EReal) (ix1 o) := by
  rw [V3_v16_eq]
  exact shapeCast_a_1a_apply _ shapeCasts_S64_S1x64 0 o

/-- The shift as a row: the reshape of the shift vector. -/
theorem V3_v17_eq : (Gen.V3 m ρ c main_v17 : S1x64.Idx → EReal)
    = shapeCast S1x64 (m ((c : Thread nD τ).loc main_arg5) : S64.Idx → EReal) shapeCasts_S64_S1x64 := by
  have h5 : Gen.W2 m ρ c (Proc.devRef .tc main_arg5) = m ((c : Thread nD τ).loc main_arg5) := by
    rw [Gen.W2_of_ne m ρ c main_arg5 (by decide)]
    show StableHlo.after Gen.hostOps0 (Gen.W0 m ρ c) (Proc.devRef .tc main_arg5) = _
    after_results
  rw [← h5]
  show StableHlo.after Gen.hostOps1 (Gen.W2 m ρ c) (Proc.devRef .tc main_v17) = _
  after_results
  rfl

/-- Entry `(0, o)` of the shift row is the shift of channel `o`. -/
theorem V3_v17 (o : Fin 64) :
    (Gen.V3 m ρ c main_v17 : S1x64.Idx → EReal) (ix2 0 o)
      = (m ((c : Thread nD τ).loc main_arg5) : S64.Idx → EReal) (ix1 o) := by
  rw [V3_v17_eq]
  exact shapeCast_a_1a_apply _ shapeCasts_S64_S1x64 0 o

end Cert.KernelIdeal.HostVals

end
-- ==== Proof.PfnArray.lean ====
/-
  The second kernel's output array after its 500 grid points, as one function of the arrays the region finds.

  Point `t` reads rows 200·t … 200·t + 199 of the voxel, count and centre arrays (windows 0, 1, 2), the whole of the
  three weight pieces and of the mean, variance, scale and shift rows (windows 3 … 9, block index 0 at every point),
  and writes rows 200·t … 200·t + 199 of the output (window 10). The layer is row-local: row `a` of a block's result
  depends only on row `a` of the block's inputs, so what point `t` writes back is block `t` of the whole-array function
  `pfnOut`, and the 500 blocks tile the 100000 rows.
-/
import proofs.«144289_j40235253629489_1_alg».proof.Proof.Gen.KernelIdeal.Frame
import proofs.«144289_j40235253629489_1_alg».proof.Proof.Spec
import proofs.«144289_j40235253629489_1_alg».proof.Proof.SpecLaws
import Idealize.ShloMosaic.Lib.ValueIdx
import Idealize.ShloMosaic.Lib.Pipeline.Value

set_option maxRecDepth 16384

noncomputable section

namespace Cert.KernelIdeal.PfnArray

open Cert.KernelIdeal Cert.KernelIdeal.Gen Idealize.ShloMosaic Idealize.ShloMosaic.TcCoe Idealize.ShloMosaic.ValueIdx
open Idealize.SL.Sem Pillar
open Idealize.ShloMosaic.Pipeline (Dat Cfg Window)

variable (V : (c : Dev nD) → (b : Ref sig .tc) → Buf (Elt Ideal) ((c : Thread nD τ).loc b)) (c : Dev nD)

/-! ## The arrays the region finds, and a point's blocks, at their literal types -/

abbrev aVox : S100000x32x4.Idx → EReal := V c main_arg0
abbrev aCnt : S100000x1.Idx → BitVec 32 := V c main_v0
abbrev aCtr : S100000x2.Idx → EReal := V c main_arg2
abbrev aW4 : S4x64.Idx → EReal := V c main_v2
abbrev aW3 : S3x64.Idx → EReal := V c main_v3
abbrev aW2 : S2x64.Idx → EReal := V c main_v4
abbrev aMean : S1x64.Idx → EReal := V c main_v14
abbrev aVar : S1x64.Idx → EReal := V c main_v15
abbrev aGam : S1x64.Idx → EReal := V c main_v16
abbrev aBet : S1x64.Idx → EReal := V c main_v17

abbrev b0 (t : Fin cfg1.N) : Vec Ideal S200x32x4 .f32 := iblk1 V c 0 t
abbrev b1 (t : Fin cfg1.N) : Vec Ideal S200x1 .i32 := iblk1 V c 1 t
abbrev b2 (t : Fin cfg1.N) : Vec Ideal S200x2 .f32 := iblk1 V c 2 t
abbrev b3 (t : Fin cfg1.N) : Vec Ideal S4x64 .f32 := iblk1 V c 3 t
abbrev b4 (t : Fin cfg1.N) : Vec Ideal S3x64 .f32 := iblk1 V c 4 t
abbrev b5 (t : Fin cfg1.N) : Vec Ideal S2x64 .f32 := iblk1 V c 5 t
abbrev b6 (t : Fin cfg1.N) : Vec Ideal S1x64 .f32 := iblk1 V c 6 t
abbrev b7 (t : Fin cfg1.N) : Vec Ideal S1x64 .f32 := iblk1 V c 7 t
abbrev b8 (t : Fin cfg1.N) : Vec Ideal S1x64 .f32 := iblk1 V c 8 t
abbrev b9 (t : Fin cfg1.N) : Vec Ideal S1x64 .f32 := iblk1 V c 9 t

/-- The masked linear layer of the whole arrays. -/
def xArr : Fin 100000 → Fin 32 → Fin 64 → EReal :=
  Pillar.X (c3 (aVox V c)) (col (aCnt V c)) (c2 (aCtr V c)) (c2 (aW4 V c)) (c2 (aW3 V c)) (c2 (aW2 V c))

/-- The output array: at (n, o) the layer's value of voxel `n`, channel `o`. -/
def pfnOut : S100000x64.Idx → EReal := fun i =>
  Pillar.out (xArr V c) (row (aMean V c)) (row (aVar V c)) (row (aGam V c)) (row (aBet V c)) (i 0) (i 1)

/-! ## The index maps over the grid -/

/-- The three streamed inputs and the output sit at block `t` on their first axis and block 0 elsewhere; the resident
    operands at block 0. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-! ## A point's blocks are rows of the arrays -/

theorem N500 : cfg1.N = 500 := N_1

/-- Voxel row `a` of block `t` is row 200·t + a of the array. -/
abbrev rowOf (t : Fin cfg1.N) (a : Fin 200) : Fin 100000 :=
  ⟨200 * t.val + a.val, by have := t.isLt; have := N500; have := a.isLt; omega⟩

theorem b0_read (t : Fin cfg1.N) (a : Fin 200) (p : Fin 32) (k : Fin 4) :
    b0 V c t (ix3 a p k) = aVox V c (ix3 (rowOf t a) p k) := by
  obtain ⟨e0, e1, e2, -⟩ := idx_facts t
  show V c main_arg0 (((cfg1.win 0).blk t).view.emb (ix3 a p k)) = V c main_arg0 (ix3 (rowOf t a) p k)
  refine congrArg _ (funext fun d => Fin.ext ?_)
  match d with
  | ⟨0, _⟩ => show win1_0.index t (0 : Fin 3) * 200 + 1 * a.val = 200 * t.val + a.val; omega
  | ⟨1, _⟩ => show win1_0.index t (1 : Fin 3) * 32 + 1 * p.val = p.val; omega
  | ⟨2, _⟩ => show win1_0.index t (2 : Fin 3) * 4 + 1 * k.val = k.val; omega

theorem b1_read (t : Fin cfg1.N) (a : Fin 200) :
    b1 V c t (ix2 a 0) = aCnt V c (ix2 (rowOf t a) 0) := by
  obtain ⟨-, -, -, e0, e1, -⟩ := idx_facts t
  show V c main_v0 (((cfg1.win 1).blk t).view.emb (ix2 a 0)) = V c main_v0 (ix2 (rowOf t a) 0)
  refine congrArg _ (funext fun d => Fin.ext ?_)
  match d with
  | ⟨0, _⟩ => show win1_1.index t (0 : Fin 2) * 200 + 1 * a.val = 200 * t.val + a.val; omega
  | ⟨1, _⟩ => show win1_1.index t (1 : Fin 2) * 1 + 1 * 0 = 0; omega

theorem b2_read (t : Fin cfg1.N) (a : Fin 200) (k : Fin 2) :
    b2 V c t (ix2 a k) = aCtr V c (ix2 (rowOf t a) k) := by
  obtain ⟨-, -, -, -, -, e0, e1, -⟩ := idx_facts t
  show V c main_arg2 (((cfg1.win 2).blk t).view.emb (ix2 a k)) = V c main_arg2 (ix2 (rowOf t a) k)
  refine congrArg _ (funext fun d => Fin.ext ?_)
  match d with
  | ⟨0, _⟩ => show win1_2.index t (0 : Fin 2) * 200 + 1 * a.val = 200 * t.val + a.val; omega
  | ⟨1, _⟩ => show win1_2.index t (1 : Fin 2) * 2 + 1 * k.val = k.val; omega

/-- The resident operands: block 0 of a one-block array is the array. -/
theorem b3_read (t : Fin cfg1.N) (k : Fin 4) (o : Fin 64) :
    b3 V c t (ix2 k o) = aW4 V c (ix2 k o) := by
  obtain ⟨-, -, -, -, -, -, -, e0, e1, -⟩ := idx_facts t
  show V c main_v2 (((cfg1.win 3).blk t).view.emb (ix2 k o)) = V c main_v2 (ix2 k o)
  refine congrArg _ (funext fun d => Fin.ext ?_)
  match d with
  | ⟨0, _⟩ => show win1_3.index t (0 : Fin 2) * 4 + 1 * k.val = k.val; omega
  | ⟨1, _⟩ => show win1_3.index t (1 : Fin 2) * 64 + 1 * o.val = o.val; omega

theorem b4_read (t : Fin cfg1.N) (k : Fin 3) (o : Fin 64) :
    b4 V c t (ix2 k o) = aW3 V c (ix2 k o) := by
  obtain ⟨-, -, -, -, -, -, -, -, -, e0, e1, -⟩ := idx_facts t
  show V c main_v3 (((cfg1.win 4).blk t).view.emb (ix2 k o)) = V c main_v3 (ix2 k o)
  refine congrArg _ (funext fun d => Fin.ext ?_)
  match d with
  | ⟨0, _⟩ => show win1_4.index t (0 : Fin 2) * 3 + 1 * k.val = k.val; omega
  | ⟨1, _⟩ => show win1_4.index t (1 : Fin 2) * 64 + 1 * o.val = o.val; omega

theorem b5_read (t : Fin cfg1.N) (k : Fin 2) (o : Fin 64) :
    b5 V c t (ix2 k o) = aW2 V c (ix2 k o) := by
  obtain ⟨-, -, -, -, -, -, -, -, -, -, -, e0, e1, -⟩ := idx_facts t
  show V c main_v4 (((cfg1.win 5).blk t).view.emb (ix2 k o)) = V c main_v4 (ix2 k o)
  refine congrArg _ (funext fun d => Fin.ext ?_)
  match d with
  | ⟨0, _⟩ => show win1_5.index t (0 : Fin 2) * 2 + 1 * k.val = k.val; omega
  | ⟨1, _⟩ => show win1_5.index t (1 : Fin 2) * 64 + 1 * o.val = o.val; omega

theorem b6_read (t : Fin cfg1.N) (k : Fin 1) (o : Fin 64) :
    b6 V c t (ix2 k o) = aMean V c (ix2 k o) := by
  obtain ⟨-, -, -, -, -, -, -, -, -, -, -, -, -, e0, e1, -⟩ := idx_facts t
  show V c main_v14 (((cfg1.win 6).blk t).view.emb (ix2 k o)) = V c main_v14 (ix2 k o)
  refine congrArg _ (funext fun d => Fin.ext ?_)
  match d with
  | ⟨0, _⟩ => show win1_6.index t (0 : Fin 2) * 1 + 1 * k.val = k.val; omega
  | ⟨1, _⟩ => show win1_6.index t (1 : Fin 2) * 64 + 1 * o.val = o.val; omega

theorem b7_read (t : Fin cfg1.N) (k : Fin 1) (o : Fin 64) :
    b7 V c t (ix2 k o) = aVar V c (ix2 k o) := by
  obtain ⟨-, -, -, -, -, -, -, -, -, -, -, -, -, -, -, e0, e1, -⟩ := idx_facts t
  show V c main_v15 (((cfg1.win 7).blk t).view.emb (ix2 k o)) = V c main_v15 (ix2 k o)
  refine congrArg _ (funext fun d => Fin.ext ?_)
  match d with
  | ⟨0, _⟩ => show win1_7.index t (0 : Fin 2) * 1 + 1 * k.val = k.val; omega
  | ⟨1, _⟩ => show win1_7.index t (1 : Fin 2) * 64 + 1 * o.val = o.val; omega

theorem b8_read (t : Fin cfg1.N) (k : Fin 1) (o : Fin 64) :
    b8 V c t (ix2 k o) = aGam V c (ix2 k o) := by
  obtain ⟨-, -, -, -, -, -, -, -, -, -, -, -, -, -, -, -, -, e0, e1, -⟩ := idx_facts t
  show V c main_v16 (((cfg1.win 8).blk t).view.emb (ix2 k o)) = V c main_v16 (ix2 k o)
  refine congrArg _ (funext fun d => Fin.ext ?_)
  match d with
  | ⟨0, _⟩ => show win1_8.index t (0 : Fin 2) * 1 + 1 * k.val = k.val; omega
  | ⟨1, _⟩ => show win1_8.index t (1 : Fin 2) * 64 + 1 * o.val = o.val; omega

theorem b9_read (t : Fin cfg1.N) (k : Fin 1) (o : Fin 64) :
    b9 V c t (ix2 k o) = aBet V c (ix2 k o) := by
  obtain ⟨-, -, -, -, -, -, -, -, -, -, -, -, -, -, -, -, -, -, -, e0, e1, -⟩ := idx_facts t
  show V c main_v17 (((cfg1.win 9).blk t).view.emb (ix2 k o)) = V c main_v17 (ix2 k o)
  refine congrArg _ (funext fun d => Fin.ext ?_)
  match d with
  | ⟨0, _⟩ => show win1_9.index t (0 : Fin 2) * 1 + 1 * k.val = k.val; omega
  | ⟨1, _⟩ => show win1_9.index t (1 : Fin 2) * 64 + 1 * o.val = o.val; omega

/-! ## What a point writes back -/

section Body

-- the body at an index, proved over the body's payloads
variable
  (hbody : ∀ (x0 : Vec Ideal S200x32x4 .f32) (x1 : Vec Ideal S200x1 .i32) (x2 : Vec Ideal S200x2 .f32) (x3 : Vec Ideal S4x64 .f32)
      (x4 : Vec Ideal S3x64 .f32) (x5 : Vec Ideal S2x64 .f32) (x6 x7 x8 x9 : Vec Ideal S1x64 .f32) (a : Fin 200) (o : Fin 64),
      out1_10 (F := Ideal) x0 x1 x2 x3 x4 x5 x6 x7 x8 x9 (ix2 a o)
        = Pillar.out (Pillar.X (c3 x0) (col x1) (c2 x2) (c2 x3) (c2 x4) (c2 x5)) (row x6) (row x7) (row x8) (row x9) a o)

include hbody in
/-- Entry (a, o) of what point `t` leaves in the output block is the layer's value at voxel 200·t + a, channel `o`. -/
theorem after_apply (t : Fin cfg1.N) (a : Fin 200) (o : Fin 64) :
    out1_10 (F := Ideal) (b0 V c t) (b1 V c t) (b2 V c t) (b3 V c t) (b4 V c t) (b5 V c t) (b6 V c t) (b7 V c t) (b8 V c t) (b9 V c t) (ix2 a o)
      = pfnOut V c (ix2 (rowOf t a) o) := by
  rw [hbody]
  have h3 : c2 (b3 V c t) = c2 (aW4 V c) := funext fun k => funext fun o => b3_read V c t k o
  have h4 : c2 (b4 V c t) = c2 (aW3 V c) := funext fun k => funext fun o => b4_read V c t k o
  have h5 : c2 (b5 V c t) = c2 (aW2 V c) := funext fun k => funext fun o => b5_read V c t k o
  have h6 : row (b6 V c t) = row (aMean V c) := funext fun o => b6_read V c t 0 o
  have h7 : row (b7 V c t) = row (aVar V c) := funext fun o => b7_read V c t 0 o
  have h8 : row (b8 V c t) = row (aGam V c) := funext fun o => b8_read V c t 0 o
  have h9 : row (b9 V c t) = row (aBet V c) := funext fun o => b9_read V c t 0 o
  rw [h3, h4, h5, h6, h7, h8, h9]
  show _ = Pillar.out (xArr V c) (row (aMean V c)) (row (aVar V c)) (row (aGam V c)) (row (aBet V c)) (rowOf t a) o
  refine Pillar.out_row _ _ _ _ _ _ a (rowOf t a) ?_ o
  exact Pillar.X_row _ _ _ _ _ _ _ _ _ a (rowOf t a)
    (funext fun p => funext fun k => b0_read V c t a p k) (b1_read V c t a) (funext fun k => b2_read V c t a k)

end Body

section Final

variable
  (hbody : ∀ (x0 : Vec Ideal S200x32x4 .f32) (x1 : Vec Ideal S200x1 .i32) (x2 : Vec Ideal S200x2 .f32) (x3 : Vec Ideal S4x64 .f32)
      (x4 : Vec Ideal S3x64 .f32) (x5 : Vec Ideal S2x64 .f32) (x6 x7 x8 x9 : Vec Ideal S1x64 .f32) (a : Fin 200) (o : Fin 64),
      out1_10 (F := Ideal) x0 x1 x2 x3 x4 x5 x6 x7 x8 x9 (ix2 a o)
        = Pillar.out (Pillar.X (c3 x0) (col x1) (c2 x2) (c2 x3) (c2 x4) (c2 x5)) (row x6) (row x7) (row x8) (row x9) a o)

include hbody in
/-- WHAT POINT `t` WRITES BACK is block `t` of `pfnOut`. -/
theorem flushed_eq (t : Fin cfg1.N) :
    (dat1 V c).flushed 10 t = ((cfg1.win 10).blk t).view.read (Elt Ideal) (pfnOut V c) := by
  show (cfg1.win 10).cut (grid1.coords t) ((dat1 V c).after 10 t) = _
  rw [after1_10]
  obtain ⟨-, -, -, -, -, -, -, -, -, -, -, -, -, -, -, -, -, -, -, -, -, e0, e1⟩ := idx_facts t
  funext j
  show out1_10 (F := Ideal) (b0 V c t) (b1 V c t) (b2 V c t) (b3 V c t) (b4 V c t) (b5 V c t) (b6 V c t) (b7 V c t) (b8 V c t) (b9 V c t) j
    = pfnOut V c (((cfg1.win 10).blk t).view.emb j)
  have hj : j = ix2 (n0 := 200) (n1 := 64) (j 0) (j 1) := eq_ix2 j
  rw [hj, after_apply V c hbody t (j 0) (j 1)]
  refine congrArg _ (funext fun d => Fin.ext ?_)
  match d with
  | ⟨0, _⟩ => show 200 * t.val + (j 0).val = win1_10.index t (0 : Fin 2) * 200 + 1 * (j 0).val; omega
  | ⟨1, _⟩ => show (j 1).val = win1_10.index t (1 : Fin 2) * 64 + 1 * (j 1).val; omega

/-- An index of the output array is in point `t`'s block iff each coordinate is in the block's range on its axis. -/
theorem mem_blk (t : Fin cfg1.N) (i : S100000x64.Idx) :
    i ∈ ((cfg1.win 10).blk t).view.set ↔ ∀ a : Fin 2, win1_10.index t a * S200x64.size a ≤ (i a).val ∧ (i a).val < win1_10.index t a * S200x64.size a + S200x64.size a := by
  show i ∈ ((View.whole main_v18).slice (win1_10.rect t)).set ↔ _
  rw [View.set_slice_whole, Rect.mem_set_unit]
  exact Iff.rfl

/-- Every row of the output lies in the block of the point 200 rows wide that holds it. -/
theorem cover (i : S100000x64.Idx) :
    ∃ t : Fin cfg1.N, (cfg1.win 10).flush t = true ∧ i ∈ ((cfg1.win 10).blk t).view.set := by
  have hi0 : (i 0).val < 100000 := (i 0).isLt
  have hi1 : (i 1).val < 64 := (i 1).isLt
  have hN := N500
  refine ⟨⟨(i 0).val / 200, by omega⟩, flush1_10 _, ?_⟩
  obtain ⟨-, -, -, -, -, -, -, -, -, -, -, -, -, -, -, -, -, -, -, -, -, e0, e1⟩ := idx_facts ⟨(i 0).val / 200, by omega⟩
  rw [mem_blk]
  intro a
  match a with
  | ⟨0, _⟩ =>
    show win1_10.index _ (0 : Fin 2) * 200 ≤ (i 0).val ∧ (i 0).val < win1_10.index _ (0 : Fin 2) * 200 + 200
    rw [e0]; show (i 0).val / 200 * 200 ≤ (i 0).val ∧ (i 0).val < (i 0).val / 200 * 200 + 200; omega
  | ⟨1, _⟩ =>
    show win1_10.index _ (1 : Fin 2) * 64 ≤ (i 1).val ∧ (i 1).val < win1_10.index _ (1 : Fin 2) * 64 + 64
    rw [e1]; omega

include hbody in
/-- THE OUTPUT ARRAY after the region: the layer of the arrays the region finds. -/
theorem final : (dat1 V c).arrAt 10 cfg1.N = pfnOut V c :=
  (dat1 V c).arrAt_eq_of_cover 10 (pfnOut V c) (fun t _ => flushed_eq V c hbody t) (cover)

end Final

end Cert.KernelIdeal.PfnArray

end
-- ==== Proof.StatsArray.lean ====
/-
  The first kernel's two result arrays after its 500 grid points, as functions of the arrays the region finds.

  Both results are one [1, 64] block, resident across the grid and written back once, after the last point. After point
  `n` the first holds the sum, over the points up to `n`, of the block's sum of the masked linear layer over its 200
  voxels and 32 points, the second the same for the squares (the body's run). A block's layer is the array's layer at rows
  200·t … 200·t + 199, and the 500 blocks partition the 100000 rows: the results are the array's `sum1` and `sum2`.
-/
import proofs.«144289_j40235253629489_1_alg».proof.Proof.Gen.KernelIdeal.Frame
import proofs.«144289_j40235253629489_1_alg».proof.Proof.Spec
import proofs.«144289_j40235253629489_1_alg».proof.Proof.SpecLaws
import proofs.«144289_j40235253629489_1_alg».proof.Proof.SpecStats
import Idealize.ShloMosaic.Lib.ValueIdx
import Idealize.ShloMosaic.Lib.Pipeline.Value

set_option maxRecDepth 16384

noncomputable section

namespace Cert.KernelIdeal.StatsArray

open Cert.KernelIdeal Cert.KernelIdeal.Gen Idealize.ShloMosaic Idealize.ShloMosaic.TcCoe Idealize.ShloMosaic.ValueIdx
open Idealize.SL.Sem Pillar
open Idealize.ShloMosaic.Pipeline (Dat Cfg Window)

variable (V : (c : Dev nD) → (b : Ref sig .tc) → Buf (Elt Ideal) ((c : Thread nD τ).loc b)) (c : Dev nD)

abbrev aVox : S100000x32x4.Idx → EReal := V c main_arg0
abbrev aCnt : S100000x1.Idx → BitVec 32 := V c main_v0
abbrev aCtr : S100000x2.Idx → EReal := V c main_arg2
abbrev aW4 : S4x64.Idx → EReal := V c main_v2
abbrev aW3 : S3x64.Idx → EReal := V c main_v3
abbrev aW2 : S2x64.Idx → EReal := V c main_v4

abbrev s0 (t : Fin cfg0.N) : Vec Ideal S200x32x4 .f32 := iblk0 V c 0 t
abbrev s1 (t : Fin cfg0.N) : Vec Ideal S200x1 .i32 := iblk0 V c 1 t
abbrev s2 (t : Fin cfg0.N) : Vec Ideal S200x2 .f32 := iblk0 V c 2 t
abbrev s3 (t : Fin cfg0.N) : Vec Ideal S4x64 .f32 := iblk0 V c 3 t
abbrev s4 (t : Fin cfg0.N) : Vec Ideal S3x64 .f32 := iblk0 V c 4 t
abbrev s5 (t : Fin cfg0.N) : Vec Ideal S2x64 .f32 := iblk0 V c 5 t

/-- The masked linear layer of the whole arrays. -/
def xArr : Fin 100000 → Fin 32 → Fin 64 → EReal :=
  Pillar.X (c3 (aVox V c)) (col (aCnt V c)) (c2 (aCtr V c)) (c2 (aW4 V c)) (c2 (aW3 V c)) (c2 (aW2 V c))

/-- The masked linear layer of point `t`'s blocks. -/
def xBlk (t : Fin cfg0.N) : Fin 200 → Fin 32 → Fin 64 → EReal :=
  Pillar.X (c3 (s0 V c t)) (col (s1 V c t)) (c2 (s2 V c t)) (c2 (s3 V c t)) (c2 (s4 V c t)) (c2 (s5 V c t))

/-- The two result arrays. -/
def sumArr : S1x64.Idx → EReal := fun i => Pillar.sum1 (xArr V c) (i 1)
def sqArr : S1x64.Idx → EReal := fun i => Pillar.sum2 (xArr V c) (i 1)

theorem N500 : cfg0.N = 500 := N_0

theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

abbrev rowOf (t : Fin cfg0.N) (a : Fin 200) : Fin 100000 :=
  ⟨200 * t.val + a.val, by have := t.isLt; have := N500; have := a.isLt; omega⟩

theorem s0_read (t : Fin cfg0.N) (a : Fin 200) (p : Fin 32) (k : Fin 4) :
    s0 V c t (ix3 a p k) = aVox V c (ix3 (rowOf t a) p k) := by
  obtain ⟨e0, e1, e2, -⟩ := idx_facts t
  show V c main_arg0 (((cfg0.win 0).blk t).view.emb (ix3 a p k)) = V c main_arg0 (ix3 (rowOf t a) p k)
  refine congrArg _ (funext fun d => Fin.ext ?_)
  match d with
  | ⟨0, _⟩ => show win0_0.index t (0 : Fin 3) * 200 + 1 * a.val = 200 * t.val + a.val; omega
  | ⟨1, _⟩ => show win0_0.index t (1 : Fin 3) * 32 + 1 * p.val = p.val; omega
  | ⟨2, _⟩ => show win0_0.index t (2 : Fin 3) * 4 + 1 * k.val = k.val; omega

theorem s1_read (t : Fin cfg0.N) (a : Fin 200) :
    s1 V c t (ix2 a 0) = aCnt V c (ix2 (rowOf t a) 0) := by
  obtain ⟨-, -, -, e0, e1, -⟩ := idx_facts t
  show V c main_v0 (((cfg0.win 1).blk t).view.emb (ix2 a 0)) = V c main_v0 (ix2 (rowOf t a) 0)
  refine congrArg _ (funext fun d => Fin.ext ?_)
  match d with
  | ⟨0, _⟩ => show win0_1.index t (0 : Fin 2) * 200 + 1 * a.val = 200 * t.val + a.val; omega
  | ⟨1, _⟩ => show win0_1.index t (1 : Fin 2) * 1 + 1 * 0 = 0; omega

theorem s2_read (t : Fin cfg0.N) (a : Fin 200) (k : Fin 2) :
    s2 V c t (ix2 a k) = aCtr V c (ix2 (rowOf t a) k) := by
  obtain ⟨-, -, -, -, -, e0, e1, -⟩ := idx_facts t
  show V c main_arg2 (((cfg0.win 2).blk t).view.emb (ix2 a k)) = V c main_arg2 (ix2 (rowOf t a) k)
  refine congrArg _ (funext fun d => Fin.ext ?_)
  match d with
  | ⟨0, _⟩ => show win0_2.index t (0 : Fin 2) * 200 + 1 * a.val = 200 * t.val + a.val; omega
  | ⟨1, _⟩ => show win0_2.index t (1 : Fin 2) * 2 + 1 * k.val = k.val; omega

theorem s3_read (t : Fin cfg0.N) (k : Fin 4) (o : Fin 64) :
    s3 V c t (ix2 k o) = aW4 V c (ix2 k o) := by
  obtain ⟨-, -, -, -, -, -, -, e0, e1, -⟩ := idx_facts t
  show V c main_v2 (((cfg0.win 3).blk t).view.emb (ix2 k o)) = V c main_v2 (ix2 k o)
  refine congrArg _ (funext fun d => Fin.ext ?_)
  match d with
  | ⟨0, _⟩ => show win0_3.index t (0 : Fin 2) * 4 + 1 * k.val = k.val; omega
  | ⟨1, _⟩ => show win0_3.index t (1 : Fin 2) * 64 + 1 * o.val = o.val; omega

theorem s4_read (t : Fin cfg0.N) (k : Fin 3) (o : Fin 64) :
    s4 V c t (ix2 k o) = aW3 V c (ix2 k o) := by
  obtain ⟨-, -, -, -, -, -, -, -, -, e0, e1, -⟩ := idx_facts t
  show V c main_v3 (((cfg0.win 4).blk t).view.emb (ix2 k o)) = V c main_v3 (ix2 k o)
  refine congrArg _ (funext fun d => Fin.ext ?_)
  match d with
  | ⟨0, _⟩ => show win0_4.index t (0 : Fin 2) * 3 + 1 * k.val = k.val; omega
  | ⟨1, _⟩ => show win0_4.index t (1 : Fin 2) * 64 + 1 * o.val = o.val; omega

theorem s5_read (t : Fin cfg0.N) (k : Fin 2) (o : Fin 64) :
    s5 V c t (ix2 k o) = aW2 V c (ix2 k o) := by
  obtain ⟨-, -, -, -, -, -, -, -, -, -, -, e0, e1, -⟩ := idx_facts t
  show V c main_v4 (((cfg0.win 5).blk t).view.emb (ix2 k o)) = V c main_v4 (ix2 k o)
  refine congrArg _ (funext fun d => Fin.ext ?_)
  match d with
  | ⟨0, _⟩ => show win0_5.index t (0 : Fin 2) * 2 + 1 * k.val = k.val; omega
  | ⟨1, _⟩ => show win0_5.index t (1 : Fin 2) * 64 + 1 * o.val = o.val; omega

/-- A block's layer is the array's layer at the block's rows. -/
theorem xBlk_eq (t : Fin cfg0.N) (a : Fin 200) : xBlk V c t a = xArr V c (rowOf t a) := by
  unfold xBlk xArr
  have h3 : c2 (s3 V c t) = c2 (aW4 V c) := funext fun k => funext fun o => s3_read V c t k o
  have h4 : c2 (s4 V c t) = c2 (aW3 V c) := funext fun k => funext fun o => s4_read V c t k o
  have h5 : c2 (s5 V c t) = c2 (aW2 V c) := funext fun k => funext fun o => s5_read V c t k o
  rw [h3, h4, h5]
  exact Pillar.X_row _ _ _ _ _ _ _ _ _ a (rowOf t a)
    (funext fun p => funext fun k => s0_read V c t a p k) (s1_read V c t a) (funext fun k => s2_read V c t a k)

/-- The sums over the 500 blocks are the sums over the array. -/
theorem sum_blocks (o : Fin 64) :
    ∑ t : Fin cfg0.N, Pillar.sum1 (xBlk V c t) o = Pillar.sum1 (xArr V c) o
    ∧ ∑ t : Fin cfg0.N, Pillar.sum2 (xBlk V c t) o = Pillar.sum2 (xArr V c) o := by
  have hN := N500
  have hb : ∀ (t : Fin 500) (a : Fin 200), xBlk V c (Fin.cast hN.symm t) a
      = xArr V c ⟨200 * t.val + a.val, by have := t.isLt; have := a.isLt; omega⟩ := fun t a => xBlk_eq V c _ a
  constructor
  · rw [← Pillar.sum1_blocks (xArr V c) (fun t => xBlk V c (Fin.cast hN.symm t)) hb o]
    exact (Equiv.sum_comp (finCongr hN.symm) fun t => Pillar.sum1 (xBlk V c t) o).symm
  · rw [← Pillar.sum2_blocks (xArr V c) (fun t => xBlk V c (Fin.cast hN.symm t)) hb o]
    exact (Equiv.sum_comp (finCongr hN.symm) fun t => Pillar.sum2 (xBlk V c t) o).symm

section Final

-- what the accumulators hold after each point (the body's run, proved over the body's payloads)
variable
  (hstats : ∀ (n : ℕ) (hn : n < cfg0.N) (o : Fin 64),
      (outsAt0 (F := Ideal) V c n hn).1 (ix2 0 o) = ∑ t : Fin cfg0.N, (if t.val ≤ n then Pillar.sum1 (xBlk V c t) o else 0)
      ∧ (outsAt0 (F := Ideal) V c n hn).2 (ix2 0 o) = ∑ t : Fin cfg0.N, (if t.val ≤ n then Pillar.sum2 (xBlk V c t) o else 0))

theorem mem_blk6 (t : Fin cfg0.N) (i : S1x64.Idx) :
    i ∈ ((cfg0.win 6).blk t).view.set ↔ ∀ a : Fin 2, win0_6.index t a * S1x64.size a ≤ (i a).val ∧ (i a).val < win0_6.index t a * S1x64.size a + S1x64.size a := by
  show i ∈ ((View.whole main_v5_0).slice (win0_6.rect t)).set ↔ _
  rw [View.set_slice_whole, Rect.mem_set_unit]
  exact Iff.rfl

theorem mem_blk7 (t : Fin cfg0.N) (i : S1x64.Idx) :
    i ∈ ((cfg0.win 7).blk t).view.set ↔ ∀ a : Fin 2, win0_7.index t a * S1x64.size a ≤ (i a).val ∧ (i a).val < win0_7.index t a * S1x64.size a + S1x64.size a := by
  show i ∈ ((View.whole main_v5_1).slice (win0_7.rect t)).set ↔ _
  rw [View.set_slice_whole, Rect.mem_set_unit]
  exact Iff.rfl

include hstats in
theorem flushed6 (t : Fin cfg0.N) (hf : (cfg0.win 6).flush t = true) :
    (dat0 V c).flushed 6 t = ((cfg0.win 6).blk t).view.read (Elt Ideal) (sumArr V c) := by
  have hN := N500
  have h499 : t.val = 499 := by have := (flush0_6 t).mp hf; have := t.isLt; omega
  obtain ⟨-, -, -, -, -, -, -, -, -, -, -, -, -, e0, e1, -⟩ := idx_facts t
  -- after the last point the accumulator holds the array's sum
  have hX : (outsAt0 (F := Ideal) V c t.val t.isLt).1 = sumArr V c := by
    funext j
    have h0 : (j 0).val < 1 := (j 0).isLt
    have e : j 0 = (0 : Fin 1) := Fin.ext (by show (j 0).val = 0; omega)
    have hj : j = ix2 (n0 := 1) (n1 := 64) 0 (j 1) := (eq_ix2 j).trans (by rw [e]; rfl)
    have hall : ∑ t' : Fin cfg0.N, (if t'.val ≤ t.val then Pillar.sum1 (xBlk V c t') (j 1) else 0)
        = ∑ t' : Fin cfg0.N, Pillar.sum1 (xBlk V c t') (j 1) :=
      Finset.sum_congr rfl fun t' _ => if_pos (by have := t'.isLt; omega)
    rw [hj, (hstats t.val t.isLt (j 1)).1, hall, (sum_blocks V c (j 1)).1]
    rfl
  show (cfg0.win 6).cut (grid0.coords t) ((dat0 V c).after 6 t) = _
  rw [after0_6, hX]
  -- the one block, at index (0, 0), is the whole array
  have hz' : (fun a => win0_6.index t a * main_v5_0.ty.shape.size a) = fun _ => 0 := funext fun a => by
    match a with
    | ⟨0, _⟩ => show win0_6.index t (0 : Fin 2) * 1 = 0; omega
    | ⟨1, _⟩ => show win0_6.index t (1 : Fin 2) * 64 = 0; omega
  exact (Memref.read_access_unit_zero (Elt Ideal) main_v5_0 hz' (fun a => by rw [congrFun hz' a]; simp) (sumArr V c)).symm

include hstats in
theorem flushed7 (t : Fin cfg0.N) (hf : (cfg0.win 7).flush t = true) :
    (dat0 V c).flushed 7 t = ((cfg0.win 7).blk t).view.read (Elt Ideal) (sqArr V c) := by
  have hN := N500
  have h499 : t.val = 499 := by have := (flush0_7 t).mp hf; have := t.isLt; omega
  obtain ⟨-, -, -, -, -, -, -, -, -, -, -, -, -, -, -, e0, e1⟩ := idx_facts t
  -- after the last point the accumulator holds the array's sum
  have hX : (outsAt0 (F := Ideal) V c t.val t.isLt).2 = sqArr V c := by
    funext j
    have h0 : (j 0).val < 1 := (j 0).isLt
    have e : j 0 = (0 : Fin 1) := Fin.ext (by show (j 0).val = 0; omega)
    have hj : j = ix2 (n0 := 1) (n1 := 64) 0 (j 1) := (eq_ix2 j).trans (by rw [e]; rfl)
    have hall : ∑ t' : Fin cfg0.N, (if t'.val ≤ t.val then Pillar.sum2 (xBlk V c t') (j 1) else 0)
        = ∑ t' : Fin cfg0.N, Pillar.sum2 (xBlk V c t') (j 1) :=
      Finset.sum_congr rfl fun t' _ => if_pos (by have := t'.isLt; omega)
    rw [hj, (hstats t.val t.isLt (j 1)).2, hall, (sum_blocks V c (j 1)).2]
    rfl
  show (cfg0.win 7).cut (grid0.coords t) ((dat0 V c).after 7 t) = _
  rw [after0_7, hX]
  -- the one block, at index (0, 0), is the whole array
  have hz' : (fun a => win0_7.index t a * main_v5_1.ty.shape.size a) = fun _ => 0 := funext fun a => by
    match a with
    | ⟨0, _⟩ => show win0_7.index t (0 : Fin 2) * 1 = 0; omega
    | ⟨1, _⟩ => show win0_7.index t (1 : Fin 2) * 64 = 0; omega
  exact (Memref.read_access_unit_zero (Elt Ideal) main_v5_1 hz' (fun a => by rw [congrFun hz' a]; simp) (sqArr V c)).symm

theorem cover6 (i : S1x64.Idx) : ∃ t : Fin cfg0.N, (cfg0.win 6).flush t = true ∧ i ∈ ((cfg0.win 6).blk t).view.set := by
  have hN := N500
  have hi0 : (i 0).val < 1 := (i 0).isLt
  have hi1 : (i 1).val < 64 := (i 1).isLt
  obtain ⟨t, ht⟩ : ∃ t : Fin cfg0.N, t.val = 499 := ⟨⟨499, by omega⟩, rfl⟩
  refine ⟨t, (flush0_6 t).mpr (by omega), ?_⟩
  obtain ⟨-, -, -, -, -, -, -, -, -, -, -, -, -, e0, e1, -⟩ := idx_facts t
  rw [mem_blk6]
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 64 ≤ (i 1).val ∧ (i 1).val < win0_6.index t (1 : Fin 2) * 64 + 64; omega

theorem cover7 (i : S1x64.Idx) : ∃ t : Fin cfg0.N, (cfg0.win 7).flush t = true ∧ i ∈ ((cfg0.win 7).blk t).view.set := by
  have hN := N500
  have hi0 : (i 0).val < 1 := (i 0).isLt
  have hi1 : (i 1).val < 64 := (i 1).isLt
  obtain ⟨t, ht⟩ : ∃ t : Fin cfg0.N, t.val = 499 := ⟨⟨499, by omega⟩, rfl⟩
  refine ⟨t, (flush0_7 t).mpr (by omega), ?_⟩
  obtain ⟨-, -, -, -, -, -, -, -, -, -, -, -, -, -, -, e0, e1⟩ := idx_facts t
  rw [mem_blk7]
  intro a
  match a with
  | ⟨0, _⟩ => show win0_7.index t (0 : Fin 2) * 1 ≤ (i 0).val ∧ (i 0).val < win0_7.index t (0 : Fin 2) * 1 + 1; omega
  | ⟨1, _⟩ => show win0_7.index t (1 : Fin 2) * 64 ≤ (i 1).val ∧ (i 1).val < win0_7.index t (1 : Fin 2) * 64 + 64; omega

include hstats in
/-- THE RESULT ARRAYS after the region: the array's sum and sum of squares. -/
theorem final6 : (dat0 V c).arrAt 6 cfg0.N = sumArr V c :=
  (dat0 V c).arrAt_eq_of_cover 6 (sumArr V c) (fun t hf => flushed6 V c hstats t hf) (cover6)

include hstats in
theorem final7 : (dat0 V c).arrAt 7 cfg0.N = sqArr V c :=
  (dat0 V c).arrAt_eq_of_cover 7 (sqArr V c) (fun t hf => flushed7 V c hstats t hf) (cover7)

end Final

end Cert.KernelIdeal.StatsArray

end
-- ==== Proof.KernelValue.lean ====
/-
  The kernel program's result array after its run, as one function of the launch memory.

  Region 0 enters with the arguments and their host re-layouts (the counts as a column, the weight matrix transposed and
  cut in three) and leaves the array's sum and sum of squares of the masked linear layer; the host stretch between
  divides them by 3.2e6 into the mean and the mean of squares minus the squared mean; region 1 enters with the same
  inputs and these two rows beside the scale and shift rows, and leaves the layer's output. So the result is
  `Pillar.out` of the layer `xK` at the mean and variance of `xK` itself.
-/
import proofs.«144289_j40235253629489_1_alg».proof.Proof.Gen.KernelIdeal.Frame
import proofs.«144289_j40235253629489_1_alg».proof.Proof.Spec
import proofs.«144289_j40235253629489_1_alg».proof.Proof.SpecLaws
import proofs.«144289_j40235253629489_1_alg».proof.Proof.SpecStats
import proofs.«144289_j40235253629489_1_alg».proof.Proof.HostVals
import proofs.«144289_j40235253629489_1_alg».proof.Proof.PfnArray
import proofs.«144289_j40235253629489_1_alg».proof.Proof.StatsArray
import proofs.«144289_j40235253629489_1_alg».proof.Proof.KernelRun
import Idealize.ShloMosaic.Lib.ValueIdx
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem Pillar

variable (m : (ℓ : Loc nD τ sig) → Buf (Elt Ideal) ℓ) (ρ : Dev nD → PrngReg) (c : Dev nD)

/-! ## The arguments at their literal types -/

abbrev mVox : S100000x32x4.Idx → EReal := m ((c : Thread nD τ).loc main_arg0)
abbrev mCnt : S100000.Idx → BitVec 32 := m ((c : Thread nD τ).loc main_arg1)
abbrev mCtr : S100000x2.Idx → EReal := m ((c : Thread nD τ).loc main_arg2)
abbrev mW : S64x9.Idx → EReal := m ((c : Thread nD τ).loc main_arg3)
abbrev mGam : S64.Idx → EReal := m ((c : Thread nD τ).loc main_arg4)
abbrev mBet : S64.Idx → EReal := m ((c : Thread nD τ).loc main_arg5)

/-- The masked linear layer of the arguments. -/
def xK : Fin 100000 → Fin 32 → Fin 64 → EReal :=
  Pillar.X (c3 (mVox m c)) (c1 (mCnt m c)) (c2 (mCtr m c)) (wv (c2 (mW m c))) (wc (c2 (mW m c))) (wf (c2 (mW m c)))

/-- The kernel program's result. -/
def kOut : S100000x64.Idx → EReal := fun i =>
  Pillar.out (xK m c) (Pillar.mean (Pillar.sum1 (xK m c))) (Pillar.varK (Pillar.sum1 (xK m c)) (Pillar.sum2 (xK m c)))
    (c1 (mGam m c)) (c1 (mBet m c)) (i 0) (i 1)

/-! ## Both regions read the same layer -/

theorem xArr_V1 : StatsArray.xArr (V1 m ρ) c = xK m c := by
  unfold StatsArray.xArr xK
  have h0 : StatsArray.aVox (V1 m ρ) c = mVox m c := HostVals.V1_arg0 m ρ c
  have h1 : col (StatsArray.aCnt (V1 m ρ) c) = c1 (mCnt m c) := funext fun a => HostVals.V1_v0 m ρ c a
  have h2 : StatsArray.aCtr (V1 m ρ) c = mCtr m c := HostVals.V1_arg2 m ρ c
  have h3 : c2 (StatsArray.aW4 (V1 m ρ) c) = wv (c2 (mW m c)) := HostVals.V1_v2 m ρ c
  have h4 : c2 (StatsArray.aW3 (V1 m ρ) c) = wc (c2 (mW m c)) := HostVals.V1_v3 m ρ c
  have h5 : c2 (StatsArray.aW2 (V1 m ρ) c) = wf (c2 (mW m c)) := HostVals.V1_v4 m ρ c
  rw [h0, h1, h2, h3, h4, h5]

theorem xArr_V3 : PfnArray.xArr (V3 m ρ) c = xK m c := by
  unfold PfnArray.xArr xK
  have h0 : PfnArray.aVox (V3 m ρ) c = mVox m c := HostVals.V3_arg0 m ρ c
  have e1 : PfnArray.aCnt (V3 m ρ) c = StatsArray.aCnt (V1 m ρ) c := HostVals.V3_v0 m ρ c
  have h1 : col (PfnArray.aCnt (V3 m ρ) c) = c1 (mCnt m c) := by
    rw [e1]; exact funext fun a => HostVals.V1_v0 m ρ c a
  have h2 : PfnArray.aCtr (V3 m ρ) c = mCtr m c := HostVals.V3_arg2 m ρ c
  have e3 : PfnArray.aW4 (V3 m ρ) c = StatsArray.aW4 (V1 m ρ) c := HostVals.V3_v2 m ρ c
  have e4 : PfnArray.aW3 (V3 m ρ) c = StatsArray.aW3 (V1 m ρ) c := HostVals.V3_v3 m ρ c
  have e5 : PfnArray.aW2 (V3 m ρ) c = StatsArray.aW2 (V1 m ρ) c := HostVals.V3_v4 m ρ c
  have h3 : c2 (PfnArray.aW4 (V3 m ρ) c) = wv (c2 (mW m c)) := by rw [e3]; exact HostVals.V1_v2 m ρ c
  have h4 : c2 (PfnArray.aW3 (V3 m ρ) c) = wc (c2 (mW m c)) := by rw [e4]; exact HostVals.V1_v3 m ρ c
  have h5 : c2 (PfnArray.aW2 (V3 m ρ) c) = wf (c2 (mW m c)) := by rw [e5]; exact HostVals.V1_v4 m ρ c
  rw [h0, h1, h2, h3, h4, h5]

section Bodies

-- the two kernel bodies, proved over their payloads
variable
  (hbody : ∀ (x0 : Vec Ideal S200x32x4 .f32) (x1 : Vec Ideal S200x1 .i32) (x2 : Vec Ideal S200x2 .f32) (x3 : Vec Ideal S4x64 .f32)
      (x4 : Vec Ideal S3x64 .f32) (x5 : Vec Ideal S2x64 .f32) (x6 x7 x8 x9 : Vec Ideal S1x64 .f32) (a : Fin 200) (o : Fin 64),
      out1_10 (F := Ideal) x0 x1 x2 x3 x4 x5 x6 x7 x8 x9 (ix2 a o)
        = Pillar.out (Pillar.X (c3 x0) (col x1) (c2 x2) (c2 x3) (c2 x4) (c2 x5)) (row x6) (row x7) (row x8) (row x9) a o)
  (hstats : ∀ (V : (c : Dev nD) → (b : Ref sig .tc) → Buf (Elt Ideal) ((c : Thread nD τ).loc b)) (c : Dev nD) (n : ℕ) (hn : n < cfg0.N) (o : Fin 64),
      (outsAt0 (F := Ideal) V c n hn).1 (ix2 0 o) = ∑ t : Fin cfg0.N, (if t.val ≤ n then Pillar.sum1 (StatsArray.xBlk V c t) o else 0)
      ∧ (outsAt0 (F := Ideal) V c n hn).2 (ix2 0 o) = ∑ t : Fin cfg0.N, (if t.val ≤ n then Pillar.sum2 (StatsArray.xBlk V c t) o else 0))

include hstats in
/-- Region 0 leaves the layer's sum and sum of squares. -/
theorem stats_rows :
    row (W2 m ρ c (Proc.devRef .tc main_v5_0) : S1x64.Idx → EReal) = Pillar.sum1 (xK m c)
    ∧ row (W2 m ρ c (Proc.devRef .tc main_v5_1) : S1x64.Idx → EReal) = Pillar.sum2 (xK m c) := by
  have h6 : (W2 m ρ c (Proc.devRef .tc main_v5_0) : S1x64.Idx → EReal) = StatsArray.sumArr (V1 m ρ) c :=
    (W2_arr m ρ c 6).trans (StatsArray.final6 (V1 m ρ) c (hstats (V1 m ρ) c))
  have h7 : (W2 m ρ c (Proc.devRef .tc main_v5_1) : S1x64.Idx → EReal) = StatsArray.sqArr (V1 m ρ) c :=
    (W2_arr m ρ c 7).trans (StatsArray.final7 (V1 m ρ) c (hstats (V1 m ρ) c))
  constructor
  · rw [h6]; funext o; show Pillar.sum1 (StatsArray.xArr (V1 m ρ) c) o = _; rw [xArr_V1]
  · rw [h7]; funext o; show Pillar.sum2 (StatsArray.xArr (V1 m ρ) c) o = _; rw [xArr_V1]

include hbody hstats in
/-- THE RESULT ARRAY after the run. -/
theorem kernel_value : (W4 m ρ c (Proc.devRef .tc main_v18) : S100000x64.Idx → EReal) = kOut m c := by
  obtain ⟨hs1, hs2⟩ := stats_rows m ρ c hstats
  have hmean : row (PfnArray.aMean (V3 m ρ) c) = Pillar.mean (Pillar.sum1 (xK m c)) :=
    funext fun o => (HostVals.V3_v14 m ρ c o).trans (by rw [hs1])
  have hvar : row (PfnArray.aVar (V3 m ρ) c) = Pillar.varK (Pillar.sum1 (xK m c)) (Pillar.sum2 (xK m c)) :=
    funext fun o => (HostVals.V3_v15 m ρ c o).trans (by rw [hs1, hs2])
  have hgam : row (PfnArray.aGam (V3 m ρ) c) = c1 (mGam m c) := funext fun o => HostVals.V3_v16 m ρ c o
  have hbet : row (PfnArray.aBet (V3 m ρ) c) = c1 (mBet m c) := funext fun o => HostVals.V3_v17 m ρ c o
  refine (W4_arr m ρ c 10).trans ((PfnArray.final (V3 m ρ) c hbody).trans ?_)
  unfold PfnArray.pfnOut kOut
  rw [xArr_V3, hmean, hvar, hgam, hbet]

include hbody hstats in
/-- The run with the result named: every weakly fair execution ends with the result array at `kOut` and the arguments
    as launched. -/
theorem run :
    θ_run (defs (F := Ideal)) (onTc (τ := τ) (main (F := Ideal))) ⟨m, fun _ => 0, ρ⟩ (fun r => ∀ c : Dev nD,
      r.2.mem ((c.tc : Thread nD τ).loc main_v18) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (kernel_value m ρ c hbody hstats), (h c).2⟩) (KRun.run_value m ρ)

end Bodies

end Cert.KernelIdeal.KValue

end
-- ==== Proof.lean ====
/-
  The pillar feature layer: a two-pass kernel against its reference, equal over the extended reals.

  Both programs compute, for each of 100000 voxels of 32 points and each of 64 channels, the masked linear layer
  `x = (features · W) · mask`, its mean and variance over all voxels and points, and
  `max_p max((x − mean) · rsqrt(var + ε) · γ + β, 0)`.
  They differ in three ways, none of which changes the value at the ideal instance:
  * the kernel multiplies by the mask after the linear layer and splits the nine features' product into three products
    (four raw coordinates, three offsets from the voxel mean, two offsets from the voxel centre); the reference masks the
    joined features first. The mask is 0 or 1 and `y · 0 = 0` for every extended real `y`, so the two agree with no
    finiteness assumed (`Pillar.XR_eq_X`);
  * the kernel accumulates the sum and the sum of squares block by block over a grid of 500 points; the reference
    reduces the whole array at once: sums regroup freely (`Pillar.sum1_blocks`);
  * the kernel's variance is the mean of squares minus the squared mean, the reference's the mean of squared
    deviations. These agree when every `x` is a real number (`Pillar.var_eq`), which holds under the precondition: where
    the mask is 1 the point count is at least 1, so the voxel mean is a quotient by a nonzero real, and where it is 0
    the entry is 0 (`Pillar.X_real`).
  The frames of the two kernel programs are the generated ones; the reference's frame is its generated run with the
  result dropped; the idealization rewrote nothing.
-/
import proofs.«144289_j40235253629489_1_alg».proof.Defs
import proofs.«144289_j40235253629489_1_alg».proof.Proof.Gen.Kernel
import proofs.«144289_j40235253629489_1_alg».proof.Proof.Gen.Kernel.Skeleton
import proofs.«144289_j40235253629489_1_alg».proof.Proof.Gen.Kernel.Launch
import proofs.«144289_j40235253629489_1_alg».proof.Proof.Gen.Kernel.Points
import proofs.«144289_j40235253629489_1_alg».proof.Proof.Gen.Kernel.Frame
import proofs.«144289_j40235253629489_1_alg».proof.Proof.Gen.KernelIdeal
import proofs.«144289_j40235253629489_1_alg».proof.Proof.Gen.KernelIdeal.Skeleton
import proofs.«144289_j40235253629489_1_alg».proof.Proof.Gen.KernelIdeal.Launch
import proofs.«144289_j40235253629489_1_alg».proof.Proof.Gen.KernelIdeal.Points
import proofs.«144289_j40235253629489_1_alg».proof.Proof.Gen.KernelIdeal.Frame
import proofs.«144289_j40235253629489_1_alg».proof.Proof.Gen.ReferenceIdeal
import proofs.«144289_j40235253629489_1_alg».proof.Proof.Gen.Pre_finite_inputs
import proofs.«144289_j40235253629489_1_alg».proof.Proof.Gen.ReferenceIdeal.Run
import proofs.«144289_j40235253629489_1_alg».proof.Proof.Gen.ReferenceIdeal.Read
import proofs.«144289_j40235253629489_1_alg».proof.Proof.Spec
import proofs.«144289_j40235253629489_1_alg».proof.Proof.SpecLaws
import proofs.«144289_j40235253629489_1_alg».proof.Proof.SpecStats
import proofs.«144289_j40235253629489_1_alg».proof.Proof.Finite
import proofs.«144289_j40235253629489_1_alg».proof.Proof.RefValue
import proofs.«144289_j40235253629489_1_alg».proof.Proof.PfnBody
import proofs.«144289_j40235253629489_1_alg».proof.Proof.StatsBody
import proofs.«144289_j40235253629489_1_alg».proof.Proof.KernelValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Pillar
open Cert.KernelIdeal (KValue.xK KValue.kOut KValue.mVox KValue.mCnt KValue.mCtr KValue.mW KValue.mGam KValue.mBet)

/-- The reference's result stage of the kernel's arguments is the kernel's result, under the precondition. -/
theorem bridge [hP : Cert.Pre_finite_inputs.Facts]
    (m : (ℓ : Loc Cert.KernelIdeal.nD Cert.KernelIdeal.τ Cert.KernelIdeal.sig) → Buf (Elt Ideal) ℓ) (c : Dev Cert.KernelIdeal.nD)
    (hp : Cert.Pre_finite_inputs.fn (F := Ideal) (KValue.mVox m c) (KValue.mCnt m c) (KValue.mCtr m c) (KValue.mW m c) (KValue.mGam m c) (KValue.mBet m c) = (fun _ => 1#1)) :
    Cert.ReferenceIdeal.Read.val_main_v52 (F := Ideal) (KValue.mVox m c) (KValue.mCnt m c) (KValue.mCtr m c) (KValue.mW m c) (KValue.mGam m c) (KValue.mBet m c)
      = KValue.kOut m c := by
  obtain ⟨r0, r2, r3, -, -⟩ := Cert.Pre_finite_inputs.Finite.real_of_pre _ _ _ _ _ _ hp
  -- every entry of the masked linear layer is a real number
  have hreal : ∀ a p o, ∃ r : ℝ, KValue.xK m c a p o = (r : EReal) :=
    Pillar.X_real _ _ _ _ _ _ (fun a p k => r0 (ix3 a p k)) (fun a k => r2 (ix2 a k))
      (fun k o => r3 (ix2 o ⟨k.val, by omega⟩)) (fun k o => r3 (ix2 o ⟨4 + k.val, by omega⟩)) (fun k o => r3 (ix2 o ⟨7 + k.val, by omega⟩))
  -- the two spellings of the layer, and of its variance
  have hXR : Pillar.XR (c3 (KValue.mVox m c)) (c1 (KValue.mCnt m c)) (c2 (KValue.mCtr m c)) (c2 (KValue.mW m c)) = KValue.xK m c :=
    funext fun a => funext fun p => funext fun o => Pillar.XR_eq_X _ _ _ _ a p o
  have hvar : Pillar.varR (KValue.xK m c) (Pillar.mean (Pillar.sum1 (KValue.xK m c)))
      = Pillar.varK (Pillar.sum1 (KValue.xK m c)) (Pillar.sum2 (KValue.xK m c)) :=
    funext fun o => (Pillar.var_eq _ hreal o).symm
  funext i
  obtain ⟨n, o, rfl⟩ : ∃ (n : Fin 100000) (o : Fin 64), i = ix2 n o := ⟨i 0, i 1, eq_ix2 i⟩
  rw [Cert.ReferenceIdeal.RefValue.ref_value, hXR, hvar]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at one result: the kernel's, named by its run, is the
    reference's result stage of the same arguments. -/
theorem algebraic : Cert.algebraic_KernelIdeal_ReferenceIdeal := by
  intro m ρ m' ρ' hpre hagree
  refine ⟨fun c => KValue.kOut m c,
    Cert.KernelIdeal.KValue.run m ρ Cert.KernelIdeal.PfnBody.out1_10_apply
      (fun V c n hn o => Cert.KernelIdeal.StatsBody.stats_at V c n hn o), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, (hagree c).1, (hagree c).2.1, (hagree c).2.2.1, (hagree c).2.2.2.1,
    (hagree c).2.2.2.2.1, (hagree c).2.2.2.2.2]
  exact bridge m c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
